-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S512x512 : Shape := ⟨2, ![512, 512]⟩
abbrev S512x256 : Shape := ⟨2, ![512, 256]⟩
abbrev S64x256 : Shape := ⟨2, ![64, 256]⟩
abbrev S64 : Shape := ⟨1, ![64]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x256 .f32) (main_arg5 : FVec F S64 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S64x256 .f32 := Host.absf main_arg4
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S4096x512 .f32) (main_arg1 : FVec F S4096x4096 .f32) (main_arg2 : FVec F S512x512 .f32) (main_arg3 : FVec F S512x256 .f32) (main_arg4 : FVec F S64x256 .f32) (main_arg5 : FVec F S64 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_v13 main_v16
-- ==== Kernel.lean ====
abbrev S4096x512 : Shape := ⟨2, ![4096, 512]⟩
abbrev S4096x4096 : Shape := ⟨2, ![4096, 4096]⟩
abbrev S512x512 : Shape := ⟨2, ![512, 512]⟩
abbrev S512x256 : Shape := ⟨2, ![512, 256]⟩
abbrev S64x256 : Shape := ⟨2, ![64, 256]⟩
abbrev S64 : Shape := ⟨1, ![64]⟩
abbrev S256x64 : Shape := ⟨2, ![256, 64]⟩
abbrev S1x64 : Shape := ⟨2, ![1, 64]⟩
abbrev S4096x256 : Shape := ⟨2, ![4096, 256]⟩
abbrev S4096x64 : Shape := ⟨2, ![4096, 64]⟩
abbrev S512x4096 : Shape := ⟨2, ![512, 4096]⟩
abbrev S512x64 : Shape := ⟨2, ![512, 64]⟩

abbrev nBuf : Space → Nat
  | .hbm => 16
  | .vmem => 17
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x512, .f32⟩
  | .hbm, ⟨3, _⟩ => ⟨S512x256, .f32⟩
  | .hbm, ⟨4, _⟩ => ⟨S64x256, .f32⟩
  | .hbm, ⟨5, _⟩ => ⟨S64, .f32⟩
  | .hbm, ⟨6, _⟩ => ⟨S512x512, .bf16⟩
  | .hbm, ⟨7, _⟩ => ⟨S512x256, .bf16⟩
  | .hbm, ⟨8, _⟩ => ⟨S256x64, .f32⟩
  | .hbm, ⟨9, _⟩ => ⟨S256x64, .bf16⟩
  | .hbm, ⟨10, _⟩ => ⟨S1x64, .f32⟩
  | .hbm, ⟨11, _⟩ => ⟨S4096x512, .bf16⟩
  | .hbm, ⟨12, _⟩ => ⟨S4096x512, .f32⟩
  | .hbm, ⟨13, _⟩ => ⟨S4096x256, .bf16⟩
  | .hbm, ⟨14, _⟩ => ⟨S4096x64, .f32⟩
  | .hbm, ⟨15, _⟩ => ⟨S4096x256, .f32⟩
  | .local _ .vmem, ⟨0, _⟩ => ⟨S4096x512, .f32⟩
  | .local _ .vmem, ⟨1, _⟩ => ⟨S512x512, .bf16⟩
  | .local _ .vmem, ⟨2, _⟩ => ⟨S4096x512, .bf16⟩
  | .local _ .vmem, ⟨3, _⟩ => ⟨S512x4096, .f32⟩
  | .local _ .vmem, ⟨4, _⟩ => ⟨S512x4096, .f32⟩
  | .local _ .vmem, ⟨5, _⟩ => ⟨S4096x512, .bf16⟩
  | .local _ .vmem, ⟨6, _⟩ => ⟨S512x256, .bf16⟩
  | .local _ .vmem, ⟨7, _⟩ => ⟨S256x64, .bf16⟩
  | .local _ .vmem, ⟨8, _⟩ => ⟨S1x64, .f32⟩
  | .local _ .vmem, ⟨9, _⟩ => ⟨S512x512, .f32⟩
  | .local _ .vmem, ⟨10, _⟩ => ⟨S512x512, .f32⟩
  | .local _ .vmem, ⟨11, _⟩ => ⟨S512x256, .bf16⟩
  | .local _ .vmem, ⟨12, _⟩ => ⟨S512x256, .bf16⟩
  | .local _ .vmem, ⟨13, _⟩ => ⟨S512x64, .f32⟩
  | .local _ .vmem, ⟨14, _⟩ => ⟨S512x64, .f32⟩
  | .local _ .vmem, ⟨15, _⟩ => ⟨S4096x4096, .bf16⟩
  | .local _ .vmem, ⟨16, _⟩ => ⟨S4096x256, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_v0_0 : Ref sig .tc := ⟨.hbm, 12, rfl⟩
abbrev main_call0_v6_1 : Ref sig .tc := ⟨.hbm, 13, rfl⟩
abbrev main_v0_2 : Ref sig .tc := ⟨.hbm, 14, rfl⟩
abbrev main_v0_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg5_1 : Ref sig .tc := ⟨.vmem, 10, rfl⟩
abbrev cc1_stg6_0 : Ref sig .tc := ⟨.vmem, 11, rfl⟩
abbrev cc1_stg6_1 : Ref sig .tc := ⟨.vmem, 12, rfl⟩
abbrev cc1_stg7_0 : Ref sig .tc := ⟨.vmem, 13, rfl⟩
abbrev cc1_stg7_1 : Ref sig .tc := ⟨.vmem, 14, rfl⟩
abbrev cc1_scratch0 : Ref sig .tc := ⟨.vmem, 15, rfl⟩
abbrev cc1_scratch1 : Ref sig .tc := ⟨.vmem, 16, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem5_1 : DmaSem sig := 10
abbrev cc1_sem6_0 : DmaSem sig := 11
abbrev cc1_sem6_1 : DmaSem sig := 12
abbrev cc1_sem7_0 : DmaSem sig := 13
abbrev cc1_sem7_1 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨2, ![2, 8], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_off1 (i : grid1.Coords) : Fin 2 → Nat :=
  let arg1 : BitVec 32 := BitVec.ofNat 32 (i 1).val
  let c512_i32 : BitVec 32 := 512#32
  let v8 : BitVec 32 := Scalar.muli arg1 c512_i32
  let v9 : Index := Scalar.indexCast v8
  let c0_3 : Index := 0#32
  ![v9.toNat, 0]
def k1_off2 (i : grid1.Coords) : Fin 2 → Nat :=
  let arg1 : BitVec 32 := BitVec.ofNat 32 (i 1).val
  let c512_i32_12 : BitVec 32 := 512#32
  let v24 : BitVec 32 := Scalar.muli arg1 c512_i32_12
  let v25 : Index := Scalar.indexCast v24
  let c0_13 : Index := 0#32
  ![v25.toNat, 0]
def k1_cond2 (i : grid1.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k1_off3 (i : grid1.Coords) : Fin 2 → Nat :=
  let arg1 : BitVec 32 := BitVec.ofNat 32 (i 1).val
  let c512_i32 : BitVec 32 := 512#32
  let v6 : BitVec 32 := Scalar.muli arg1 c512_i32
  let v7 : Index := Scalar.indexCast v6
  let c0 : Index := 0#32
  ![v7.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S4096x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S512x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  bitsLt_bf16_f32 : FTy.bits .bf16 < FTy.bits .f32
  transposes_S64x256_S256x64_1_0 : S64x256.Transposes [1, 0] S256x64
  shapeCasts_S64_S1x64 : S64.ShapeCasts S1x64
  inb_S4096x512_S4096x512_0_0 : ∀ a, (![0, 0] : Fin 2 → Nat) a + S4096x512.size a ≤ S4096x512.size a
  h_S4096x512 : 0 < S4096x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S4096x512_S4096x512_0_0 : (Rect.unit (s := S4096x512) ![0, 0] S4096x512.size inb_S4096x512_S4096x512_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  shapeCasts_S4096x512_S4096x512 : S4096x512.ShapeCasts S4096x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S4096x256_S4096x256_0_0 : ∀ a, (![0, 0] : Fin 2 → Nat) a + S4096x256.size a ≤ S4096x256.size a
  h_S4096x256 : 0 < S4096x256.numel
  packedbf16_S512x256_S512x256_0_0 : (Rect.unit (s := S512x256) ![0, 0] S512x256.size inb_S512x256_S512x256_0_0).PackedRows (EltTy.packing .bf16)
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  dot_S4096x512_S512x512_S4096x512_1_0_0_1_n_n_wf : DotDims.WF S4096x512 S512x512 S4096x512 [1] [0] [0] [1] [] []
  dot_S512x4096_S4096x512_S512x512_1_0_0_1_n_n_wf : DotDims.WF S512x4096 S4096x512 S512x512 [1] [0] [0] [1] [] []
  dot_S512x512_S512x256_S512x256_1_0_0_1_n_n_wf : DotDims.WF S512x512 S512x256 S512x256 [1] [0] [0] [1] [] []
  dot_S512x4096_S4096x256_S512x256_1_0_0_1_n_n_wf : DotDims.WF S512x4096 S4096x256 S512x256 [1] [0] [0] [1] [] []
  dot_S512x256_S256x64_S512x64_1_0_0_1_n_n_wf : DotDims.WF S512x256 S256x64 S512x64 [1] [0] [0] [1] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S4096x512.size a
  hwx0_0 : ∀ i : grid0.Coords, EltTy.bits .f32 = 32 ∨ (Rect.block (s := S4096x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S4096x512.size a
  hwx0_2 : ∀ i : grid0.Coords, EltTy.bits .bf16 = 32 ∨ (Rect.block (s := S4096x512) S4096x512.size (cc0_transform_2 i) (hinb0_2 i)).WholeWords (EltTy.packing .bf16)
  hrank1 : 0 < grid1.rank
  k1_off1_inb : ∀ i : grid1.Coords, ∀ (k1_h1 : k1_cond1 i = 1#1), ∀ a, (k1_off1 i) a + S512x4096.size a ≤ S4096x4096.size a
  k1_off1_packedbf16 : ∀ i : grid1.Coords, ∀ (k1_h1 : k1_cond1 i = 1#1), (Rect.unit (s := S4096x4096) (k1_off1 i) S512x4096.size (k1_off1_inb i k1_h1)).PackedRows (EltTy.packing .bf16)
  k1_off2_inb : ∀ i : grid1.Coords, ∀ (k1_h1 : k1_cond1 i = 1#1), ∀ a, (k1_off2 i) a + S512x256.size a ≤ S4096x256.size a
  k1_off2_packedbf16 : ∀ i : grid1.Coords, ∀ (k1_h1 : k1_cond1 i = 1#1), (Rect.unit (s := S4096x256) (k1_off2 i) S512x256.size (k1_off2_inb i k1_h1)).PackedRows (EltTy.packing .bf16)
  k1_off3_inb : ∀ i : grid1.Coords, ∀ (k1_h2 : k1_cond2 i = 1#1), ∀ a, (k1_off3 i) a + S512x4096.size a ≤ S4096x4096.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S4096x512.size a
  hwx1_1 : ∀ i : grid1.Coords, EltTy.bits .bf16 = 32 ∨ (Rect.block (s := S4096x512) S4096x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S512x256.size a
  hwx1_2 : ∀ i : grid1.Coords, EltTy.bits .bf16 = 32 ∨ (Rect.block (s := S512x256) S512x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .bf16 = 32 ∨ (Rect.block (s := S256x64) S256x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S4096x512.size a
  hwx1_5 : ∀ i : grid1.Coords, EltTy.bits .f32 = 32 ∨ (Rect.block (s := S4096x512) S512x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x256.size a ≤ S4096x256.size a
  hwx1_6 : ∀ i : grid1.Coords, EltTy.bits .bf16 = 32 ∨ (Rect.block (s := S4096x256) S512x256.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x64.size a ≤ S4096x64.size a
  hwx1_7 : ∀ i : grid1.Coords, EltTy.bits .f32 = 32 ∨ (Rect.block (s := S4096x64) S512x64.size (cc1_transform_7 i) (hinb1_7 i)).WholeWords (EltTy.packing .f32)

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x64_S512x64_1_0_0_1_n_n : DotDims S512x256 S256x64 S512x64 where
  lhsContracting := [1]
  rhsContracting := [0]
  lhsNonContracting := [0]
  rhsNonContracting := [1]
  lhsBatch := []
  rhsBatch := []
  wf := dot_S512x256_S256x64_S512x64_1_0_0_1_n_n_wf

abbrev win0_0 : Pipeline.Window sig grid0 :=
  Pipeline.Window.ofSpec (Memref.whole main_arg0) S4096x512.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v5) S4096x512.size cc0_transform_2 reads0_2 true false 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v5) S4096x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v1) S512x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v3) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v4) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v0_0) S512x512.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_call0_v6_1) S512x256.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v0_2) S512x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun i => !(k1_cond1 i == 1#1) | 6 => fun i => !(k1_cond2 i == 1#1) | 7 => fun i => !(k1_cond2 i == 1#1) | ⟨_ + 8, h⟩ => absurd h (Nat.not_lt.2 (Nat.le_add_left _ _))

class Facts : Prop extends Facts₀ where

variable [Facts]
-- ==== ReferenceIdeal.lean ====
abbrev S4096x512 : Shape := ⟨2, ![4096, 512]⟩
abbrev S4096x4096 : Shape := ⟨2, ![4096, 4096]⟩
abbrev S512x512 : Shape := ⟨2, ![512, 512]⟩
abbrev S512x256 : Shape := ⟨2, ![512, 256]⟩
abbrev S64x256 : Shape := ⟨2, ![64, 256]⟩
abbrev S64 : Shape := ⟨1, ![64]⟩
abbrev S_ : Shape := ⟨0, ![]⟩
abbrev S4096x256 : Shape := ⟨2, ![4096, 256]⟩
abbrev S256x64 : Shape := ⟨2, ![256, 64]⟩
abbrev S4096x64 : Shape := ⟨2, ![4096, 64]⟩
abbrev S1x64 : Shape := ⟨2, ![1, 64]⟩

abbrev nBuf : Space → Nat
  | .hbm => 21
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x512, .f32⟩
  | .hbm, ⟨3, _⟩ => ⟨S512x256, .f32⟩
  | .hbm, ⟨4, _⟩ => ⟨S64x256, .f32⟩
  | .hbm, ⟨5, _⟩ => ⟨S64, .f32⟩
  | .hbm, ⟨6, _⟩ => ⟨S4096x512, .f32⟩
  | .hbm, ⟨7, _⟩ => ⟨S4096x512, .f32⟩
  | .hbm, ⟨8, _⟩ => ⟨S_, .f32⟩
  | .hbm, ⟨9, _⟩ => ⟨S4096x512, .f32⟩
  | .hbm, ⟨10, _⟩ => ⟨S4096x512, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096x256, .f32⟩
  | .hbm, ⟨15, _⟩ => ⟨S4096x256, .f32⟩
  | .hbm, ⟨16, _⟩ => ⟨S256x64, .f32⟩
  | .hbm, ⟨17, _⟩ => ⟨S4096x64, .f32⟩
  | .hbm, ⟨18, _⟩ => ⟨S1x64, .f32⟩
  | .hbm, ⟨19, _⟩ => ⟨S4096x64, .f32⟩
  | .hbm, ⟨20, _⟩ => ⟨S4096x64, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_cst : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]

class Facts₀ : Prop where
  bcast_S_S4096x512 : S_.BroadcastsInDim S4096x512 (![] : Fin 0 → Fin S4096x512.rank)
  bcast_S_S4096x256 : S_.BroadcastsInDim S4096x256 (![] : Fin 0 → Fin S4096x256.rank)
  transposes_S64x256_S256x64_1_0 : S64x256.Transposes [1, 0] S256x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  dot_S4096x512_S512x512_S4096x512_1_0_0_1_n_n_wf : DotDims.WF S4096x512 S512x512 S4096x512 [1] [0] [0] [1] [] []
  dot_S4096x4096_S4096x512_S4096x512_1_0_0_1_n_n_wf : DotDims.WF S4096x4096 S4096x512 S4096x512 [1] [0] [0] [1] [] []
  dot_S4096x512_S512x256_S4096x256_1_0_0_1_n_n_wf : DotDims.WF S4096x512 S512x256 S4096x256 [1] [0] [0] [1] [] []
  dot_S4096x4096_S4096x256_S4096x256_1_0_0_1_n_n_wf : DotDims.WF S4096x4096 S4096x256 S4096x256 [1] [0] [0] [1] [] []
  dot_S4096x256_S256x64_S4096x64_1_0_0_1_n_n_wf : DotDims.WF S4096x256 S256x64 S4096x64 [1] [0] [0] [1] [] []

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf

class Facts : Prop extends Facts₀ where

variable [Facts]
-- ==== Proof.K.R1Defs.lean ====
import proofs.«145978_g57612691309227_cont_sun_m_451_18_alg».proof.Proof.Gen.Kernel.Launch
import proofs.«145978_g57612691309227_cont_sun_m_451_18_alg».proof.Proof.Gen.Kernel.Skeleton
import proofs.«145978_g57612691309227_cont_sun_m_451_18_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second region: what its scratch buffers and its staging buffers hold, point by point

The grid has sixteen points, two phases of eight. At point `m < 8` the body parks row block `m` of the
propagation matrix (narrowed) in the first scratch buffer, stores the first layer's row block `m` and parks the
second layer's pre-activation operand's row block `m` in the second scratch buffer. At point `8 + m` it reads row
block `m` of the first scratch buffer and ALL of the second, and stores the second layer's row block `m` and the
projection's row block `m`. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two scratch operands as whole memrefs. -/
abbrev scM0 : Memref sig .tc .vmem S4096x4096 .bf16 := Memref.whole cc1_scratch0
abbrev scM1 : Memref sig .tc .vmem S4096x256 .bf16 := Memref.whole cc1_scratch1

/-- A row block's number as a point of the first phase, and a point's row block. -/
def pt (m : Fin 8) : Fin cfg1.N := ⟨m.val, lt_of_lt_of_le m.isLt (by decide)⟩
def m8 (t : Fin cfg1.N) : Fin 8 := ⟨t.val % 8, Nat.mod_lt _ (by decide)⟩
theorem pt_val (m : Fin 8) : (pt m).val = m.val := rfl
theorem m8_val (t : Fin cfg1.N) : (m8 t).val = t.val % 8 := rfl

/-- Row block `m` of the first scratch buffer (512 rows from row `512·m`, all 4096 columns) and of the second
    (all 256 columns). -/
def rS0 (m : Fin 8) : Rect S4096x4096 :=
  Rect.unit (s := S4096x4096) ![512 * m.val, 0] S512x4096.size (fun a => by
    have := m.isLt
    match a with
    | ⟨0, _⟩ => show 512 * m.val + 512 ≤ 4096; omega
    | ⟨1, _⟩ => show 0 + 4096 ≤ 4096; omega)
def rS1 (m : Fin 8) : Rect S4096x256 :=
  Rect.unit (s := S4096x256) ![512 * m.val, 0] S512x256.size (fun a => by
    have := m.isLt
    match a with
    | ⟨0, _⟩ => show 512 * m.val + 512 ≤ 4096; omega
    | ⟨1, _⟩ => show 0 + 256 ≤ 256; omega)

/-- What point `m` of the first phase parks in the scratch buffers' row block `m`. -/
def S0blk (c : Dev nD) (m : Fin 8) : Vec F S512x4096 .bf16 := k1_pay2 (iblk1 V c 0 (pt m))
def S1blk (c : Dev nD) (m : Fin 8) : Vec F S512x256 .bf16 := k1_pay4 (iblk1 V c 0 (pt m)) (iblk1 V c 1 (pt m)) (iblk1 V c 2 (pt m))

/-- The second scratch buffer once all eight row blocks are parked: row `r` is row `r % 512` of block `r / 512`. -/
def S1full (c : Dev nD) : Vec F S4096x256 .bf16 := fun j =>
  S1blk V c ⟨(j 0).val / 512, by have := ValueIdx.idx2_lt0 j; omega⟩
    (ValueIdx.ix2 (⟨(j 0).val % 512, Nat.mod_lt _ (by decide)⟩ : Fin 512) (j 1 : Fin 256))

/-- The scratch buffers before point `n`: the row blocks parked so far hold what their points left. -/
def Inv (c : Dev nD) (n : ℕ) (s0 : Vec F S4096x4096 .bf16) (s1 : Vec F S4096x256 .bf16) : Prop :=
  (∀ m : Fin 8, m.val < n → View.ld s0 (rS0 m) = S0blk V c m) ∧ (∀ m : Fin 8, m.val < n → View.ld s1 (rS1 m) = S1blk V c m)

/-- What each output's staging buffer holds after the body. The first layer's output is stored in the first phase and
    then keeps the last block stored (point 7's) until the grid's end; the two second-phase outputs are stored at the
    second phase's points from the parked row block and the whole second scratch buffer. -/
def out5 (c : Dev nD) (t : Fin cfg1.N) : Vec F S512x512 .f32 :=
  if t.val < 8 then k1_pay3 (iblk1 V c 0 t) (iblk1 V c 1 t) else k1_pay3 (iblk1 V c 0 t1_7) (iblk1 V c 1 t1_7)
def out6 (c : Dev nD) (t : Fin cfg1.N) : Vec F S512x256 .bf16 := k1_pay6 (S0blk V c (m8 t)) (S1full V c)
def out7 (c : Dev nD) (t : Fin cfg1.N) : Vec F S512x64 .f32 := k1_pay7 (S0blk V c (m8 t)) (S1full V c) (iblk1 V c 3 t) (iblk1 V c 4 t)

/-- The first region's staging buffers, which the second region's kernel never names. -/
def rest0 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f))

/-- The region's invariant before point `n`: the scratch buffers at contents with the parked row blocks as stated,
    the other scoped buffers at anything, the generator register at some state. -/
def Phi1 (c : Dev nD) (n : ℕ) : sProp 𝕄 :=
  iprop((∃ s0 s1, ⌜Inv V c n s0 s1⌝ ∗ owns (c : Thread nD τ) scM0 fullShare s0 ∗ owns (c : Thread nD τ) scM1 fullShare s1)
    ∗ rest0 (F := F) c ∗ ∃ r, prngReg c r)

/-- The proof data of the second pipeline on core `c`, at the entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out5 V c t
    | ⟨6, _⟩ => out6 V c t
    | ⟨7, _⟩ => out7 V c t
  Φ t := Phi1 V c t.val
  q _ := fullShare
  owed _ := 0

theorem A_eq1 (c : Dev nD) (w : Fin cfg1.W) : (dat1 V c).A w = V c (Pipeline.arrRef spec1 w) := by
  dsimp only [dat1]
theorem Phi_eq1 (c : Dev nD) (t : Fin (cfg1.N + 1)) : (dat1 V c).Φ t = Phi1 V c t.val := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out5 V c t := by dsimp only [dat1]
theorem after1_6 (c : Dev nD) (t : Fin cfg1.N) : (dat1 V c).after 6 t = out6 V c t := by dsimp only [dat1]
theorem after1_7 (c : Dev nD) (t : Fin cfg1.N) : (dat1 V c).after 7 t = out7 V c t := by dsimp only [dat1]

end

end Cert.Kernel.Hand

end
-- ==== Proof.K.Region0.lean ====
import proofs.«145978_g57612691309227_cont_sun_m_451_18_alg».proof.Proof.Gen.Kernel.Launch
import proofs.«145978_g57612691309227_cont_sun_m_451_18_alg».proof.Proof.Gen.Kernel.Skeleton
import proofs.«145978_g57612691309227_cont_sun_m_451_18_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first region: one point, the whole feature matrix times the first weight matrix

The body loads the feature matrix's block (all of it) and the weight matrix, multiplies them and stores the narrowed
product over the whole output block. -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's three accesses: each the whole of its buffer. -/
abbrev r0_x : Rect S4096x512 := Rect.unit (s := S4096x512) ![0, 0] S4096x512.size inb_S4096x512_S4096x512_0_0
abbrev r0_w : Rect S512x512 := Rect.unit (s := S512x512) ![0, 0] S512x512.size inb_S512x512_S512x512_0_0

/-- The output's staging buffer after the body: its one store, over the whole buffer. -/
def out0_2 (x0 : Vec F S4096x512 .f32) (x1 : Vec F S512x512 .bf16) : Vec F S4096x512 .bf16 :=
  View.canon [⟨r0_x, k0_pay1 (View.ld x0 r0_x) (View.ld x1 r0_w)⟩]

theorem cover0_2 (p0 : Vec F S4096x512 .bf16) (y : S4096x512.Idx) :
    ∃ pc ∈ ([⟨r0_x, p0⟩] : List (View.Piece (Elt F) S4096x512 .bf16)), y ∈ pc.1.set :=
  View.cover_of_tiled [⟨r0_x, p0⟩] S4096x512.size (by rfl) y

set_option maxHeartbeats 1000000 in
/-- The body on whole staging memrefs: the inputs' buffers are left as found, the output's ends at `out0_2`. -/
theorem sound_kernel0 (c : Dev nD) (E : Set ℕ) (i : grid0.Coords) (arg1 : Memref sig .tc .vmem S4096x512 .f32) (harg1 : arg1.IsWhole)
    (arg2 : Memref sig .tc .vmem S512x512 .bf16) (harg2 : arg2.IsWhole) (arg3 : Memref sig .tc .vmem S4096x512 .bf16) (harg3 : arg3.IsWhole)
    (x0 : Vec F S4096x512 .f32) (x1 : Vec F S512x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__s1_body i arg1 harg1 arg2 harg2 arg3 harg3) K := by
  simp only [cc0__s1_body_eq_skeleton]; unfold cc0__s1_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`, at the entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.K.R1Run.lean ====
import proofs.«145978_g57612691309227_cont_sun_m_451_18_alg».proof.Proof.Gen.Kernel.Launch
import proofs.«145978_g57612691309227_cont_sun_m_451_18_alg».proof.Proof.Gen.Kernel.Skeleton
import proofs.«145978_g57612691309227_cont_sun_m_451_18_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second region's body, run once per phase, on any whole memrefs -/

/-- The rectangles of the body's accesses to the scratch buffers at grid coordinates `i`. -/
abbrev rOff1 (i : grid1.Coords) (h1 : k1_cond1 i = 1#1) : Rect S4096x4096 :=
  Rect.unit (s := S4096x4096) (k1_off1 i) S512x4096.size (k1_off1_inb i h1)
abbrev rOff2 (i : grid1.Coords) (h1 : k1_cond1 i = 1#1) : Rect S4096x256 :=
  Rect.unit (s := S4096x256) (k1_off2 i) S512x256.size (k1_off2_inb i h1)
abbrev rOff3 (i : grid1.Coords) (h2 : k1_cond2 i = 1#1) : Rect S4096x4096 :=
  Rect.unit (s := S4096x4096) (k1_off3 i) S512x4096.size (k1_off3_inb i h2)

/-! ## What one load or one store reads -/

/-- The offsets of an access to the whole of a rank-two buffer are zero on both axes. -/
private theorem hz2 : (![0, 0] : Fin 2 → ℕ) = fun _ => 0 := by funext a; fin_cases a <;> rfl

/-- A load of the whole of a whole memref whose contents read `X` reads `X`. -/
private theorem readAt_whole {S : Shape} {e : EltTy} (m : Memref sig .tc .vmem S e) (hm : m.IsWhole) (X : Vec F S e)
    {off : Fin S.rank → ℕ} (hz : off = fun _ => 0) (inb : ∀ a, off a + S.size a ≤ S.size a) :
    View.readAt (Elt F) m.view (Rect.unit off S.size inb).toLoadRect (hm.unread X) = X := by
  rw [View.readAt_eq_ld, hm.read_unread, View.ld_unit_zero hz]

/-- A load through a rectangle of a whole memref whose contents read `X` reads `X` at the rectangle's indices. -/
private theorem readAt_rect {S : Shape} {e : EltTy} (m : Memref sig .tc .vmem S e) (hm : m.IsWhole) (X : Vec F S e) (r : Rect S) :
    View.readAt (Elt F) m.view r.toLoadRect (hm.unread X) = View.ld X r := by
  rw [View.readAt_eq_ld, hm.read_unread]

/-- One store through the whole of a buffer leaves its payload, whatever the buffer held. -/
private theorem read_store_whole {S : Shape} {e : EltTy} (v : View sig .tc .vmem S e) (f : v.ty.Contents (Elt F))
    {off : Fin S.rank → ℕ} (hz : off = fun _ => 0) (inb : ∀ a, off a + S.size a ≤ S.size a) (w : Vec F S e) :
    v.read (Elt F) (v.writes (Elt F) f [⟨Rect.unit off S.size inb, w⟩]) = w := by
  rw [View.read_writes_eq_canon _ _ _ (fun y => ⟨_, List.mem_singleton_self _, View.mem_set_unit_zero hz inb y⟩),
    View.canon_unit_zero hz]

/-- One store through a rectangle, over prior contents `f`: read back through the rectangle, the payload; -/
private theorem ld_read_store {S : Shape} {e : EltTy} (v : View sig .tc .vmem S e) (f : v.ty.Contents (Elt F)) (r : Rect S)
    (w : r.shape.Idx → Elt F e) : View.ld (v.read (Elt F) (v.writes (Elt F) f [⟨r, w⟩])) r = w :=
  funext fun x => View.read_writes_cons_emb v f r w [] x

/-- off the rectangle, what `f` reads. -/
private theorem read_store_off {S : Shape} {e : EltTy} (v : View sig .tc .vmem S e) (f : v.ty.Contents (Elt F)) (r : Rect S)
    (w : r.shape.Idx → Elt F e) (y : S.Idx) (hy : y ∉ r.set) :
    v.read (Elt F) (v.writes (Elt F) f [⟨r, w⟩]) y = v.read (Elt F) f y :=
  View.read_writes_apply_of_forall_not_mem v f y _ (fun p hp => by rw [List.mem_singleton.mp hp]; exact hy)

set_option maxHeartbeats 2000000 in
/-- FIRST PHASE (the first conditional taken, the second not). From the three inputs it reads at contents `x0`, `x1`,
    `x2`, the first output's buffer at anything and the scratch buffers at `s0`, `s1`, the body runs to: the inputs as
    they were, the first output's buffer at `k1_pay3 x0 x1`, and each scratch buffer changed on its rectangle only — there
    at the stored payload, elsewhere as it was. -/
theorem run_phase0 (c : Dev nD) (E : Set ℕ) (i : grid1.Coords) (h1 : k1_cond1 i = 1#1) (h2 : ¬ k1_cond2 i = 1#1)
    (arg2 : Memref sig .tc .vmem S512x4096 .f32) (harg2 : arg2.IsWhole) (arg3 : Memref sig .tc .vmem S4096x512 .bf16) (harg3 : arg3.IsWhole) (arg4 : Memref sig .tc .vmem S512x256 .bf16) (harg4 : arg4.IsWhole) (arg5 : Memref sig .tc .vmem S256x64 .bf16) (harg5 : arg5.IsWhole) (arg6 : Memref sig .tc .vmem S1x64 .f32) (harg6 : arg6.IsWhole) (arg7 : Memref sig .tc .vmem S512x512 .f32) (harg7 : arg7.IsWhole) (arg8 : Memref sig .tc .vmem S512x256 .bf16) (harg8 : arg8.IsWhole) (arg9 : Memref sig .tc .vmem S512x64 .f32) (harg9 : arg9.IsWhole) (arg10 : Memref sig .tc .vmem S4096x4096 .bf16) (harg10 : arg10.IsWhole) (arg11 : Memref sig .tc .vmem S4096x256 .bf16) (harg11 : arg11.IsWhole)
    (x0 : Vec F S512x4096 .f32) (x1 : Vec F S4096x512 .bf16) (x2 : Vec F S512x256 .bf16)
    (s0 : Vec F S4096x4096 .bf16) (s1 : Vec F S4096x256 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg7 fullShare d)
        ∗ owns (c : Thread nD τ) arg10 fullShare s0 ∗ owns (c : Thread nD τ) arg11 fullShare s1
        ∗ (iprop(owns (c : Thread nD τ) arg2 fullShare x0 ∗ owns (c : Thread nD τ) arg3 fullShare x1 ∗ owns (c : Thread nD τ) arg4 fullShare x2
            ∗ owns (c : Thread nD τ) arg7 fullShare (k1_pay3 x0 x1)
            ∗ (∃ s0' : Vec F S4096x4096 .bf16, ⌜View.ld s0' (rOff1 i h1) = k1_pay2 x0 ∧ ∀ y, y ∉ (rOff1 i h1).set → s0' y = s0 y⌝
                ∗ owns (c : Thread nD τ) arg10 fullShare s0')
            ∗ (∃ s1' : Vec F S4096x256 .bf16, ⌜View.ld s1' (rOff2 i h1) = k1_pay4 x0 x1 x2 ∧ ∀ y, y ∉ (rOff2 i h1).set → s1' y = s1 y⌝
                ∗ owns (c : Thread nD τ) arg11 fullShare s1')) -∗ K ⟨⟩))
      ⊢ wp frame (wpE (defs₀ (F := F)) Variants.none c none) E (cc1__prop_body i arg2 harg2 arg3 harg3 arg4 harg4 arg5 harg5 arg6 harg6 arg7 harg7 arg8 harg8 arg9 harg9 arg10 harg10 arg11 harg11) K := by
  simp only [cc1__prop_body_eq_skeleton]; unfold cc1__prop_body_skel
  unfold owns
  iintro ⟨⟨%f0, %hf0, H0⟩, ⟨%f1, %hf1, H1⟩, ⟨%f2, %hf2, H2⟩, ⟨%d5, %f5, -, H5⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg10.eq_unread hfs0; obtain rfl := harg11.eq_unread hfs1
  sl_exec (disch := first | exact h1 | exact h2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H5]
  · iexists _; isplitr
    swap; · iexact H5
    ipureintro
    rw [read_store_whole _ _ hz2, readAt_whole arg2 harg2 x0 hz2, readAt_whole arg3 harg3 x1 hz2]
  isplitl [HS0]
  · iexists _; isplitr
    swap
    · iexists _; isplitr
      swap; · iexact HS0
      ipureintro; rfl
    ipureintro
    refine ⟨?_, fun y hy => ?_⟩
    · rw [ld_read_store, readAt_whole arg2 harg2 x0 hz2]
    · rw [read_store_off _ _ _ _ y hy, harg10.read_unread]
  · iexists _; isplitr
    swap
    · iexists _; isplitr
      swap; · iexact HS1
      ipureintro; rfl
    ipureintro
    refine ⟨?_, fun y hy => ?_⟩
    · rw [ld_read_store, readAt_whole arg2 harg2 x0 hz2, readAt_whole arg3 harg3 x1 hz2, readAt_whole arg4 harg4 x2 hz2]
    · rw [read_store_off _ _ _ _ y hy, harg11.read_unread]

set_option maxHeartbeats 2000000 in
/-- SECOND PHASE (the first conditional not taken, the second taken). From the projection's two inputs at `x3`, `x4`,
    the two second-phase outputs' buffers at anything and the scratch buffers at `s0`, `s1`, the body runs to: those
    inputs and the scratch buffers as they were, and the outputs' buffers at the payloads of the scratch buffer's row
    block and the whole second scratch buffer. -/
theorem run_phase1 (c : Dev nD) (E : Set ℕ) (i : grid1.Coords) (h1 : ¬ k1_cond1 i = 1#1) (h2 : k1_cond2 i = 1#1)
    (arg2 : Memref sig .tc .vmem S512x4096 .f32) (harg2 : arg2.IsWhole) (arg3 : Memref sig .tc .vmem S4096x512 .bf16) (harg3 : arg3.IsWhole) (arg4 : Memref sig .tc .vmem S512x256 .bf16) (harg4 : arg4.IsWhole) (arg5 : Memref sig .tc .vmem S256x64 .bf16) (harg5 : arg5.IsWhole) (arg6 : Memref sig .tc .vmem S1x64 .f32) (harg6 : arg6.IsWhole) (arg7 : Memref sig .tc .vmem S512x512 .f32) (harg7 : arg7.IsWhole) (arg8 : Memref sig .tc .vmem S512x256 .bf16) (harg8 : arg8.IsWhole) (arg9 : Memref sig .tc .vmem S512x64 .f32) (harg9 : arg9.IsWhole) (arg10 : Memref sig .tc .vmem S4096x4096 .bf16) (harg10 : arg10.IsWhole) (arg11 : Memref sig .tc .vmem S4096x256 .bf16) (harg11 : arg11.IsWhole)
    (x3 : Vec F S256x64 .bf16) (x4 : Vec F S1x64 .f32)
    (s0 : Vec F S4096x4096 .bf16) (s1 : Vec F S4096x256 .bf16) (K : PUnit → sProp 𝕄) :
    iprop(owns (c : Thread nD τ) arg5 fullShare x3 ∗ owns (c : Thread nD τ) arg6 fullShare x4
        ∗ (∃ d, owns (c : Thread nD τ) arg8 fullShare d) ∗ (∃ d, owns (c : Thread nD τ) arg9 fullShare d)
        ∗ owns (c : Thread nD τ) arg10 fullShare s0 ∗ owns (c : Thread nD τ) arg11 fullShare s1
        ∗ (iprop(owns (c : Thread nD τ) arg5 fullShare x3 ∗ owns (c : Thread nD τ) arg6 fullShare x4
            ∗ owns (c : Thread nD τ) arg8 fullShare (k1_pay6 (View.ld s0 (rOff3 i h2)) s1)
            ∗ owns (c : Thread nD τ) arg9 fullShare (k1_pay7 (View.ld s0 (rOff3 i h2)) s1 x3 x4)
            ∗ owns (c : Thread nD τ) arg10 fullShare s0 ∗ owns (c : Thread nD τ) arg11 fullShare s1) -∗ K ⟨⟩))
      ⊢ wp frame (wpE (defs₀ (F := F)) Variants.none c none) E (cc1__prop_body i arg2 harg2 arg3 harg3 arg4 harg4 arg5 harg5 arg6 harg6 arg7 harg7 arg8 harg8 arg9 harg9 arg10 harg10 arg11 harg11) K := by
  simp only [cc1__prop_body_eq_skeleton]; unfold cc1__prop_body_skel
  unfold owns
  iintro ⟨⟨%f3, %hf3, H3⟩, ⟨%f4, %hf4, H4⟩, ⟨%d8, %f8, -, H8⟩, ⟨%d9, %f9, -, H9⟩, ⟨%fs0, %hfs0, HS0⟩, ⟨%fs1, %hfs1, HS1⟩, Hk⟩
  obtain rfl := harg5.eq_unread hf3; obtain rfl := harg6.eq_unread hf4
  obtain rfl := harg10.eq_unread hfs0; obtain rfl := harg11.eq_unread hfs1
  sl_exec (disch := first | exact h1 | exact h2)
  sl_step
  iapply Hk
  isplitl [H3]
  · iexists _; isplitr; · ipureintro; exact hf3
    iexact H3
  isplitl [H4]
  · iexists _; isplitr; · ipureintro; exact hf4
    iexact H4
  isplitl [H8]
  · iexists _; isplitr
    swap; · iexact H8
    ipureintro
    rw [read_store_whole _ _ hz2, readAt_rect arg10 harg10 s0, readAt_whole arg11 harg11 s1 hz2]
  isplitl [H9]
  · iexists _; isplitr
    swap; · iexact H9
    ipureintro
    rw [read_store_whole _ _ hz2, readAt_rect arg10 harg10 s0, readAt_whole arg11 harg11 s1 hz2,
      readAt_whole arg5 harg5 x3 hz2, readAt_whole arg6 harg6 x4 hz2]
  isplitl [HS0]
  · iexists _; isplitr; · ipureintro; exact hfs0
    iexact HS0
  · iexists _; isplitr; · ipureintro; exact hfs1
    iexact HS1

end Cert.Kernel.Hand

end
-- ==== Proof.K.R1Sched.lean ====
import proofs.«145978_g57612691309227_cont_sun_m_451_18_alg».proof.Proof.Gen.Kernel.Launch
import proofs.«145978_g57612691309227_cont_sun_m_451_18_alg».proof.Proof.Gen.Kernel.Skeleton
import proofs.«145978_g57612691309227_cont_sun_m_451_18_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import proofs.«145978_g57612691309227_cont_sun_m_451_18_alg».proof.Proof.K.R1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second region's schedule: where each conditional holds, where each window is idle, fetched and written
back — decided over the sixteen points — and what each window's staging buffer holds when the body runs -/

/-- The first conditional holds in the first phase, the second in the second. -/
theorem hcond1 : ∀ t : Fin cfg1.N, k1_cond1 (grid1.coords t) = 1#1 ↔ t.val < 8 :=
  (by decide +kernel : ∀ t : Fin grid1.N, k1_cond1 (grid1.coords t) = 1#1 ↔ t.val < 8)
theorem hcond2 : ∀ t : Fin cfg1.N, k1_cond2 (grid1.coords t) = 1#1 ↔ 8 ≤ t.val :=
  (by decide +kernel : ∀ t : Fin grid1.N, k1_cond2 (grid1.coords t) = 1#1 ↔ 8 ≤ t.val)

/-- The scratch accesses' offsets: row `512·(t % 8)`, column 0. -/
theorem off1_eq : ∀ t : Fin cfg1.N, k1_off1 (grid1.coords t) = ![512 * (t.val % 8), 0] :=
  (by decide +kernel : ∀ t : Fin grid1.N, k1_off1 (grid1.coords t) = ![512 * (t.val % 8), 0])
theorem off2_eq : ∀ t : Fin cfg1.N, k1_off2 (grid1.coords t) = ![512 * (t.val % 8), 0] :=
  (by decide +kernel : ∀ t : Fin grid1.N, k1_off2 (grid1.coords t) = ![512 * (t.val % 8), 0])
theorem off3_eq : ∀ t : Fin cfg1.N, k1_off3 (grid1.coords t) = ![512 * (t.val % 8), 0] :=
  (by decide +kernel : ∀ t : Fin grid1.N, k1_off3 (grid1.coords t) = ![512 * (t.val % 8), 0])

/-- The inputs are never idle; the first output is idle in the second phase, the other two in the first. -/
theorem live1_0 : ∀ i, cfg1.idle 0 i = false := fun _ => rfl
theorem live1_1 : ∀ i, cfg1.idle 1 i = false := fun _ => rfl
theorem live1_2 : ∀ i, cfg1.idle 2 i = false := fun _ => rfl
theorem live1_3 : ∀ i, cfg1.idle 3 i = false := fun _ => rfl
theorem live1_4 : ∀ i, cfg1.idle 4 i = false := fun _ => rfl
theorem idle1_5 : ∀ t : Fin cfg1.N, cfg1.idle 5 (grid1.coords t) = decide (8 ≤ t.val) :=
  (by decide +kernel : ∀ t : Fin grid1.N, cfg1.idle 5 (grid1.coords t) = decide (8 ≤ t.val))
theorem idle1_6 : ∀ t : Fin cfg1.N, cfg1.idle 6 (grid1.coords t) = decide (t.val < 8) :=
  (by decide +kernel : ∀ t : Fin grid1.N, cfg1.idle 6 (grid1.coords t) = decide (t.val < 8))
theorem idle1_7 : ∀ t : Fin cfg1.N, cfg1.idle 7 (grid1.coords t) = decide (t.val < 8) :=
  (by decide +kernel : ∀ t : Fin grid1.N, cfg1.idle 7 (grid1.coords t) = decide (t.val < 8))

/-- The first output is written back after each of the first seven points and at the last; the other two after
    every point of the second phase. -/
theorem flush1_5 : ∀ t : Fin cfg1.N, (cfg1.win 5).flush t = decide (t.val < 7 ∨ t.val = 15) :=
  (by decide +kernel : ∀ t : Fin grid1.N, win1_5.flush t = decide (t.val < 7 ∨ t.val = 15))
theorem flush1_6 : ∀ t : Fin cfg1.N, (cfg1.win 6).flush t = decide (8 ≤ t.val) :=
  (by decide +kernel : ∀ t : Fin grid1.N, win1_6.flush t = decide (8 ≤ t.val))
theorem flush1_7 : ∀ t : Fin cfg1.N, (cfg1.win 7).flush t = decide (8 ≤ t.val) :=
  (by decide +kernel : ∀ t : Fin grid1.N, win1_7.flush t = decide (8 ≤ t.val))

/-- The windows' block indices: the propagation matrix and the first output at row block `t` in the first phase and
    parked at 7 afterwards; the second-phase outputs parked at 0 in the first phase and at row block `t - 8` afterwards;
    the other inputs at their one block. -/
theorem index1_0 : ∀ t : Fin cfg1.N, (cfg1.win 0).index t = ![if t.val < 8 then t.val else 7, 0] :=
  (by decide +kernel : ∀ t : Fin grid1.N, win1_0.index t = ![if t.val < 8 then t.val else 7, 0])
theorem index1_5 : ∀ t : Fin cfg1.N, (cfg1.win 5).index t = ![if t.val < 8 then t.val else 7, 0] :=
  (by decide +kernel : ∀ t : Fin grid1.N, win1_5.index t = ![if t.val < 8 then t.val else 7, 0])
theorem index1_6 : ∀ t : Fin cfg1.N, (cfg1.win 6).index t = ![if t.val < 8 then 0 else t.val - 8, 0] :=
  (by decide +kernel : ∀ t : Fin grid1.N, win1_6.index t = ![if t.val < 8 then 0 else t.val - 8, 0])
theorem index1_7 : ∀ t : Fin cfg1.N, (cfg1.win 7).index t = ![if t.val < 8 then 0 else t.val - 8, 0] :=
  (by decide +kernel : ∀ t : Fin grid1.N, win1_7.index t = ![if t.val < 8 then 0 else t.val - 8, 0])

section
variable (V : (c : Dev nD) → (b : Ref sig .tc) → Buf (Elt F) ((c : Thread nD τ).loc b))

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- In the second phase the first output's buffer still holds what point 7 stored: nothing wrote it back and the body
    left it alone. -/
theorem before1_5_late (c : Dev nD) (t : Fin cfg1.N) (ht : 8 ≤ t.val) (d) : (dat1 V c).before 5 t d = out5 V c t1_7 := by
  induction hn : t.val using Nat.strong_induction_on generalizing t with
  | _ n ih =>
    subst hn
    have hlt : t.val < 16 := t.isLt
    -- an output is never fetched; the point before (7..14) did not write the block back
    rw [Dat.before_of_pos _ 5 t (by omega) ((cfg1.win 5).fetch_out rfl t), flush1_5,
      if_neg (by rw [decide_eq_true_eq]; show ¬ (t.val - 1 < 7 ∨ t.val - 1 = 15); omega)]
    unfold Dat.left
    rw [show cfg1.idle 5 (cfg1.grid.coords ⟨t.val - 1, Nat.lt_of_le_of_lt (Nat.sub_le _ _) t.isLt⟩)
        = decide (8 ≤ t.val - 1) from idle1_5 _]
    by_cases h8 : t.val = 8
    · -- the point before is 7, live: the whole of what the body stored there (the window is uncut)
      rw [show decide (8 ≤ t.val - 1) = false from decide_eq_false (by omega)]
      dsimp only
      unfold Dat.kept
      rw [Pipeline.fill_of_clip_none (cfg := cfg1) 5 _ (fun _ => rfl) d ((dat1 V c).after 5 _), Window.fill_cut, after1_5]
      exact congrArg (out5 V c) (Fin.ext (by show t.val - 1 = 7; omega))
    · -- the point before is idle too: it found what point 7 stored
      rw [show decide (8 ≤ t.val - 1) = true from decide_eq_true (by omega)]
      dsimp only
      exact ih (t.val - 1) (by omega) ⟨t.val - 1, Nat.lt_of_le_of_lt (Nat.sub_le _ _) t.isLt⟩ (by show 8 ≤ t.val - 1; omega) rfl
/-- and that is what the proof data state of it there. -/
theorem out5_late (c : Dev nD) (t : Fin cfg1.N) (ht : 8 ≤ t.val) : out5 V c t = out5 V c t1_7 := by
  unfold out5
  rw [if_neg (by omega), if_pos (show t1_7.val < 8 by decide)]

end

end Cert.Kernel.Hand

end
-- ==== Proof.K.R1Body.lean ====
import proofs.«145978_g57612691309227_cont_sun_m_451_18_alg».proof.Proof.Gen.Kernel.Launch
import proofs.«145978_g57612691309227_cont_sun_m_451_18_alg».proof.Proof.Gen.Kernel.Skeleton
import proofs.«145978_g57612691309227_cont_sun_m_451_18_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import proofs.«145978_g57612691309227_cont_sun_m_451_18_alg».proof.Proof.K.R1Defs
import proofs.«145978_g57612691309227_cont_sun_m_451_18_alg».proof.Proof.K.R1Run
import proofs.«145978_g57612691309227_cont_sun_m_451_18_alg».proof.Proof.K.R1Sched

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second region's body obligation: at each of the sixteen points the body, handed the invariant and every
window's current staging buffer, leaves the next point's invariant and each buffer at what the proof data state -/

/-! ## Rectangles: the body's scratch accesses are the parked row blocks -/

/-- What holds of a buffer's contents through a unit-stride rectangle — what a load through it reads, and that the
    contents agree with others off it — holds through the rectangle of the same size at an equal offset. -/
private theorem park_congr {S : Shape} {Val : EltTy → Type} {e : EltTy} {off off' size : Fin S.rank → Nat} (h : off = off')
    (inb : ∀ a, off a + size a ≤ S.size a) (inb' : ∀ a, off' a + size a ≤ S.size a)
    (X X0 : S.Idx → Val e) (Y : (⟨S.rank, size⟩ : Shape).Idx → Val e) :
    (View.ld X (Rect.unit (s := S) off size inb) = Y ∧ ∀ y, y ∉ (Rect.unit (s := S) off size inb).set → X y = X0 y) →
    (View.ld X (Rect.unit (s := S) off' size inb') = Y ∧ ∀ y, y ∉ (Rect.unit (s := S) off' size inb').set → X y = X0 y) := by
  subst h; exact id

private theorem ld_unit_congr {S : Shape} {Val : EltTy → Type} {e : EltTy} {off off' size : Fin S.rank → Nat} (h : off = off')
    (inb : ∀ a, off a + size a ≤ S.size a) (inb' : ∀ a, off' a + size a ≤ S.size a) (X : S.Idx → Val e) :
    View.ld X (Rect.unit (s := S) off size inb) = View.ld X (Rect.unit (s := S) off' size inb') := by
  subst h; rfl

/-- Row blocks of different numbers share no index: an index of block `m` has its row in
    `[512·m, 512·m + 512)`. -/
private theorem rS0_idx_not_mem {m m' : Fin 8} (h : m ≠ m') (x : (rS0 m).shape.Idx) :
    (rS0 m).idx x ∉ (rS0 m').set := by
  intro hx
  have h0 := (Rect.mem_set_unit.mp hx) 0
  have hlt : (x 0).val < 512 := (x 0).isLt
  have hv : ((rS0 m).idx x 0 : Nat) = 512 * m.val + 1 * (x 0).val := rfl
  have hne : m.val ≠ m'.val := fun e => h (Fin.ext e)
  rw [hv] at h0
  have e0 : (![512 * m'.val, 0] : Fin 2 → Nat) 0 = 512 * m'.val := rfl
  have e1 : S512x4096.size 0 = 512 := rfl
  rw [e0, e1] at h0
  omega

private theorem rS1_idx_not_mem {m m' : Fin 8} (h : m ≠ m') (x : (rS1 m).shape.Idx) :
    (rS1 m).idx x ∉ (rS1 m').set := by
  intro hx
  have h0 := (Rect.mem_set_unit.mp hx) 0
  have hlt : (x 0).val < 512 := (x 0).isLt
  have hv : ((rS1 m).idx x 0 : Nat) = 512 * m.val + 1 * (x 0).val := rfl
  have hne : m.val ≠ m'.val := fun e => h (Fin.ext e)
  rw [hv] at h0
  have e0 : (![512 * m'.val, 0] : Fin 2 → Nat) 0 = 512 * m'.val := rfl
  have e1 : S512x256.size 0 = 512 := rfl
  rw [e0, e1] at h0
  omega

section
variable (V : (c : Dev nD) → (b : Ref sig .tc) → Buf (Elt F) ((c : Thread nD τ).loc b))

/-- A first-phase point is the point of its own row block. -/
private theorem pt_m8 (t : Fin cfg1.N) (ht : t.val < 8) : pt (m8 t) = t :=
  Fin.ext (by rw [pt_val, m8_val]; exact Nat.mod_eq_of_lt ht)

/-- THE FIRST PHASE'S STEP. With row blocks `< t` parked, storing point `t`'s payloads on row block `t` and
    leaving every other index as it was parks row blocks `< t + 1`. -/
private theorem inv_step (c : Dev nD) (t : Fin cfg1.N) (ht : t.val < 8)
    (s0 s0' : Vec F S4096x4096 .bf16) (s1 s1' : Vec F S4096x256 .bf16)
    (hI : Inv V c t.val s0 s1)
    (h0 : View.ld s0' (rS0 (m8 t)) = k1_pay2 (iblk1 V c 0 t))
    (h0' : ∀ y, y ∉ (rS0 (m8 t)).set → s0' y = s0 y)
    (h1 : View.ld s1' (rS1 (m8 t)) = k1_pay4 (iblk1 V c 0 t) (iblk1 V c 1 t) (iblk1 V c 2 t))
    (h1' : ∀ y, y ∉ (rS1 (m8 t)).set → s1' y = s1 y) :
    Inv V c (t.val + 1) s0' s1' := by
  have hm8 : (m8 t).val = t.val := by rw [m8_val]; exact Nat.mod_eq_of_lt ht
  refine ⟨fun m hm => ?_, fun m hm => ?_⟩
  · by_cases e : m = m8 t
    · subst e; unfold S0blk; rw [pt_m8 t ht]; exact h0
    · have hlt : m.val < t.val := by
        have : m.val ≠ (m8 t).val := fun e' => e (Fin.ext e')
        omega
      rw [← hI.1 m hlt]
      funext x
      exact h0' _ (rS0_idx_not_mem e x)
  · by_cases e : m = m8 t
    · subst e; unfold S1blk; rw [pt_m8 t ht]; exact h1
    · have hlt : m.val < t.val := by
        have : m.val ≠ (m8 t).val := fun e' => e (Fin.ext e')
        omega
      rw [← hI.2 m hlt]
      funext x
      exact h1' _ (rS1_idx_not_mem e x)

/-- In the second phase nothing more is parked: all eight row blocks already are. -/
private theorem inv_late (c : Dev nD) (n : ℕ) (hn : 8 ≤ n)
    (s0 : Vec F S4096x4096 .bf16) (s1 : Vec F S4096x256 .bf16) (hI : Inv V c n s0 s1) :
    Inv V c (n + 1) s0 s1 :=
  ⟨fun m _ => hI.1 m (lt_of_lt_of_le m.isLt hn), fun m _ => hI.2 m (lt_of_lt_of_le m.isLt hn)⟩

/-- Index `j` of the second scratch buffer is index `(j₀ % 512, j₁)` of row block `j₀ / 512`. -/
private theorem rS1_idx_divmod (j : S4096x256.Idx) (hm : (j 0).val / 512 < 8) :
    (rS1 ⟨(j 0).val / 512, hm⟩).idx
      (ValueIdx.ix2 (⟨(j 0).val % 512, Nat.mod_lt _ (by decide)⟩ : Fin 512) (j 1 : Fin 256)) = j := by
  funext a
  apply Fin.ext
  match a with
  | ⟨0, _⟩ => show 512 * ((j 0).val / 512) + 1 * ((j 0).val % 512) = (j 0).val; omega
  | ⟨1, _⟩ => show 0 + 1 * (j 1).val = (j 1).val; omega

/-- With all eight row blocks parked the second scratch buffer is the full parked matrix, -/
private theorem s1_eq_full (c : Dev nD) (n : ℕ) (hn : 8 ≤ n)
    (s0 : Vec F S4096x4096 .bf16) (s1 : Vec F S4096x256 .bf16) (hI : Inv V c n s0 s1) :
    s1 = S1full V c := by
  funext j
  have hm : (j 0).val / 512 < 8 := by have := ValueIdx.idx2_lt0 j; omega
  have h := congrFun (hI.2 ⟨(j 0).val / 512, hm⟩ (lt_of_lt_of_le hm hn))
    (ValueIdx.ix2 (⟨(j 0).val % 512, Nat.mod_lt _ (by decide)⟩ : Fin 512) (j 1 : Fin 256))
  unfold View.ld at h
  rw [rS1_idx_divmod j hm] at h
  exact h

/-- and each row block of the first reads as what its point parked. -/
private theorem ld_s0_eq (c : Dev nD) (n : ℕ) (hn : 8 ≤ n) (m : Fin 8)
    (s0 : Vec F S4096x4096 .bf16) (s1 : Vec F S4096x256 .bf16) (hI : Inv V c n s0 s1) :
    View.ld s0 (rS0 m) = S0blk V c m :=
  hI.1 m (lt_of_lt_of_le m.isLt hn)

end

/-! ## The body obligation, at a generic point -/

section
variable (V : (c : Dev nD) → (b : Ref sig .tc) → Buf (Elt F) ((c : Thread nD τ).loc b))

/-- What the body is called with at point `t`: the invariant, what the core owes, and every window's current staging
    buffer at what it then holds, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

/-! ### Window by window: what the body's run leaves is the obligation's post -/

/-- An input's buffer, never idle, is left at its block. -/
private theorem leaves_in0 (c : Dev nD) (t : Fin cfg1.N) :
    owns (c : Thread nD τ) (st1_0 t) fullShare (iblk1 V c 0 t) ⊢ ((dat1 V c).leavesExact 0 t : sProp 𝕄) := by
  rw [show (dat1 V c).leavesExact 0 t = owns (c : Thread nD τ) (st1_0 t) fullShare ((dat1 V c).after 0 t) from by
    unfold Dat.leavesExact; rw [live1_0], after1_0]
private theorem leaves_in1 (c : Dev nD) (t : Fin cfg1.N) :
    owns (c : Thread nD τ) (st1_1 t) fullShare (iblk1 V c 1 t) ⊢ ((dat1 V c).leavesExact 1 t : sProp 𝕄) := by
  rw [show (dat1 V c).leavesExact 1 t = owns (c : Thread nD τ) (st1_1 t) fullShare ((dat1 V c).after 1 t) from by
    unfold Dat.leavesExact; rw [live1_1], after1_1]
private theorem leaves_in2 (c : Dev nD) (t : Fin cfg1.N) :
    owns (c : Thread nD τ) (st1_2 t) fullShare (iblk1 V c 2 t) ⊢ ((dat1 V c).leavesExact 2 t : sProp 𝕄) := by
  rw [show (dat1 V c).leavesExact 2 t = owns (c : Thread nD τ) (st1_2 t) fullShare ((dat1 V c).after 2 t) from by
    unfold Dat.leavesExact; rw [live1_2], after1_2]
private theorem leaves_in3 (c : Dev nD) (t : Fin cfg1.N) :
    owns (c : Thread nD τ) (st1_3 t) fullShare (iblk1 V c 3 t) ⊢ ((dat1 V c).leavesExact 3 t : sProp 𝕄) := by
  rw [show (dat1 V c).leavesExact 3 t = owns (c : Thread nD τ) (st1_3 t) fullShare ((dat1 V c).after 3 t) from by
    unfold Dat.leavesExact; rw [live1_3], after1_3]
private theorem leaves_in4 (c : Dev nD) (t : Fin cfg1.N) :
    owns (c : Thread nD τ) (st1_4 t) fullShare (iblk1 V c 4 t) ⊢ ((dat1 V c).leavesExact 4 t : sProp 𝕄) := by
  rw [show (dat1 V c).leavesExact 4 t = owns (c : Thread nD τ) (st1_4 t) fullShare ((dat1 V c).after 4 t) from by
    unfold Dat.leavesExact; rw [live1_4], after1_4]

/-- FIRST PHASE. The first output is live: its buffer at the stored payload is what the proof data state. -/
private theorem leaves5_early (c : Dev nD) (t : Fin cfg1.N) (h : t.val < 8) :
    owns (c : Thread nD τ) (st1_5 t) fullShare (k1_pay3 (iblk1 V c 0 t) (iblk1 V c 1 t)) ⊢ ((dat1 V c).leavesExact 5 t : sProp 𝕄) := by
  have hi : cfg1.idle 5 (grid1.coords t) = false := by rw [idle1_5 t]; exact decide_eq_false (by omega)
  have e : out5 V c t = k1_pay3 (iblk1 V c 0 t) (iblk1 V c 1 t) := by unfold out5; rw [if_pos h]
  rw [show (dat1 V c).leavesExact 5 t = owns (c : Thread nD τ) (st1_5 t) fullShare ((dat1 V c).after 5 t) from by
    unfold Dat.leavesExact; rw [hi], after1_5, e]

/-- The other two outputs are idle there and not written back: handed back as found. -/
private theorem leaves6_early (c : Dev nD) (t : Fin cfg1.N) (h : t.val < 8) (d) :
    owns (c : Thread nD τ) (st1_6 t) fullShare ((dat1 V c).before 6 t d) ⊢ ((dat1 V c).leavesExact 6 t : sProp 𝕄) := by
  have hi : cfg1.idle 6 (grid1.coords t) = true := by rw [idle1_6 t]; exact decide_eq_true h
  have hf : (cfg1.win 6).flush t = false := by rw [flush1_6 t]; exact decide_eq_false (by omega)
  rw [Dat.leavesExact_idle (dat1 V c) 6 t hi hf]
  iintro H; iexists d; iexact H
private theorem leaves7_early (c : Dev nD) (t : Fin cfg1.N) (h : t.val < 8) (d) :
    owns (c : Thread nD τ) (st1_7 t) fullShare ((dat1 V c).before 7 t d) ⊢ ((dat1 V c).leavesExact 7 t : sProp 𝕄) := by
  have hi : cfg1.idle 7 (grid1.coords t) = true := by rw [idle1_7 t]; exact decide_eq_true h
  have hf : (cfg1.win 7).flush t = false := by rw [flush1_7 t]; exact decide_eq_false (by omega)
  rw [Dat.leavesExact_idle (dat1 V c) 7 t hi hf]
  iintro H; iexists d; iexact H

/-- SECOND PHASE. The first output is idle: where it is not written back it is handed back as found; at the last
    point, where it is, what it was found at — point 7's block — is what the proof data state of it. -/
private theorem leaves5_late (c : Dev nD) (t : Fin cfg1.N) (h8 : 8 ≤ t.val) (d) :
    owns (c : Thread nD τ) (st1_5 t) fullShare ((dat1 V c).before 5 t d) ⊢ ((dat1 V c).leavesExact 5 t : sProp 𝕄) := by
  have hi : cfg1.idle 5 (grid1.coords t) = true := by rw [idle1_5 t]; exact decide_eq_true h8
  by_cases h15 : t.val = 15
  · have hf : (cfg1.win 5).flush t = true := by rw [flush1_5 t]; exact decide_eq_true (Or.inr h15)
    rw [show (dat1 V c).leavesExact 5 t = owns (c : Thread nD τ) (st1_5 t) fullShare ((dat1 V c).after 5 t) from by
      unfold Dat.leavesExact; rw [hi, hf], after1_5, out5_late V c t h8, before1_5_late V c t h8 d]
  · have hf : (cfg1.win 5).flush t = false := by rw [flush1_5 t]; exact decide_eq_false (by omega)
    rw [Dat.leavesExact_idle (dat1 V c) 5 t hi hf]
    iintro H; iexists d; iexact H

/-- The other two outputs are live: stored from the parked row block and the whole second scratch buffer, which with
    all eight row blocks parked are what the proof data name. -/
private theorem leaves6_late (c : Dev nD) (t : Fin cfg1.N) (h8 : 8 ≤ t.val) (h2 : k1_cond2 (grid1.coords t) = 1#1)
    (s0 : Vec F S4096x4096 .bf16) (s1 : Vec F S4096x256 .bf16) (hI : Inv V c t.val s0 s1) :
    owns (c : Thread nD τ) (st1_6 t) fullShare (k1_pay6 (View.ld s0 (rOff3 (grid1.coords t) h2)) s1) ⊢ ((dat1 V c).leavesExact 6 t : sProp 𝕄) := by
  have hi : cfg1.idle 6 (grid1.coords t) = false := by rw [idle1_6 t]; exact decide_eq_false (by omega)
  have hc : View.ld s0 (rOff3 (grid1.coords t) h2) = View.ld s0 (rS0 (m8 t)) := ld_unit_congr (off3_eq t) _ _ s0
  have e0 : View.ld s0 (rOff3 (grid1.coords t) h2) = S0blk V c (m8 t) :=
    hc.trans (ld_s0_eq V c t.val h8 (m8 t) s0 s1 hI)
  have e1 : s1 = S1full V c := s1_eq_full V c t.val h8 s0 s1 hI
  have e : out6 V c t = k1_pay6 (View.ld s0 (rOff3 (grid1.coords t) h2)) s1 := by unfold out6; rw [e0, e1]
  rw [show (dat1 V c).leavesExact 6 t = owns (c : Thread nD τ) (st1_6 t) fullShare ((dat1 V c).after 6 t) from by
    unfold Dat.leavesExact; rw [hi], after1_6, e]
private theorem leaves7_late (c : Dev nD) (t : Fin cfg1.N) (h8 : 8 ≤ t.val) (h2 : k1_cond2 (grid1.coords t) = 1#1)
    (s0 : Vec F S4096x4096 .bf16) (s1 : Vec F S4096x256 .bf16) (hI : Inv V c t.val s0 s1) :
    owns (c : Thread nD τ) (st1_7 t) fullShare (k1_pay7 (View.ld s0 (rOff3 (grid1.coords t) h2)) s1 (iblk1 V c 3 t) (iblk1 V c 4 t)) ⊢ ((dat1 V c).leavesExact 7 t : sProp 𝕄) := by
  have hi : cfg1.idle 7 (grid1.coords t) = false := by rw [idle1_7 t]; exact decide_eq_false (by omega)
  have hc : View.ld s0 (rOff3 (grid1.coords t) h2) = View.ld s0 (rS0 (m8 t)) := ld_unit_congr (off3_eq t) _ _ s0
  have e0 : View.ld s0 (rOff3 (grid1.coords t) h2) = S0blk V c (m8 t) :=
    hc.trans (ld_s0_eq V c t.val h8 (m8 t) s0 s1 hI)
  have e1 : s1 = S1full V c := s1_eq_full V c t.val h8 s0 s1 hI
  have e : out7 V c t = k1_pay7 (View.ld s0 (rOff3 (grid1.coords t) h2)) s1 (iblk1 V c 3 t) (iblk1 V c 4 t) := by unfold out7; rw [e0, e1]
  rw [show (dat1 V c).leavesExact 7 t = owns (c : Thread nD τ) (st1_7 t) fullShare ((dat1 V c).after 7 t) from by
    unfold Dat.leavesExact; rw [hi], after1_7, e]

set_option maxHeartbeats 4800000 in
/-- The body at any point. The inputs' buffers hold their blocks; the invariant hands the body the scratch buffers at
    contents with the row blocks parked so far as stated. In the first phase the body reads inputs 0, 1, 2, stores the
    first output and parks row block `t` in each scratch buffer, touching nothing else of them: the invariant holds one
    block further. In the second phase it reads inputs 3, 4 and the scratch buffers, which it leaves alone, and stores
    the other two outputs. The staging buffers the phase does not name, the first region's buffers, the generator
    register and what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.castSucc = Phi1 V c t.val from Phi_eq1 V c t.castSucc,
    show (dat1 V c).Φ t.succ = Phi1 V c (t.val + 1) from Phi_eq1 V c t.succ]
  unfold Phi1
  by_cases h : t.val < 8
  · have h1 : k1_cond1 (grid1.coords t) = 1#1 := (hcond1 t).mpr h
    have h2 : ¬ k1_cond2 (grid1.coords t) = 1#1 := fun e => by have := (hcond2 t).mp e; omega
    iintro ⟨⟨⟨%s0, %s1, %hI, HS0, HS1⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_phase0 c Set.univ (grid1.coords t) h1 h2 _ _ _ _ _ _ _ _ _ _ _ _ _ _ _ _ _ _ _ _ (iblk1 V c 0 t) (iblk1 V c 1 t) (iblk1 V c 2 t) s0 s1 _)
    isplitl [H0]; · iexact H0
    isplitl [H1]; · iexact H1
    isplitl [H2]; · iexact H2
    isplitl [H5]; · iexists _; iexact H5
    isplitl [HS0]; · iexact HS0
    isplitl [HS1]; · iexact HS1
    iintro ⟨H0, H1, H2, H5, ⟨%s0', %hs0, HS0⟩, ⟨%s1', %hs1, HS1⟩⟩
    have hs0' : View.ld s0' (rS0 (m8 t)) = k1_pay2 (iblk1 V c 0 t) ∧ ∀ y, y ∉ (rS0 (m8 t)).set → s0' y = s0 y :=
      park_congr (off1_eq t) _ _ s0' s0 _ hs0
    have hs1' : View.ld s1' (rS1 (m8 t)) = k1_pay4 (iblk1 V c 0 t) (iblk1 V c 1 t) (iblk1 V c 2 t) ∧ ∀ y, y ∉ (rS1 (m8 t)).set → s1' y = s1 y :=
      park_congr (off2_eq t) _ _ s1' s1 _ hs1
    isplitl [HS0 HS1 Hrest Hg]
    · isplitl [HS0 HS1]
      · iexists s0'; iexists s1'
        isplitr
        · ipureintro; exact inv_step V c t h s0 s0' s1 s1' hI hs0'.1 hs0'.2 hs1'.1 hs1'.2
        isplitl [HS0]; · iexact HS0
        iexact HS1
      isplitl [Hrest]; · iexact Hrest
      iexact Hg
    isplitl [Ho]; · iexact Ho
    isplitl [H0]; · iapply (leaves_in0 V c t); iexact H0
    isplitl [H1]; · iapply (leaves_in1 V c t); iexact H1
    isplitl [H2]; · iapply (leaves_in2 V c t); iexact H2
    isplitl [H3]; · iapply (leaves_in3 V c t); iexact H3
    isplitl [H4]; · iapply (leaves_in4 V c t); iexact H4
    isplitl [H5]; · iapply (leaves5_early V c t h); iexact H5
    isplitl [H6]; · iapply (leaves6_early V c t h d6); iexact H6
    iapply (leaves7_early V c t h d7); iexact H7
  · have h8 : 8 ≤ t.val := Nat.le_of_not_lt h
    have h1 : ¬ k1_cond1 (grid1.coords t) = 1#1 := fun e => h ((hcond1 t).mp e)
    have h2 : k1_cond2 (grid1.coords t) = 1#1 := (hcond2 t).mpr h8
    iintro ⟨⟨⟨%s0, %s1, %hI, HS0, HS1⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_phase1 c Set.univ (grid1.coords t) h1 h2 _ _ _ _ _ _ _ _ _ _ _ _ _ _ _ _ _ _ _ _ (iblk1 V c 3 t) (iblk1 V c 4 t) s0 s1 _)
    isplitl [H3]; · iexact H3
    isplitl [H4]; · iexact H4
    isplitl [H6]; · iexists _; iexact H6
    isplitl [H7]; · iexists _; iexact H7
    isplitl [HS0]; · iexact HS0
    isplitl [HS1]; · iexact HS1
    iintro ⟨H3, H4, H6, H7, HS0, HS1⟩
    isplitl [HS0 HS1 Hrest Hg]
    · isplitl [HS0 HS1]
      · iexists s0; iexists s1
        isplitr
        · ipureintro; exact inv_late V c t.val h8 s0 s1 hI
        isplitl [HS0]; · iexact HS0
        iexact HS1
      isplitl [Hrest]; · iexact Hrest
      iexact Hg
    isplitl [Ho]; · iexact Ho
    isplitl [H0]; · iapply (leaves_in0 V c t); iexact H0
    isplitl [H1]; · iapply (leaves_in1 V c t); iexact H1
    isplitl [H2]; · iapply (leaves_in2 V c t); iexact H2
    isplitl [H3]; · iapply (leaves_in3 V c t); iexact H3
    isplitl [H4]; · iapply (leaves_in4 V c t); iexact H4
    isplitl [H5]; · iapply (leaves5_late V c t h8 d5); iexact H5
    isplitl [H6]; · iapply (leaves6_late V c t h8 h2 s0 s1 hI); iexact H6
    iapply (leaves7_late V c t h8 h2 s0 s1 hI); iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.K.Run.lean ====
import proofs.«145978_g57612691309227_cont_sun_m_451_18_alg».proof.Proof.Gen.Kernel.Launch
import proofs.«145978_g57612691309227_cont_sun_m_451_18_alg».proof.Proof.Gen.Kernel.Skeleton
import proofs.«145978_g57612691309227_cont_sun_m_451_18_alg».proof.Proof.Gen.Kernel.Points
import proofs.«145978_g57612691309227_cont_sun_m_451_18_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import proofs.«145978_g57612691309227_cont_sun_m_451_18_alg».proof.Proof.K.R1Defs
import proofs.«145978_g57612691309227_cont_sun_m_451_18_alg».proof.Proof.K.Region0
import proofs.«145978_g57612691309227_cont_sun_m_451_18_alg».proof.Proof.K.R1Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's four segments from the launch to the return

A stretch of host operations (the weights narrowed, the projection's weights transposed and narrowed, the bias
reshaped), the first region, the second region, and one host operation widening the second layer's output. -/

variable (m : (ℓ : Loc nD τ sig) → Buf (Elt F) ℓ) (ρ : Dev nD → PrngReg)

/-- Core `c`'s buffers at launch; -/
abbrev W0 : Dev nD → Valuation τ sig (Elt F) := fun c b => m ((c : Dev nD), b)
/-- after the first host stretch (the first region's entry); -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- at the first region's exit (the second region's entry): its arrays at what its write-backs leave, every other buffer as entered; -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- at the second region's exit; -/
def W3 (c : Dev nD) : Valuation τ sig (Elt F) :=
  Pipeline.withArrays spec1 c (W2 m c) fun w => (dat1 (V2 m) c).arrAt w cfg1.N
abbrev V3 : (c : Dev nD) → (b : Ref sig .tc) → Buf (Elt F) ((c : Thread nD τ).loc b) := fun c b => W3 m c b
/-- and after the last host operation. -/
abbrev W4 : Dev nD → Valuation τ sig (Elt F) := fun c => StableHlo.after hostOps2 (W3 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

/-- At the first region's exit each of its arrays holds what the pipeline leaves and every other buffer what it held at
    entry. -/
private theorem hF0 (c : Dev nD) (w : Fin cfg0.W) : (dat0 (V1 m) c).arrAt w cfg0.N = V2 m c (Pipeline.arrRef spec0 w) :=
  (W2_arr m c w).symm
private theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- The same at the second region's exit. -/
private theorem hF1 (c : Dev nD) (w : Fin cfg1.W) : (dat1 (V2 m) c).arrAt w cfg1.N = V3 m c (Pipeline.arrRef spec1 w) :=
  (W3_arr m c w).symm
private theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A stretch of host operations as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region over the thread state: entered from every unscoped buffer at W1, left at W2. Its arrays are split
    out of the unscoped buffers and put back at the exit contents; the generator register goes into the invariant and
    comes out; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at W2, left at W3. Its invariant holds the
    two scratch buffers at contents whose parked row blocks are as stated (none before the first point), the first
    region's staging buffers at anything and the generator register; at the exit the named contents and the fact about
    them are forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Phi1 (V2 m) c 0 from rfl]
    unfold Phi1 rest0
    rw [show (Pipeline.scopedRest (Pipeline.pin (pcfgs (F := F)) adm 1).spec c : sProp 𝕄) = _ from scopedRest1_eq c]
    simp only [scM0, scM1, owns_whole]
    iintro ⟨Hr, -, H0, H1, H2, ⟨%s0, Hs0⟩, ⟨%s1, Hs1⟩⟩
    isplitl [Hs0 Hs1]
    · iexists s0, s1
      isplitr
      · ipureintro
        exact ⟨fun _ h => absurd h (Nat.not_lt_zero _), fun _ h => absurd h (Nat.not_lt_zero _)⟩
      isplitl [Hs0]; · iexact Hs0
      iexact Hs1
    isplitl [H0 H1 H2]
    · isplitl [H0]; · iexact H0
      isplitl [H1]; · iexact H1
      iexact H2
    iexact Hr
  hout c := by
    rw [Pipeline.ownSems0_none, show (pdats m 1 c).Φ (Fin.last _) = Phi1 (V2 m) c cfg1.N from rfl]
    unfold Phi1 rest0
    rw [show (Pipeline.scopedRest (Pipeline.pin (pcfgs (F := F)) adm 1).spec c : sProp 𝕄) = _ from scopedRest1_eq c]
    simp only [scM0, scM1, owns_whole]
    iintro ⟨⟨%s0, %s1, -, Hs0, Hs1⟩, ⟨H0, H1, H2⟩, Hr⟩
    isplitl [Hr]; · iexact Hr
    isplitr; · iempintro
    isplitl [H0]; · iexact H0
    isplitl [H1]; · iexact H1
    isplitl [H2]; · iexact H2
    isplitl [Hs0]; · iexists s0; iexact Hs0
    iexists s1; iexact Hs1
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
/-- @main is the run of the segments. -/
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    every final state has every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c =>
      show iprop(StableHlo.held (c : Thread nD τ) (Pipeline.ucRefs τ sig) (W4 m c) ∗ R c)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arguments end as launched -/
/-- A buffer the last host operation does not write is as the second region left it; one the first stretch of host
    operations does not write is as launched. -/
private theorem W4_of (c : Dev nD) (r : Ref sig .tc) (h : r ∉ (hostOps2_W : List (Ref sig .tc))) :
    W4 m c (Proc.devRef .tc r) = W3 m c (Proc.devRef .tc r) :=
  StableHlo.after_of_writes_sub hostOps2 _ hostOps2_writes h
private theorem W1_of (c : Dev nD) (r : Ref sig .tc) (h : r ∉ (hostOps0_W : List (Ref sig .tc))) :
    W1 m c (Proc.devRef .tc r) = m ((c : Thread nD τ).loc r) :=
  StableHlo.after_of_writes_sub hostOps0 _ hostOps0_writes h
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of m c main_arg0 (by decide)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = m ((c : Thread nD τ).loc main_arg0) := W1_of m c main_arg0 (by decide)
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of m c main_arg1 (by decide)
    _ = W2 m c (Proc.devRef .tc main_arg1) := (W3_arr m c 0).trans (((dat1 (V2 m) c).arrAt_in 0 rfl _).trans (A_eq1 (V2 m) c 0))
    _ = W1 m c (Proc.devRef .tc main_arg1) := W2_of_ne m c main_arg1 (by decide)
    _ = m ((c : Thread nD τ).loc main_arg1) := W1_of m c main_arg1 (by decide)
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of m c main_arg2 (by decide)
    _ = W2 m c (Proc.devRef .tc main_arg2) := W3_of_ne m c main_arg2 (by decide)
    _ = W1 m c (Proc.devRef .tc main_arg2) := W2_of_ne m c main_arg2 (by decide)
    _ = m ((c : Thread nD τ).loc main_arg2) := W1_of m c main_arg2 (by decide)
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of m c main_arg3 (by decide)
    _ = W2 m c (Proc.devRef .tc main_arg3) := W3_of_ne m c main_arg3 (by decide)
    _ = W1 m c (Proc.devRef .tc main_arg3) := W2_of_ne m c main_arg3 (by decide)
    _ = m ((c : Thread nD τ).loc main_arg3) := W1_of m c main_arg3 (by decide)
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of m c main_arg4 (by decide)
    _ = W2 m c (Proc.devRef .tc main_arg4) := W3_of_ne m c main_arg4 (by decide)
    _ = W1 m c (Proc.devRef .tc main_arg4) := W2_of_ne m c main_arg4 (by decide)
    _ = m ((c : Thread nD τ).loc main_arg4) := W1_of m c main_arg4 (by decide)
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of m c main_arg5 (by decide)
    _ = W2 m c (Proc.devRef .tc main_arg5) := W3_of_ne m c main_arg5 (by decide)
    _ = W1 m c (Proc.devRef .tc main_arg5) := W2_of_ne m c main_arg5 (by decide)
    _ = m ((c : Thread nD τ).loc main_arg5) := W1_of m c main_arg5 (by decide)

/-! ## The results, and the second region's entry contents, read through the boundaries -/
theorem W4_v0_0 (c : Dev nD) : W4 m c (Proc.devRef .tc main_v0_0) = (dat1 (V2 m) c).arrAt 5 cfg1.N :=
  (W4_of m c main_v0_0 (by decide)).trans (W3_arr m c 5)
theorem W4_v0_2 (c : Dev nD) : W4 m c (Proc.devRef .tc main_v0_2) = (dat1 (V2 m) c).arrAt 7 cfg1.N :=
  (W4_of m c main_v0_2 (by decide)).trans (W3_arr m c 7)
theorem W4_v0_1 (c : Dev nD) : (W4 m c (Proc.devRef .tc main_v0_1) : S4096x256.Idx → Elt F .f32)
    = extf .f32 ((dat1 (V2 m) c).arrAt 6 cfg1.N : S4096x256.Idx → Elt F .bf16) bitsLt_bf16_f32 := by
  -- the last host operation widens the second region's sixth array into this buffer
  have e : (W4 m c (Proc.devRef .tc main_v0_1) : S4096x256.Idx → Elt F .f32)
      = extf .f32 (W3 m c (Proc.devRef .tc main_call0_v6_1) : S4096x256.Idx → Elt F .bf16) bitsLt_bf16_f32 := by
    show StableHlo.after hostOps2 _ (Proc.devRef .tc main_v0_1) = _
    after_results
    rfl
  exact e.trans (congrArg (fun x : S4096x256.Idx → Elt F .bf16 => extf .f32 x bitsLt_bf16_f32) (W3_arr m c 6))
/-- The second region's five input arrays as it finds them. -/
theorem V2_adj (c : Dev nD) : V2 m c main_arg1 = m ((c : Thread nD τ).loc main_arg1) :=
  (W2_of_ne m c main_arg1 (by decide)).trans (W1_of m c main_arg1 (by decide))
theorem V2_s1 (c : Dev nD) : V2 m c main_call0_v5 = (dat0 (V1 m) c).arrAt 2 cfg0.N :=
  W2_arr m c 2
theorem V2_w2 (c : Dev nD) : (V2 m c main_call0_v1 : S512x256.Idx → Elt F .bf16)
    = truncf .bf16 (m ((c : Thread nD τ).loc main_arg3) : S512x256.Idx → Elt F .f32) bitsLt_bf16_f32 := by
  -- the first region does not write it; the second host operation narrows the second weight matrix into it
  have e : (W1 m c (Proc.devRef .tc main_call0_v1) : S512x256.Idx → Elt F .bf16)
      = truncf .bf16 (m ((c : Thread nD τ).loc main_arg3) : S512x256.Idx → Elt F .f32) bitsLt_bf16_f32 := by
    show StableHlo.after hostOps0 _ (Proc.devRef .tc main_call0_v1) = _
    after_results
    rfl
  exact (W2_of_ne m c main_call0_v1 (by decide)).trans e
theorem V2_wzt (c : Dev nD) : (V2 m c main_call0_v3 : S256x64.Idx → Elt F .bf16)
    = truncf .bf16 (transpose S256x64 [1, 0] (m ((c : Thread nD τ).loc main_arg4) : S64x256.Idx → Elt F .f32) transposes_S64x256_S256x64_1_0) bitsLt_bf16_f32 := by
  -- the first region does not write it; the third host operation transposes the projection's weights, the fourth narrows them
  have e : (W1 m c (Proc.devRef .tc main_call0_v3) : S256x64.Idx → Elt F .bf16)
      = truncf .bf16 (transpose S256x64 [1, 0] (m ((c : Thread nD τ).loc main_arg4) : S64x256.Idx → Elt F .f32) transposes_S64x256_S256x64_1_0) bitsLt_bf16_f32 := by
    show StableHlo.after hostOps0 _ (Proc.devRef .tc main_call0_v3) = _
    after_results
    rfl
  exact (W2_of_ne m c main_call0_v3 (by decide)).trans e
theorem V2_bz (c : Dev nD) : (V2 m c main_call0_v4 : S1x64.Idx → Elt F .f32)
    = shapeCast S1x64 (m ((c : Thread nD τ).loc main_arg5) : S64.Idx → Elt F .f32) shapeCasts_S64_S1x64 := by
  -- the first region does not write it; the fifth host operation reshapes the bias into it
  have e : (W1 m c (Proc.devRef .tc main_call0_v4) : S1x64.Idx → Elt F .f32)
      = shapeCast S1x64 (m ((c : Thread nD τ).loc main_arg5) : S64.Idx → Elt F .f32) shapeCasts_S64_S1x64 := by
    show StableHlo.after hostOps0 _ (Proc.devRef .tc main_call0_v4) = _
    after_results
    rfl
  exact (W2_of_ne m c main_call0_v4 (by decide)).trans e
/-- The first region's two input arrays as it finds them. -/
theorem V1_x (c : Dev nD) : V1 m c main_arg0 = m ((c : Thread nD τ).loc main_arg0) :=
  W1_of m c main_arg0 (by decide)
theorem V1_w1 (c : Dev nD) : (V1 m c main_call0_v0 : S512x512.Idx → Elt F .bf16)
    = truncf .bf16 (m ((c : Thread nD τ).loc main_arg2) : S512x512.Idx → Elt F .f32) bitsLt_bf16_f32 := by
  -- the first host operation narrows the first weight matrix into it
  show StableHlo.after hostOps0 _ (Proc.devRef .tc main_call0_v0) = _
  after_results
  rfl

/-- THE FRAME at any `F`: the run, read at the six argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c)⟩) (run m ρ)

end Cert.Kernel.Hand

end
-- ==== Proof.KI.R1Defs.lean ====
import proofs.«145978_g57612691309227_cont_sun_m_451_18_alg».proof.Proof.Gen.KernelIdeal.Launch
import proofs.«145978_g57612691309227_cont_sun_m_451_18_alg».proof.Proof.Gen.KernelIdeal.Skeleton
import proofs.«145978_g57612691309227_cont_sun_m_451_18_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second region: what its scratch buffers and its staging buffers hold, point by point

The grid has sixteen points, two phases of eight. At point `m < 8` the body parks row block `m` of the
propagation matrix (narrowed) in the first scratch buffer, stores the first layer's row block `m` and parks the
second layer's pre-activation operand's row block `m` in the second scratch buffer. At point `8 + m` it reads row
block `m` of the first scratch buffer and ALL of the second, and stores the second layer's row block `m` and the
projection's row block `m`. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two scratch operands as whole memrefs. -/
abbrev scM0 : Memref sig .tc .vmem S4096x4096 .bf16 := Memref.whole cc1_scratch0
abbrev scM1 : Memref sig .tc .vmem S4096x256 .bf16 := Memref.whole cc1_scratch1

/-- A row block's number as a point of the first phase, and a point's row block. -/
def pt (m : Fin 8) : Fin cfg1.N := ⟨m.val, lt_of_lt_of_le m.isLt (by decide)⟩
def m8 (t : Fin cfg1.N) : Fin 8 := ⟨t.val % 8, Nat.mod_lt _ (by decide)⟩
theorem pt_val (m : Fin 8) : (pt m).val = m.val := rfl
theorem m8_val (t : Fin cfg1.N) : (m8 t).val = t.val % 8 := rfl

/-- Row block `m` of the first scratch buffer (512 rows from row `512·m`, all 4096 columns) and of the second
    (all 256 columns). -/
def rS0 (m : Fin 8) : Rect S4096x4096 :=
  Rect.unit (s := S4096x4096) ![512 * m.val, 0] S512x4096.size (fun a => by
    have := m.isLt
    match a with
    | ⟨0, _⟩ => show 512 * m.val + 512 ≤ 4096; omega
    | ⟨1, _⟩ => show 0 + 4096 ≤ 4096; omega)
def rS1 (m : Fin 8) : Rect S4096x256 :=
  Rect.unit (s := S4096x256) ![512 * m.val, 0] S512x256.size (fun a => by
    have := m.isLt
    match a with
    | ⟨0, _⟩ => show 512 * m.val + 512 ≤ 4096; omega
    | ⟨1, _⟩ => show 0 + 256 ≤ 256; omega)

/-- What point `m` of the first phase parks in the scratch buffers' row block `m`. -/
def S0blk (c : Dev nD) (m : Fin 8) : Vec F S512x4096 .bf16 := k1_pay2 (iblk1 V c 0 (pt m))
def S1blk (c : Dev nD) (m : Fin 8) : Vec F S512x256 .bf16 := k1_pay4 (iblk1 V c 0 (pt m)) (iblk1 V c 1 (pt m)) (iblk1 V c 2 (pt m))

/-- The second scratch buffer once all eight row blocks are parked: row `r` is row `r % 512` of block `r / 512`. -/
def S1full (c : Dev nD) : Vec F S4096x256 .bf16 := fun j =>
  S1blk V c ⟨(j 0).val / 512, by have := ValueIdx.idx2_lt0 j; omega⟩
    (ValueIdx.ix2 (⟨(j 0).val % 512, Nat.mod_lt _ (by decide)⟩ : Fin 512) (j 1 : Fin 256))

/-- The scratch buffers before point `n`: the row blocks parked so far hold what their points left. -/
def Inv (c : Dev nD) (n : ℕ) (s0 : Vec F S4096x4096 .bf16) (s1 : Vec F S4096x256 .bf16) : Prop :=
  (∀ m : Fin 8, m.val < n → View.ld s0 (rS0 m) = S0blk V c m) ∧ (∀ m : Fin 8, m.val < n → View.ld s1 (rS1 m) = S1blk V c m)

/-- What each output's staging buffer holds after the body. The first layer's output is stored in the first phase and
    then keeps the last block stored (point 7's) until the grid's end; the two second-phase outputs are stored at the
    second phase's points from the parked row block and the whole second scratch buffer. -/
def out5 (c : Dev nD) (t : Fin cfg1.N) : Vec F S512x512 .f32 :=
  if t.val < 8 then k1_pay3 (iblk1 V c 0 t) (iblk1 V c 1 t) else k1_pay3 (iblk1 V c 0 t1_7) (iblk1 V c 1 t1_7)
def out6 (c : Dev nD) (t : Fin cfg1.N) : Vec F S512x256 .bf16 := k1_pay6 (S0blk V c (m8 t)) (S1full V c)
def out7 (c : Dev nD) (t : Fin cfg1.N) : Vec F S512x64 .f32 := k1_pay7 (S0blk V c (m8 t)) (S1full V c) (iblk1 V c 3 t) (iblk1 V c 4 t)

/-- The first region's staging buffers, which the second region's kernel never names. -/
def rest0 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f))

/-- The region's invariant before point `n`: the scratch buffers at contents with the parked row blocks as stated,
    the other scoped buffers at anything, the generator register at some state. -/
def Phi1 (c : Dev nD) (n : ℕ) : sProp 𝕄 :=
  iprop((∃ s0 s1, ⌜Inv V c n s0 s1⌝ ∗ owns (c : Thread nD τ) scM0 fullShare s0 ∗ owns (c : Thread nD τ) scM1 fullShare s1)
    ∗ rest0 (F := F) c ∗ ∃ r, prngReg c r)

/-- The proof data of the second pipeline on core `c`, at the entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out5 V c t
    | ⟨6, _⟩ => out6 V c t
    | ⟨7, _⟩ => out7 V c t
  Φ t := Phi1 V c t.val
  q _ := fullShare
  owed _ := 0

theorem A_eq1 (c : Dev nD) (w : Fin cfg1.W) : (dat1 V c).A w = V c (Pipeline.arrRef spec1 w) := by
  dsimp only [dat1]
theorem Phi_eq1 (c : Dev nD) (t : Fin (cfg1.N + 1)) : (dat1 V c).Φ t = Phi1 V c t.val := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out5 V c t := by dsimp only [dat1]
theorem after1_6 (c : Dev nD) (t : Fin cfg1.N) : (dat1 V c).after 6 t = out6 V c t := by dsimp only [dat1]
theorem after1_7 (c : Dev nD) (t : Fin cfg1.N) : (dat1 V c).after 7 t = out7 V c t := by dsimp only [dat1]

end

end Cert.KernelIdeal.Hand

end
-- ==== Proof.KI.Region0.lean ====
import proofs.«145978_g57612691309227_cont_sun_m_451_18_alg».proof.Proof.Gen.KernelIdeal.Launch
import proofs.«145978_g57612691309227_cont_sun_m_451_18_alg».proof.Proof.Gen.KernelIdeal.Skeleton
import proofs.«145978_g57612691309227_cont_sun_m_451_18_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first region: one point, the whole feature matrix times the first weight matrix

The body loads the feature matrix's block (all of it) and the weight matrix, multiplies them and stores the narrowed
product over the whole output block. -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's three accesses: each the whole of its buffer. -/
abbrev r0_x : Rect S4096x512 := Rect.unit (s := S4096x512) ![0, 0] S4096x512.size inb_S4096x512_S4096x512_0_0
abbrev r0_w : Rect S512x512 := Rect.unit (s := S512x512) ![0, 0] S512x512.size inb_S512x512_S512x512_0_0

/-- The output's staging buffer after the body: its one store, over the whole buffer. -/
def out0_2 (x0 : Vec F S4096x512 .f32) (x1 : Vec F S512x512 .bf16) : Vec F S4096x512 .bf16 :=
  View.canon [⟨r0_x, k0_pay1 (View.ld x0 r0_x) (View.ld x1 r0_w)⟩]

theorem cover0_2 (p0 : Vec F S4096x512 .bf16) (y : S4096x512.Idx) :
    ∃ pc ∈ ([⟨r0_x, p0⟩] : List (View.Piece (Elt F) S4096x512 .bf16)), y ∈ pc.1.set :=
  View.cover_of_tiled [⟨r0_x, p0⟩] S4096x512.size (by rfl) y

set_option maxHeartbeats 1000000 in
/-- The body on whole staging memrefs: the inputs' buffers are left as found, the output's ends at `out0_2`. -/
theorem sound_kernel0 (c : Dev nD) (E : Set ℕ) (i : grid0.Coords) (arg1 : Memref sig .tc .vmem S4096x512 .f32) (harg1 : arg1.IsWhole)
    (arg2 : Memref sig .tc .vmem S512x512 .bf16) (harg2 : arg2.IsWhole) (arg3 : Memref sig .tc .vmem S4096x512 .bf16) (harg3 : arg3.IsWhole)
    (x0 : Vec F S4096x512 .f32) (x1 : Vec F S512x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__s1_body i arg1 harg1 arg2 harg2 arg3 harg3) K := by
  simp only [cc0__s1_body_eq_skeleton]; unfold cc0__s1_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`, at the entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KI.R1Run.lean ====
import proofs.«145978_g57612691309227_cont_sun_m_451_18_alg».proof.Proof.Gen.KernelIdeal.Launch
import proofs.«145978_g57612691309227_cont_sun_m_451_18_alg».proof.Proof.Gen.KernelIdeal.Skeleton
import proofs.«145978_g57612691309227_cont_sun_m_451_18_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second region's body, run once per phase, on any whole memrefs -/

/-- The rectangles of the body's accesses to the scratch buffers at grid coordinates `i`. -/
abbrev rOff1 (i : grid1.Coords) (h1 : k1_cond1 i = 1#1) : Rect S4096x4096 :=
  Rect.unit (s := S4096x4096) (k1_off1 i) S512x4096.size (k1_off1_inb i h1)
abbrev rOff2 (i : grid1.Coords) (h1 : k1_cond1 i = 1#1) : Rect S4096x256 :=
  Rect.unit (s := S4096x256) (k1_off2 i) S512x256.size (k1_off2_inb i h1)
abbrev rOff3 (i : grid1.Coords) (h2 : k1_cond2 i = 1#1) : Rect S4096x4096 :=
  Rect.unit (s := S4096x4096) (k1_off3 i) S512x4096.size (k1_off3_inb i h2)

/-! ## What one load or one store reads -/

/-- The offsets of an access to the whole of a rank-two buffer are zero on both axes. -/
private theorem hz2 : (![0, 0] : Fin 2 → ℕ) = fun _ => 0 := by funext a; fin_cases a <;> rfl

/-- A load of the whole of a whole memref whose contents read `X` reads `X`. -/
private theorem readAt_whole {S : Shape} {e : EltTy} (m : Memref sig .tc .vmem S e) (hm : m.IsWhole) (X : Vec F S e)
    {off : Fin S.rank → ℕ} (hz : off = fun _ => 0) (inb : ∀ a, off a + S.size a ≤ S.size a) :
    View.readAt (Elt F) m.view (Rect.unit off S.size inb).toLoadRect (hm.unread X) = X := by
  rw [View.readAt_eq_ld, hm.read_unread, View.ld_unit_zero hz]

/-- A load through a rectangle of a whole memref whose contents read `X` reads `X` at the rectangle's indices. -/
private theorem readAt_rect {S : Shape} {e : EltTy} (m : Memref sig .tc .vmem S e) (hm : m.IsWhole) (X : Vec F S e) (r : Rect S) :
    View.readAt (Elt F) m.view r.toLoadRect (hm.unread X) = View.ld X r := by
  rw [View.readAt_eq_ld, hm.read_unread]

/-- One store through the whole of a buffer leaves its payload, whatever the buffer held. -/
private theorem read_store_whole {S : Shape} {e : EltTy} (v : View sig .tc .vmem S e) (f : v.ty.Contents (Elt F))
    {off : Fin S.rank → ℕ} (hz : off = fun _ => 0) (inb : ∀ a, off a + S.size a ≤ S.size a) (w : Vec F S e) :
    v.read (Elt F) (v.writes (Elt F) f [⟨Rect.unit off S.size inb, w⟩]) = w := by
  rw [View.read_writes_eq_canon _ _ _ (fun y => ⟨_, List.mem_singleton_self _, View.mem_set_unit_zero hz inb y⟩),
    View.canon_unit_zero hz]

/-- One store through a rectangle, over prior contents `f`: read back through the rectangle, the payload; -/
private theorem ld_read_store {S : Shape} {e : EltTy} (v : View sig .tc .vmem S e) (f : v.ty.Contents (Elt F)) (r : Rect S)
    (w : r.shape.Idx → Elt F e) : View.ld (v.read (Elt F) (v.writes (Elt F) f [⟨r, w⟩])) r = w :=
  funext fun x => View.read_writes_cons_emb v f r w [] x

/-- off the rectangle, what `f` reads. -/
private theorem read_store_off {S : Shape} {e : EltTy} (v : View sig .tc .vmem S e) (f : v.ty.Contents (Elt F)) (r : Rect S)
    (w : r.shape.Idx → Elt F e) (y : S.Idx) (hy : y ∉ r.set) :
    v.read (Elt F) (v.writes (Elt F) f [⟨r, w⟩]) y = v.read (Elt F) f y :=
  View.read_writes_apply_of_forall_not_mem v f y _ (fun p hp => by rw [List.mem_singleton.mp hp]; exact hy)

set_option maxHeartbeats 2000000 in
/-- FIRST PHASE (the first conditional taken, the second not). From the three inputs it reads at contents `x0`, `x1`,
    `x2`, the first output's buffer at anything and the scratch buffers at `s0`, `s1`, the body runs to: the inputs as
    they were, the first output's buffer at `k1_pay3 x0 x1`, and each scratch buffer changed on its rectangle only — there
    at the stored payload, elsewhere as it was. -/
theorem run_phase0 (c : Dev nD) (E : Set ℕ) (i : grid1.Coords) (h1 : k1_cond1 i = 1#1) (h2 : ¬ k1_cond2 i = 1#1)
    (arg2 : Memref sig .tc .vmem S512x4096 .f32) (harg2 : arg2.IsWhole) (arg3 : Memref sig .tc .vmem S4096x512 .bf16) (harg3 : arg3.IsWhole) (arg4 : Memref sig .tc .vmem S512x256 .bf16) (harg4 : arg4.IsWhole) (arg5 : Memref sig .tc .vmem S256x64 .bf16) (harg5 : arg5.IsWhole) (arg6 : Memref sig .tc .vmem S1x64 .f32) (harg6 : arg6.IsWhole) (arg7 : Memref sig .tc .vmem S512x512 .f32) (harg7 : arg7.IsWhole) (arg8 : Memref sig .tc .vmem S512x256 .bf16) (harg8 : arg8.IsWhole) (arg9 : Memref sig .tc .vmem S512x64 .f32) (harg9 : arg9.IsWhole) (arg10 : Memref sig .tc .vmem S4096x4096 .bf16) (harg10 : arg10.IsWhole) (arg11 : Memref sig .tc .vmem S4096x256 .bf16) (harg11 : arg11.IsWhole)
    (x0 : Vec F S512x4096 .f32) (x1 : Vec F S4096x512 .bf16) (x2 : Vec F S512x256 .bf16)
    (s0 : Vec F S4096x4096 .bf16) (s1 : Vec F S4096x256 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg7 fullShare d)
        ∗ owns (c : Thread nD τ) arg10 fullShare s0 ∗ owns (c : Thread nD τ) arg11 fullShare s1
        ∗ (iprop(owns (c : Thread nD τ) arg2 fullShare x0 ∗ owns (c : Thread nD τ) arg3 fullShare x1 ∗ owns (c : Thread nD τ) arg4 fullShare x2
            ∗ owns (c : Thread nD τ) arg7 fullShare (k1_pay3 x0 x1)
            ∗ (∃ s0' : Vec F S4096x4096 .bf16, ⌜View.ld s0' (rOff1 i h1) = k1_pay2 x0 ∧ ∀ y, y ∉ (rOff1 i h1).set → s0' y = s0 y⌝
                ∗ owns (c : Thread nD τ) arg10 fullShare s0')
            ∗ (∃ s1' : Vec F S4096x256 .bf16, ⌜View.ld s1' (rOff2 i h1) = k1_pay4 x0 x1 x2 ∧ ∀ y, y ∉ (rOff2 i h1).set → s1' y = s1 y⌝
                ∗ owns (c : Thread nD τ) arg11 fullShare s1')) -∗ K ⟨⟩))
      ⊢ wp frame (wpE (defs₀ (F := F)) Variants.none c none) E (cc1__prop_body i arg2 harg2 arg3 harg3 arg4 harg4 arg5 harg5 arg6 harg6 arg7 harg7 arg8 harg8 arg9 harg9 arg10 harg10 arg11 harg11) K := by
  simp only [cc1__prop_body_eq_skeleton]; unfold cc1__prop_body_skel
  unfold owns
  iintro ⟨⟨%f0, %hf0, H0⟩, ⟨%f1, %hf1, H1⟩, ⟨%f2, %hf2, H2⟩, ⟨%d5, %f5, -, H5⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg10.eq_unread hfs0; obtain rfl := harg11.eq_unread hfs1
  sl_exec (disch := first | exact h1 | exact h2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H5]
  · iexists _; isplitr
    swap; · iexact H5
    ipureintro
    rw [read_store_whole _ _ hz2, readAt_whole arg2 harg2 x0 hz2, readAt_whole arg3 harg3 x1 hz2]
  isplitl [HS0]
  · iexists _; isplitr
    swap
    · iexists _; isplitr
      swap; · iexact HS0
      ipureintro; rfl
    ipureintro
    refine ⟨?_, fun y hy => ?_⟩
    · rw [ld_read_store, readAt_whole arg2 harg2 x0 hz2]
    · rw [read_store_off _ _ _ _ y hy, harg10.read_unread]
  · iexists _; isplitr
    swap
    · iexists _; isplitr
      swap; · iexact HS1
      ipureintro; rfl
    ipureintro
    refine ⟨?_, fun y hy => ?_⟩
    · rw [ld_read_store, readAt_whole arg2 harg2 x0 hz2, readAt_whole arg3 harg3 x1 hz2, readAt_whole arg4 harg4 x2 hz2]
    · rw [read_store_off _ _ _ _ y hy, harg11.read_unread]

set_option maxHeartbeats 2000000 in
/-- SECOND PHASE (the first conditional not taken, the second taken). From the projection's two inputs at `x3`, `x4`,
    the two second-phase outputs' buffers at anything and the scratch buffers at `s0`, `s1`, the body runs to: those
    inputs and the scratch buffers as they were, and the outputs' buffers at the payloads of the scratch buffer's row
    block and the whole second scratch buffer. -/
theorem run_phase1 (c : Dev nD) (E : Set ℕ) (i : grid1.Coords) (h1 : ¬ k1_cond1 i = 1#1) (h2 : k1_cond2 i = 1#1)
    (arg2 : Memref sig .tc .vmem S512x4096 .f32) (harg2 : arg2.IsWhole) (arg3 : Memref sig .tc .vmem S4096x512 .bf16) (harg3 : arg3.IsWhole) (arg4 : Memref sig .tc .vmem S512x256 .bf16) (harg4 : arg4.IsWhole) (arg5 : Memref sig .tc .vmem S256x64 .bf16) (harg5 : arg5.IsWhole) (arg6 : Memref sig .tc .vmem S1x64 .f32) (harg6 : arg6.IsWhole) (arg7 : Memref sig .tc .vmem S512x512 .f32) (harg7 : arg7.IsWhole) (arg8 : Memref sig .tc .vmem S512x256 .bf16) (harg8 : arg8.IsWhole) (arg9 : Memref sig .tc .vmem S512x64 .f32) (harg9 : arg9.IsWhole) (arg10 : Memref sig .tc .vmem S4096x4096 .bf16) (harg10 : arg10.IsWhole) (arg11 : Memref sig .tc .vmem S4096x256 .bf16) (harg11 : arg11.IsWhole)
    (x3 : Vec F S256x64 .bf16) (x4 : Vec F S1x64 .f32)
    (s0 : Vec F S4096x4096 .bf16) (s1 : Vec F S4096x256 .bf16) (K : PUnit → sProp 𝕄) :
    iprop(owns (c : Thread nD τ) arg5 fullShare x3 ∗ owns (c : Thread nD τ) arg6 fullShare x4
        ∗ (∃ d, owns (c : Thread nD τ) arg8 fullShare d) ∗ (∃ d, owns (c : Thread nD τ) arg9 fullShare d)
        ∗ owns (c : Thread nD τ) arg10 fullShare s0 ∗ owns (c : Thread nD τ) arg11 fullShare s1
        ∗ (iprop(owns (c : Thread nD τ) arg5 fullShare x3 ∗ owns (c : Thread nD τ) arg6 fullShare x4
            ∗ owns (c : Thread nD τ) arg8 fullShare (k1_pay6 (View.ld s0 (rOff3 i h2)) s1)
            ∗ owns (c : Thread nD τ) arg9 fullShare (k1_pay7 (View.ld s0 (rOff3 i h2)) s1 x3 x4)
            ∗ owns (c : Thread nD τ) arg10 fullShare s0 ∗ owns (c : Thread nD τ) arg11 fullShare s1) -∗ K ⟨⟩))
      ⊢ wp frame (wpE (defs₀ (F := F)) Variants.none c none) E (cc1__prop_body i arg2 harg2 arg3 harg3 arg4 harg4 arg5 harg5 arg6 harg6 arg7 harg7 arg8 harg8 arg9 harg9 arg10 harg10 arg11 harg11) K := by
  simp only [cc1__prop_body_eq_skeleton]; unfold cc1__prop_body_skel
  unfold owns
  iintro ⟨⟨%f3, %hf3, H3⟩, ⟨%f4, %hf4, H4⟩, ⟨%d8, %f8, -, H8⟩, ⟨%d9, %f9, -, H9⟩, ⟨%fs0, %hfs0, HS0⟩, ⟨%fs1, %hfs1, HS1⟩, Hk⟩
  obtain rfl := harg5.eq_unread hf3; obtain rfl := harg6.eq_unread hf4
  obtain rfl := harg10.eq_unread hfs0; obtain rfl := harg11.eq_unread hfs1
  sl_exec (disch := first | exact h1 | exact h2)
  sl_step
  iapply Hk
  isplitl [H3]
  · iexists _; isplitr; · ipureintro; exact hf3
    iexact H3
  isplitl [H4]
  · iexists _; isplitr; · ipureintro; exact hf4
    iexact H4
  isplitl [H8]
  · iexists _; isplitr
    swap; · iexact H8
    ipureintro
    rw [read_store_whole _ _ hz2, readAt_rect arg10 harg10 s0, readAt_whole arg11 harg11 s1 hz2]
  isplitl [H9]
  · iexists _; isplitr
    swap; · iexact H9
    ipureintro
    rw [read_store_whole _ _ hz2, readAt_rect arg10 harg10 s0, readAt_whole arg11 harg11 s1 hz2,
      readAt_whole arg5 harg5 x3 hz2, readAt_whole arg6 harg6 x4 hz2]
  isplitl [HS0]
  · iexists _; isplitr; · ipureintro; exact hfs0
    iexact HS0
  · iexists _; isplitr; · ipureintro; exact hfs1
    iexact HS1

end Cert.KernelIdeal.Hand

end
-- ==== Proof.KI.R1Sched.lean ====
import proofs.«145978_g57612691309227_cont_sun_m_451_18_alg».proof.Proof.Gen.KernelIdeal.Launch
import proofs.«145978_g57612691309227_cont_sun_m_451_18_alg».proof.Proof.Gen.KernelIdeal.Skeleton
import proofs.«145978_g57612691309227_cont_sun_m_451_18_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import proofs.«145978_g57612691309227_cont_sun_m_451_18_alg».proof.Proof.KI.R1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second region's schedule: where each conditional holds, where each window is idle, fetched and written
back — decided over the sixteen points — and what each window's staging buffer holds when the body runs -/

/-- The first conditional holds in the first phase, the second in the second. -/
theorem hcond1 : ∀ t : Fin cfg1.N, k1_cond1 (grid1.coords t) = 1#1 ↔ t.val < 8 :=
  (by decide +kernel : ∀ t : Fin grid1.N, k1_cond1 (grid1.coords t) = 1#1 ↔ t.val < 8)
theorem hcond2 : ∀ t : Fin cfg1.N, k1_cond2 (grid1.coords t) = 1#1 ↔ 8 ≤ t.val :=
  (by decide +kernel : ∀ t : Fin grid1.N, k1_cond2 (grid1.coords t) = 1#1 ↔ 8 ≤ t.val)

/-- The scratch accesses' offsets: row `512·(t % 8)`, column 0. -/
theorem off1_eq : ∀ t : Fin cfg1.N, k1_off1 (grid1.coords t) = ![512 * (t.val % 8), 0] :=
  (by decide +kernel : ∀ t : Fin grid1.N, k1_off1 (grid1.coords t) = ![512 * (t.val % 8), 0])
theorem off2_eq : ∀ t : Fin cfg1.N, k1_off2 (grid1.coords t) = ![512 * (t.val % 8), 0] :=
  (by decide +kernel : ∀ t : Fin grid1.N, k1_off2 (grid1.coords t) = ![512 * (t.val % 8), 0])
theorem off3_eq : ∀ t : Fin cfg1.N, k1_off3 (grid1.coords t) = ![512 * (t.val % 8), 0] :=
  (by decide +kernel : ∀ t : Fin grid1.N, k1_off3 (grid1.coords t) = ![512 * (t.val % 8), 0])

/-- The inputs are never idle; the first output is idle in the second phase, the other two in the first. -/
theorem live1_0 : ∀ i, cfg1.idle 0 i = false := fun _ => rfl
theorem live1_1 : ∀ i, cfg1.idle 1 i = false := fun _ => rfl
theorem live1_2 : ∀ i, cfg1.idle 2 i = false := fun _ => rfl
theorem live1_3 : ∀ i, cfg1.idle 3 i = false := fun _ => rfl
theorem live1_4 : ∀ i, cfg1.idle 4 i = false := fun _ => rfl
theorem idle1_5 : ∀ t : Fin cfg1.N, cfg1.idle 5 (grid1.coords t) = decide (8 ≤ t.val) :=
  (by decide +kernel : ∀ t : Fin grid1.N, cfg1.idle 5 (grid1.coords t) = decide (8 ≤ t.val))
theorem idle1_6 : ∀ t : Fin cfg1.N, cfg1.idle 6 (grid1.coords t) = decide (t.val < 8) :=
  (by decide +kernel : ∀ t : Fin grid1.N, cfg1.idle 6 (grid1.coords t) = decide (t.val < 8))
theorem idle1_7 : ∀ t : Fin cfg1.N, cfg1.idle 7 (grid1.coords t) = decide (t.val < 8) :=
  (by decide +kernel : ∀ t : Fin grid1.N, cfg1.idle 7 (grid1.coords t) = decide (t.val < 8))

/-- The first output is written back after each of the first seven points and at the last; the other two after
    every point of the second phase. -/
theorem flush1_5 : ∀ t : Fin cfg1.N, (cfg1.win 5).flush t = decide (t.val < 7 ∨ t.val = 15) :=
  (by decide +kernel : ∀ t : Fin grid1.N, win1_5.flush t = decide (t.val < 7 ∨ t.val = 15))
theorem flush1_6 : ∀ t : Fin cfg1.N, (cfg1.win 6).flush t = decide (8 ≤ t.val) :=
  (by decide +kernel : ∀ t : Fin grid1.N, win1_6.flush t = decide (8 ≤ t.val))
theorem flush1_7 : ∀ t : Fin cfg1.N, (cfg1.win 7).flush t = decide (8 ≤ t.val) :=
  (by decide +kernel : ∀ t : Fin grid1.N, win1_7.flush t = decide (8 ≤ t.val))

/-- The windows' block indices: the propagation matrix and the first output at row block `t` in the first phase and
    parked at 7 afterwards; the second-phase outputs parked at 0 in the first phase and at row block `t - 8` afterwards;
    the other inputs at their one block. -/
theorem index1_0 : ∀ t : Fin cfg1.N, (cfg1.win 0).index t = ![if t.val < 8 then t.val else 7, 0] :=
  (by decide +kernel : ∀ t : Fin grid1.N, win1_0.index t = ![if t.val < 8 then t.val else 7, 0])
theorem index1_5 : ∀ t : Fin cfg1.N, (cfg1.win 5).index t = ![if t.val < 8 then t.val else 7, 0] :=
  (by decide +kernel : ∀ t : Fin grid1.N, win1_5.index t = ![if t.val < 8 then t.val else 7, 0])
theorem index1_6 : ∀ t : Fin cfg1.N, (cfg1.win 6).index t = ![if t.val < 8 then 0 else t.val - 8, 0] :=
  (by decide +kernel : ∀ t : Fin grid1.N, win1_6.index t = ![if t.val < 8 then 0 else t.val - 8, 0])
theorem index1_7 : ∀ t : Fin cfg1.N, (cfg1.win 7).index t = ![if t.val < 8 then 0 else t.val - 8, 0] :=
  (by decide +kernel : ∀ t : Fin grid1.N, win1_7.index t = ![if t.val < 8 then 0 else t.val - 8, 0])

section
variable (V : (c : Dev nD) → (b : Ref sig .tc) → Buf (Elt F) ((c : Thread nD τ).loc b))

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- In the second phase the first output's buffer still holds what point 7 stored: nothing wrote it back and the body
    left it alone. -/
theorem before1_5_late (c : Dev nD) (t : Fin cfg1.N) (ht : 8 ≤ t.val) (d) : (dat1 V c).before 5 t d = out5 V c t1_7 := by
  induction hn : t.val using Nat.strong_induction_on generalizing t with
  | _ n ih =>
    subst hn
    have hlt : t.val < 16 := t.isLt
    -- an output is never fetched; the point before (7..14) did not write the block back
    rw [Dat.before_of_pos _ 5 t (by omega) ((cfg1.win 5).fetch_out rfl t), flush1_5,
      if_neg (by rw [decide_eq_true_eq]; show ¬ (t.val - 1 < 7 ∨ t.val - 1 = 15); omega)]
    unfold Dat.left
    rw [show cfg1.idle 5 (cfg1.grid.coords ⟨t.val - 1, Nat.lt_of_le_of_lt (Nat.sub_le _ _) t.isLt⟩)
        = decide (8 ≤ t.val - 1) from idle1_5 _]
    by_cases h8 : t.val = 8
    · -- the point before is 7, live: the whole of what the body stored there (the window is uncut)
      rw [show decide (8 ≤ t.val - 1) = false from decide_eq_false (by omega)]
      dsimp only
      unfold Dat.kept
      rw [Pipeline.fill_of_clip_none (cfg := cfg1) 5 _ (fun _ => rfl) d ((dat1 V c).after 5 _), Window.fill_cut, after1_5]
      exact congrArg (out5 V c) (Fin.ext (by show t.val - 1 = 7; omega))
    · -- the point before is idle too: it found what point 7 stored
      rw [show decide (8 ≤ t.val - 1) = true from decide_eq_true (by omega)]
      dsimp only
      exact ih (t.val - 1) (by omega) ⟨t.val - 1, Nat.lt_of_le_of_lt (Nat.sub_le _ _) t.isLt⟩ (by show 8 ≤ t.val - 1; omega) rfl
/-- and that is what the proof data state of it there. -/
theorem out5_late (c : Dev nD) (t : Fin cfg1.N) (ht : 8 ≤ t.val) : out5 V c t = out5 V c t1_7 := by
  unfold out5
  rw [if_neg (by omega), if_pos (show t1_7.val < 8 by decide)]

end

end Cert.KernelIdeal.Hand

end
-- ==== Proof.KI.R1Body.lean ====
import proofs.«145978_g57612691309227_cont_sun_m_451_18_alg».proof.Proof.Gen.KernelIdeal.Launch
import proofs.«145978_g57612691309227_cont_sun_m_451_18_alg».proof.Proof.Gen.KernelIdeal.Skeleton
import proofs.«145978_g57612691309227_cont_sun_m_451_18_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import proofs.«145978_g57612691309227_cont_sun_m_451_18_alg».proof.Proof.KI.R1Defs
import proofs.«145978_g57612691309227_cont_sun_m_451_18_alg».proof.Proof.KI.R1Run
import proofs.«145978_g57612691309227_cont_sun_m_451_18_alg».proof.Proof.KI.R1Sched

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second region's body obligation: at each of the sixteen points the body, handed the invariant and every
window's current staging buffer, leaves the next point's invariant and each buffer at what the proof data state -/

/-! ## Rectangles: the body's scratch accesses are the parked row blocks -/

/-- What holds of a buffer's contents through a unit-stride rectangle — what a load through it reads, and that the
    contents agree with others off it — holds through the rectangle of the same size at an equal offset. -/
private theorem park_congr {S : Shape} {Val : EltTy → Type} {e : EltTy} {off off' size : Fin S.rank → Nat} (h : off = off')
    (inb : ∀ a, off a + size a ≤ S.size a) (inb' : ∀ a, off' a + size a ≤ S.size a)
    (X X0 : S.Idx → Val e) (Y : (⟨S.rank, size⟩ : Shape).Idx → Val e) :
    (View.ld X (Rect.unit (s := S) off size inb) = Y ∧ ∀ y, y ∉ (Rect.unit (s := S) off size inb).set → X y = X0 y) →
    (View.ld X (Rect.unit (s := S) off' size inb') = Y ∧ ∀ y, y ∉ (Rect.unit (s := S) off' size inb').set → X y = X0 y) := by
  subst h; exact id

private theorem ld_unit_congr {S : Shape} {Val : EltTy → Type} {e : EltTy} {off off' size : Fin S.rank → Nat} (h : off = off')
    (inb : ∀ a, off a + size a ≤ S.size a) (inb' : ∀ a, off' a + size a ≤ S.size a) (X : S.Idx → Val e) :
    View.ld X (Rect.unit (s := S) off size inb) = View.ld X (Rect.unit (s := S) off' size inb') := by
  subst h; rfl

/-- Row blocks of different numbers share no index: an index of block `m` has its row in
    `[512·m, 512·m + 512)`. -/
private theorem rS0_idx_not_mem {m m' : Fin 8} (h : m ≠ m') (x : (rS0 m).shape.Idx) :
    (rS0 m).idx x ∉ (rS0 m').set := by
  intro hx
  have h0 := (Rect.mem_set_unit.mp hx) 0
  have hlt : (x 0).val < 512 := (x 0).isLt
  have hv : ((rS0 m).idx x 0 : Nat) = 512 * m.val + 1 * (x 0).val := rfl
  have hne : m.val ≠ m'.val := fun e => h (Fin.ext e)
  rw [hv] at h0
  have e0 : (![512 * m'.val, 0] : Fin 2 → Nat) 0 = 512 * m'.val := rfl
  have e1 : S512x4096.size 0 = 512 := rfl
  rw [e0, e1] at h0
  omega

private theorem rS1_idx_not_mem {m m' : Fin 8} (h : m ≠ m') (x : (rS1 m).shape.Idx) :
    (rS1 m).idx x ∉ (rS1 m').set := by
  intro hx
  have h0 := (Rect.mem_set_unit.mp hx) 0
  have hlt : (x 0).val < 512 := (x 0).isLt
  have hv : ((rS1 m).idx x 0 : Nat) = 512 * m.val + 1 * (x 0).val := rfl
  have hne : m.val ≠ m'.val := fun e => h (Fin.ext e)
  rw [hv] at h0
  have e0 : (![512 * m'.val, 0] : Fin 2 → Nat) 0 = 512 * m'.val := rfl
  have e1 : S512x256.size 0 = 512 := rfl
  rw [e0, e1] at h0
  omega

section
variable (V : (c : Dev nD) → (b : Ref sig .tc) → Buf (Elt F) ((c : Thread nD τ).loc b))

/-- A first-phase point is the point of its own row block. -/
private theorem pt_m8 (t : Fin cfg1.N) (ht : t.val < 8) : pt (m8 t) = t :=
  Fin.ext (by rw [pt_val, m8_val]; exact Nat.mod_eq_of_lt ht)

/-- THE FIRST PHASE'S STEP. With row blocks `< t` parked, storing point `t`'s payloads on row block `t` and
    leaving every other index as it was parks row blocks `< t + 1`. -/
private theorem inv_step (c : Dev nD) (t : Fin cfg1.N) (ht : t.val < 8)
    (s0 s0' : Vec F S4096x4096 .bf16) (s1 s1' : Vec F S4096x256 .bf16)
    (hI : Inv V c t.val s0 s1)
    (h0 : View.ld s0' (rS0 (m8 t)) = k1_pay2 (iblk1 V c 0 t))
    (h0' : ∀ y, y ∉ (rS0 (m8 t)).set → s0' y = s0 y)
    (h1 : View.ld s1' (rS1 (m8 t)) = k1_pay4 (iblk1 V c 0 t) (iblk1 V c 1 t) (iblk1 V c 2 t))
    (h1' : ∀ y, y ∉ (rS1 (m8 t)).set → s1' y = s1 y) :
    Inv V c (t.val + 1) s0' s1' := by
  have hm8 : (m8 t).val = t.val := by rw [m8_val]; exact Nat.mod_eq_of_lt ht
  refine ⟨fun m hm => ?_, fun m hm => ?_⟩
  · by_cases e : m = m8 t
    · subst e; unfold S0blk; rw [pt_m8 t ht]; exact h0
    · have hlt : m.val < t.val := by
        have : m.val ≠ (m8 t).val := fun e' => e (Fin.ext e')
        omega
      rw [← hI.1 m hlt]
      funext x
      exact h0' _ (rS0_idx_not_mem e x)
  · by_cases e : m = m8 t
    · subst e; unfold S1blk; rw [pt_m8 t ht]; exact h1
    · have hlt : m.val < t.val := by
        have : m.val ≠ (m8 t).val := fun e' => e (Fin.ext e')
        omega
      rw [← hI.2 m hlt]
      funext x
      exact h1' _ (rS1_idx_not_mem e x)

/-- In the second phase nothing more is parked: all eight row blocks already are. -/
private theorem inv_late (c : Dev nD) (n : ℕ) (hn : 8 ≤ n)
    (s0 : Vec F S4096x4096 .bf16) (s1 : Vec F S4096x256 .bf16) (hI : Inv V c n s0 s1) :
    Inv V c (n + 1) s0 s1 :=
  ⟨fun m _ => hI.1 m (lt_of_lt_of_le m.isLt hn), fun m _ => hI.2 m (lt_of_lt_of_le m.isLt hn)⟩

/-- Index `j` of the second scratch buffer is index `(j₀ % 512, j₁)` of row block `j₀ / 512`. -/
private theorem rS1_idx_divmod (j : S4096x256.Idx) (hm : (j 0).val / 512 < 8) :
    (rS1 ⟨(j 0).val / 512, hm⟩).idx
      (ValueIdx.ix2 (⟨(j 0).val % 512, Nat.mod_lt _ (by decide)⟩ : Fin 512) (j 1 : Fin 256)) = j := by
  funext a
  apply Fin.ext
  match a with
  | ⟨0, _⟩ => show 512 * ((j 0).val / 512) + 1 * ((j 0).val % 512) = (j 0).val; omega
  | ⟨1, _⟩ => show 0 + 1 * (j 1).val = (j 1).val; omega

/-- With all eight row blocks parked the second scratch buffer is the full parked matrix, -/
private theorem s1_eq_full (c : Dev nD) (n : ℕ) (hn : 8 ≤ n)
    (s0 : Vec F S4096x4096 .bf16) (s1 : Vec F S4096x256 .bf16) (hI : Inv V c n s0 s1) :
    s1 = S1full V c := by
  funext j
  have hm : (j 0).val / 512 < 8 := by have := ValueIdx.idx2_lt0 j; omega
  have h := congrFun (hI.2 ⟨(j 0).val / 512, hm⟩ (lt_of_lt_of_le hm hn))
    (ValueIdx.ix2 (⟨(j 0).val % 512, Nat.mod_lt _ (by decide)⟩ : Fin 512) (j 1 : Fin 256))
  unfold View.ld at h
  rw [rS1_idx_divmod j hm] at h
  exact h

/-- and each row block of the first reads as what its point parked. -/
private theorem ld_s0_eq (c : Dev nD) (n : ℕ) (hn : 8 ≤ n) (m : Fin 8)
    (s0 : Vec F S4096x4096 .bf16) (s1 : Vec F S4096x256 .bf16) (hI : Inv V c n s0 s1) :
    View.ld s0 (rS0 m) = S0blk V c m :=
  hI.1 m (lt_of_lt_of_le m.isLt hn)

end

/-! ## The body obligation, at a generic point -/

section
variable (V : (c : Dev nD) → (b : Ref sig .tc) → Buf (Elt F) ((c : Thread nD τ).loc b))

/-- What the body is called with at point `t`: the invariant, what the core owes, and every window's current staging
    buffer at what it then holds, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

/-! ### Window by window: what the body's run leaves is the obligation's post -/

/-- An input's buffer, never idle, is left at its block. -/
private theorem leaves_in0 (c : Dev nD) (t : Fin cfg1.N) :
    owns (c : Thread nD τ) (st1_0 t) fullShare (iblk1 V c 0 t) ⊢ ((dat1 V c).leavesExact 0 t : sProp 𝕄) := by
  rw [show (dat1 V c).leavesExact 0 t = owns (c : Thread nD τ) (st1_0 t) fullShare ((dat1 V c).after 0 t) from by
    unfold Dat.leavesExact; rw [live1_0], after1_0]
private theorem leaves_in1 (c : Dev nD) (t : Fin cfg1.N) :
    owns (c : Thread nD τ) (st1_1 t) fullShare (iblk1 V c 1 t) ⊢ ((dat1 V c).leavesExact 1 t : sProp 𝕄) := by
  rw [show (dat1 V c).leavesExact 1 t = owns (c : Thread nD τ) (st1_1 t) fullShare ((dat1 V c).after 1 t) from by
    unfold Dat.leavesExact; rw [live1_1], after1_1]
private theorem leaves_in2 (c : Dev nD) (t : Fin cfg1.N) :
    owns (c : Thread nD τ) (st1_2 t) fullShare (iblk1 V c 2 t) ⊢ ((dat1 V c).leavesExact 2 t : sProp 𝕄) := by
  rw [show (dat1 V c).leavesExact 2 t = owns (c : Thread nD τ) (st1_2 t) fullShare ((dat1 V c).after 2 t) from by
    unfold Dat.leavesExact; rw [live1_2], after1_2]
private theorem leaves_in3 (c : Dev nD) (t : Fin cfg1.N) :
    owns (c : Thread nD τ) (st1_3 t) fullShare (iblk1 V c 3 t) ⊢ ((dat1 V c).leavesExact 3 t : sProp 𝕄) := by
  rw [show (dat1 V c).leavesExact 3 t = owns (c : Thread nD τ) (st1_3 t) fullShare ((dat1 V c).after 3 t) from by
    unfold Dat.leavesExact; rw [live1_3], after1_3]
private theorem leaves_in4 (c : Dev nD) (t : Fin cfg1.N) :
    owns (c : Thread nD τ) (st1_4 t) fullShare (iblk1 V c 4 t) ⊢ ((dat1 V c).leavesExact 4 t : sProp 𝕄) := by
  rw [show (dat1 V c).leavesExact 4 t = owns (c : Thread nD τ) (st1_4 t) fullShare ((dat1 V c).after 4 t) from by
    unfold Dat.leavesExact; rw [live1_4], after1_4]

/-- FIRST PHASE. The first output is live: its buffer at the stored payload is what the proof data state. -/
private theorem leaves5_early (c : Dev nD) (t : Fin cfg1.N) (h : t.val < 8) :
    owns (c : Thread nD τ) (st1_5 t) fullShare (k1_pay3 (iblk1 V c 0 t) (iblk1 V c 1 t)) ⊢ ((dat1 V c).leavesExact 5 t : sProp 𝕄) := by
  have hi : cfg1.idle 5 (grid1.coords t) = false := by rw [idle1_5 t]; exact decide_eq_false (by omega)
  have e : out5 V c t = k1_pay3 (iblk1 V c 0 t) (iblk1 V c 1 t) := by unfold out5; rw [if_pos h]
  rw [show (dat1 V c).leavesExact 5 t = owns (c : Thread nD τ) (st1_5 t) fullShare ((dat1 V c).after 5 t) from by
    unfold Dat.leavesExact; rw [hi], after1_5, e]

/-- The other two outputs are idle there and not written back: handed back as found. -/
private theorem leaves6_early (c : Dev nD) (t : Fin cfg1.N) (h : t.val < 8) (d) :
    owns (c : Thread nD τ) (st1_6 t) fullShare ((dat1 V c).before 6 t d) ⊢ ((dat1 V c).leavesExact 6 t : sProp 𝕄) := by
  have hi : cfg1.idle 6 (grid1.coords t) = true := by rw [idle1_6 t]; exact decide_eq_true h
  have hf : (cfg1.win 6).flush t = false := by rw [flush1_6 t]; exact decide_eq_false (by omega)
  rw [Dat.leavesExact_idle (dat1 V c) 6 t hi hf]
  iintro H; iexists d; iexact H
private theorem leaves7_early (c : Dev nD) (t : Fin cfg1.N) (h : t.val < 8) (d) :
    owns (c : Thread nD τ) (st1_7 t) fullShare ((dat1 V c).before 7 t d) ⊢ ((dat1 V c).leavesExact 7 t : sProp 𝕄) := by
  have hi : cfg1.idle 7 (grid1.coords t) = true := by rw [idle1_7 t]; exact decide_eq_true h
  have hf : (cfg1.win 7).flush t = false := by rw [flush1_7 t]; exact decide_eq_false (by omega)
  rw [Dat.leavesExact_idle (dat1 V c) 7 t hi hf]
  iintro H; iexists d; iexact H

/-- SECOND PHASE. The first output is idle: where it is not written back it is handed back as found; at the last
    point, where it is, what it was found at — point 7's block — is what the proof data state of it. -/
private theorem leaves5_late (c : Dev nD) (t : Fin cfg1.N) (h8 : 8 ≤ t.val) (d) :
    owns (c : Thread nD τ) (st1_5 t) fullShare ((dat1 V c).before 5 t d) ⊢ ((dat1 V c).leavesExact 5 t : sProp 𝕄) := by
  have hi : cfg1.idle 5 (grid1.coords t) = true := by rw [idle1_5 t]; exact decide_eq_true h8
  by_cases h15 : t.val = 15
  · have hf : (cfg1.win 5).flush t = true := by rw [flush1_5 t]; exact decide_eq_true (Or.inr h15)
    rw [show (dat1 V c).leavesExact 5 t = owns (c : Thread nD τ) (st1_5 t) fullShare ((dat1 V c).after 5 t) from by
      unfold Dat.leavesExact; rw [hi, hf], after1_5, out5_late V c t h8, before1_5_late V c t h8 d]
  · have hf : (cfg1.win 5).flush t = false := by rw [flush1_5 t]; exact decide_eq_false (by omega)
    rw [Dat.leavesExact_idle (dat1 V c) 5 t hi hf]
    iintro H; iexists d; iexact H

/-- The other two outputs are live: stored from the parked row block and the whole second scratch buffer, which with
    all eight row blocks parked are what the proof data name. -/
private theorem leaves6_late (c : Dev nD) (t : Fin cfg1.N) (h8 : 8 ≤ t.val) (h2 : k1_cond2 (grid1.coords t) = 1#1)
    (s0 : Vec F S4096x4096 .bf16) (s1 : Vec F S4096x256 .bf16) (hI : Inv V c t.val s0 s1) :
    owns (c : Thread nD τ) (st1_6 t) fullShare (k1_pay6 (View.ld s0 (rOff3 (grid1.coords t) h2)) s1) ⊢ ((dat1 V c).leavesExact 6 t : sProp 𝕄) := by
  have hi : cfg1.idle 6 (grid1.coords t) = false := by rw [idle1_6 t]; exact decide_eq_false (by omega)
  have hc : View.ld s0 (rOff3 (grid1.coords t) h2) = View.ld s0 (rS0 (m8 t)) := ld_unit_congr (off3_eq t) _ _ s0
  have e0 : View.ld s0 (rOff3 (grid1.coords t) h2) = S0blk V c (m8 t) :=
    hc.trans (ld_s0_eq V c t.val h8 (m8 t) s0 s1 hI)
  have e1 : s1 = S1full V c := s1_eq_full V c t.val h8 s0 s1 hI
  have e : out6 V c t = k1_pay6 (View.ld s0 (rOff3 (grid1.coords t) h2)) s1 := by unfold out6; rw [e0, e1]
  rw [show (dat1 V c).leavesExact 6 t = owns (c : Thread nD τ) (st1_6 t) fullShare ((dat1 V c).after 6 t) from by
    unfold Dat.leavesExact; rw [hi], after1_6, e]
private theorem leaves7_late (c : Dev nD) (t : Fin cfg1.N) (h8 : 8 ≤ t.val) (h2 : k1_cond2 (grid1.coords t) = 1#1)
    (s0 : Vec F S4096x4096 .bf16) (s1 : Vec F S4096x256 .bf16) (hI : Inv V c t.val s0 s1) :
    owns (c : Thread nD τ) (st1_7 t) fullShare (k1_pay7 (View.ld s0 (rOff3 (grid1.coords t) h2)) s1 (iblk1 V c 3 t) (iblk1 V c 4 t)) ⊢ ((dat1 V c).leavesExact 7 t : sProp 𝕄) := by
  have hi : cfg1.idle 7 (grid1.coords t) = false := by rw [idle1_7 t]; exact decide_eq_false (by omega)
  have hc : View.ld s0 (rOff3 (grid1.coords t) h2) = View.ld s0 (rS0 (m8 t)) := ld_unit_congr (off3_eq t) _ _ s0
  have e0 : View.ld s0 (rOff3 (grid1.coords t) h2) = S0blk V c (m8 t) :=
    hc.trans (ld_s0_eq V c t.val h8 (m8 t) s0 s1 hI)
  have e1 : s1 = S1full V c := s1_eq_full V c t.val h8 s0 s1 hI
  have e : out7 V c t = k1_pay7 (View.ld s0 (rOff3 (grid1.coords t) h2)) s1 (iblk1 V c 3 t) (iblk1 V c 4 t) := by unfold out7; rw [e0, e1]
  rw [show (dat1 V c).leavesExact 7 t = owns (c : Thread nD τ) (st1_7 t) fullShare ((dat1 V c).after 7 t) from by
    unfold Dat.leavesExact; rw [hi], after1_7, e]

set_option maxHeartbeats 4800000 in
/-- The body at any point. The inputs' buffers hold their blocks; the invariant hands the body the scratch buffers at
    contents with the row blocks parked so far as stated. In the first phase the body reads inputs 0, 1, 2, stores the
    first output and parks row block `t` in each scratch buffer, touching nothing else of them: the invariant holds one
    block further. In the second phase it reads inputs 3, 4 and the scratch buffers, which it leaves alone, and stores
    the other two outputs. The staging buffers the phase does not name, the first region's buffers, the generator
    register and what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.castSucc = Phi1 V c t.val from Phi_eq1 V c t.castSucc,
    show (dat1 V c).Φ t.succ = Phi1 V c (t.val + 1) from Phi_eq1 V c t.succ]
  unfold Phi1
  by_cases h : t.val < 8
  · have h1 : k1_cond1 (grid1.coords t) = 1#1 := (hcond1 t).mpr h
    have h2 : ¬ k1_cond2 (grid1.coords t) = 1#1 := fun e => by have := (hcond2 t).mp e; omega
    iintro ⟨⟨⟨%s0, %s1, %hI, HS0, HS1⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_phase0 c Set.univ (grid1.coords t) h1 h2 _ _ _ _ _ _ _ _ _ _ _ _ _ _ _ _ _ _ _ _ (iblk1 V c 0 t) (iblk1 V c 1 t) (iblk1 V c 2 t) s0 s1 _)
    isplitl [H0]; · iexact H0
    isplitl [H1]; · iexact H1
    isplitl [H2]; · iexact H2
    isplitl [H5]; · iexists _; iexact H5
    isplitl [HS0]; · iexact HS0
    isplitl [HS1]; · iexact HS1
    iintro ⟨H0, H1, H2, H5, ⟨%s0', %hs0, HS0⟩, ⟨%s1', %hs1, HS1⟩⟩
    have hs0' : View.ld s0' (rS0 (m8 t)) = k1_pay2 (iblk1 V c 0 t) ∧ ∀ y, y ∉ (rS0 (m8 t)).set → s0' y = s0 y :=
      park_congr (off1_eq t) _ _ s0' s0 _ hs0
    have hs1' : View.ld s1' (rS1 (m8 t)) = k1_pay4 (iblk1 V c 0 t) (iblk1 V c 1 t) (iblk1 V c 2 t) ∧ ∀ y, y ∉ (rS1 (m8 t)).set → s1' y = s1 y :=
      park_congr (off2_eq t) _ _ s1' s1 _ hs1
    isplitl [HS0 HS1 Hrest Hg]
    · isplitl [HS0 HS1]
      · iexists s0'; iexists s1'
        isplitr
        · ipureintro; exact inv_step V c t h s0 s0' s1 s1' hI hs0'.1 hs0'.2 hs1'.1 hs1'.2
        isplitl [HS0]; · iexact HS0
        iexact HS1
      isplitl [Hrest]; · iexact Hrest
      iexact Hg
    isplitl [Ho]; · iexact Ho
    isplitl [H0]; · iapply (leaves_in0 V c t); iexact H0
    isplitl [H1]; · iapply (leaves_in1 V c t); iexact H1
    isplitl [H2]; · iapply (leaves_in2 V c t); iexact H2
    isplitl [H3]; · iapply (leaves_in3 V c t); iexact H3
    isplitl [H4]; · iapply (leaves_in4 V c t); iexact H4
    isplitl [H5]; · iapply (leaves5_early V c t h); iexact H5
    isplitl [H6]; · iapply (leaves6_early V c t h d6); iexact H6
    iapply (leaves7_early V c t h d7); iexact H7
  · have h8 : 8 ≤ t.val := Nat.le_of_not_lt h
    have h1 : ¬ k1_cond1 (grid1.coords t) = 1#1 := fun e => h ((hcond1 t).mp e)
    have h2 : k1_cond2 (grid1.coords t) = 1#1 := (hcond2 t).mpr h8
    iintro ⟨⟨⟨%s0, %s1, %hI, HS0, HS1⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_phase1 c Set.univ (grid1.coords t) h1 h2 _ _ _ _ _ _ _ _ _ _ _ _ _ _ _ _ _ _ _ _ (iblk1 V c 3 t) (iblk1 V c 4 t) s0 s1 _)
    isplitl [H3]; · iexact H3
    isplitl [H4]; · iexact H4
    isplitl [H6]; · iexists _; iexact H6
    isplitl [H7]; · iexists _; iexact H7
    isplitl [HS0]; · iexact HS0
    isplitl [HS1]; · iexact HS1
    iintro ⟨H3, H4, H6, H7, HS0, HS1⟩
    isplitl [HS0 HS1 Hrest Hg]
    · isplitl [HS0 HS1]
      · iexists s0; iexists s1
        isplitr
        · ipureintro; exact inv_late V c t.val h8 s0 s1 hI
        isplitl [HS0]; · iexact HS0
        iexact HS1
      isplitl [Hrest]; · iexact Hrest
      iexact Hg
    isplitl [Ho]; · iexact Ho
    isplitl [H0]; · iapply (leaves_in0 V c t); iexact H0
    isplitl [H1]; · iapply (leaves_in1 V c t); iexact H1
    isplitl [H2]; · iapply (leaves_in2 V c t); iexact H2
    isplitl [H3]; · iapply (leaves_in3 V c t); iexact H3
    isplitl [H4]; · iapply (leaves_in4 V c t); iexact H4
    isplitl [H5]; · iapply (leaves5_late V c t h8 d5); iexact H5
    isplitl [H6]; · iapply (leaves6_late V c t h8 h2 s0 s1 hI); iexact H6
    iapply (leaves7_late V c t h8 h2 s0 s1 hI); iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KI.Run.lean ====
import proofs.«145978_g57612691309227_cont_sun_m_451_18_alg».proof.Proof.Gen.KernelIdeal.Launch
import proofs.«145978_g57612691309227_cont_sun_m_451_18_alg».proof.Proof.Gen.KernelIdeal.Skeleton
import proofs.«145978_g57612691309227_cont_sun_m_451_18_alg».proof.Proof.Gen.KernelIdeal.Points
import proofs.«145978_g57612691309227_cont_sun_m_451_18_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import proofs.«145978_g57612691309227_cont_sun_m_451_18_alg».proof.Proof.KI.R1Defs
import proofs.«145978_g57612691309227_cont_sun_m_451_18_alg».proof.Proof.KI.Region0
import proofs.«145978_g57612691309227_cont_sun_m_451_18_alg».proof.Proof.KI.R1Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's four segments from the launch to the return

A stretch of host operations (the weights narrowed, the projection's weights transposed and narrowed, the bias
reshaped), the first region, the second region, and one host operation widening the second layer's output. -/

variable (m : (ℓ : Loc nD τ sig) → Buf (Elt F) ℓ) (ρ : Dev nD → PrngReg)

/-- Core `c`'s buffers at launch; -/
abbrev W0 : Dev nD → Valuation τ sig (Elt F) := fun c b => m ((c : Dev nD), b)
/-- after the first host stretch (the first region's entry); -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- at the first region's exit (the second region's entry): its arrays at what its write-backs leave, every other buffer as entered; -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- at the second region's exit; -/
def W3 (c : Dev nD) : Valuation τ sig (Elt F) :=
  Pipeline.withArrays spec1 c (W2 m c) fun w => (dat1 (V2 m) c).arrAt w cfg1.N
abbrev V3 : (c : Dev nD) → (b : Ref sig .tc) → Buf (Elt F) ((c : Thread nD τ).loc b) := fun c b => W3 m c b
/-- and after the last host operation. -/
abbrev W4 : Dev nD → Valuation τ sig (Elt F) := fun c => StableHlo.after hostOps2 (W3 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

/-- At the first region's exit each of its arrays holds what the pipeline leaves and every other buffer what it held at
    entry. -/
private theorem hF0 (c : Dev nD) (w : Fin cfg0.W) : (dat0 (V1 m) c).arrAt w cfg0.N = V2 m c (Pipeline.arrRef spec0 w) :=
  (W2_arr m c w).symm
private theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- The same at the second region's exit. -/
private theorem hF1 (c : Dev nD) (w : Fin cfg1.W) : (dat1 (V2 m) c).arrAt w cfg1.N = V3 m c (Pipeline.arrRef spec1 w) :=
  (W3_arr m c w).symm
private theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A stretch of host operations as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region over the thread state: entered from every unscoped buffer at W1, left at W2. Its arrays are split
    out of the unscoped buffers and put back at the exit contents; the generator register goes into the invariant and
    comes out; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at W2, left at W3. Its invariant holds the
    two scratch buffers at contents whose parked row blocks are as stated (none before the first point), the first
    region's staging buffers at anything and the generator register; at the exit the named contents and the fact about
    them are forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Phi1 (V2 m) c 0 from rfl]
    unfold Phi1 rest0
    rw [show (Pipeline.scopedRest (Pipeline.pin (pcfgs (F := F)) adm 1).spec c : sProp 𝕄) = _ from scopedRest1_eq c]
    simp only [scM0, scM1, owns_whole]
    iintro ⟨Hr, -, H0, H1, H2, ⟨%s0, Hs0⟩, ⟨%s1, Hs1⟩⟩
    isplitl [Hs0 Hs1]
    · iexists s0, s1
      isplitr
      · ipureintro
        exact ⟨fun _ h => absurd h (Nat.not_lt_zero _), fun _ h => absurd h (Nat.not_lt_zero _)⟩
      isplitl [Hs0]; · iexact Hs0
      iexact Hs1
    isplitl [H0 H1 H2]
    · isplitl [H0]; · iexact H0
      isplitl [H1]; · iexact H1
      iexact H2
    iexact Hr
  hout c := by
    rw [Pipeline.ownSems0_none, show (pdats m 1 c).Φ (Fin.last _) = Phi1 (V2 m) c cfg1.N from rfl]
    unfold Phi1 rest0
    rw [show (Pipeline.scopedRest (Pipeline.pin (pcfgs (F := F)) adm 1).spec c : sProp 𝕄) = _ from scopedRest1_eq c]
    simp only [scM0, scM1, owns_whole]
    iintro ⟨⟨%s0, %s1, -, Hs0, Hs1⟩, ⟨H0, H1, H2⟩, Hr⟩
    isplitl [Hr]; · iexact Hr
    isplitr; · iempintro
    isplitl [H0]; · iexact H0
    isplitl [H1]; · iexact H1
    isplitl [H2]; · iexact H2
    isplitl [Hs0]; · iexists s0; iexact Hs0
    iexists s1; iexact Hs1
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
/-- @main is the run of the segments. -/
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    every final state has every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c =>
      show iprop(StableHlo.held (c : Thread nD τ) (Pipeline.ucRefs τ sig) (W4 m c) ∗ R c)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arguments end as launched -/
/-- A buffer the last host operation does not write is as the second region left it; one the first stretch of host
    operations does not write is as launched. -/
private theorem W4_of (c : Dev nD) (r : Ref sig .tc) (h : r ∉ (hostOps2_W : List (Ref sig .tc))) :
    W4 m c (Proc.devRef .tc r) = W3 m c (Proc.devRef .tc r) :=
  StableHlo.after_of_writes_sub hostOps2 _ hostOps2_writes h
private theorem W1_of (c : Dev nD) (r : Ref sig .tc) (h : r ∉ (hostOps0_W : List (Ref sig .tc))) :
    W1 m c (Proc.devRef .tc r) = m ((c : Thread nD τ).loc r) :=
  StableHlo.after_of_writes_sub hostOps0 _ hostOps0_writes h
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of m c main_arg0 (by decide)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = m ((c : Thread nD τ).loc main_arg0) := W1_of m c main_arg0 (by decide)
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of m c main_arg1 (by decide)
    _ = W2 m c (Proc.devRef .tc main_arg1) := (W3_arr m c 0).trans (((dat1 (V2 m) c).arrAt_in 0 rfl _).trans (A_eq1 (V2 m) c 0))
    _ = W1 m c (Proc.devRef .tc main_arg1) := W2_of_ne m c main_arg1 (by decide)
    _ = m ((c : Thread nD τ).loc main_arg1) := W1_of m c main_arg1 (by decide)
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of m c main_arg2 (by decide)
    _ = W2 m c (Proc.devRef .tc main_arg2) := W3_of_ne m c main_arg2 (by decide)
    _ = W1 m c (Proc.devRef .tc main_arg2) := W2_of_ne m c main_arg2 (by decide)
    _ = m ((c : Thread nD τ).loc main_arg2) := W1_of m c main_arg2 (by decide)
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of m c main_arg3 (by decide)
    _ = W2 m c (Proc.devRef .tc main_arg3) := W3_of_ne m c main_arg3 (by decide)
    _ = W1 m c (Proc.devRef .tc main_arg3) := W2_of_ne m c main_arg3 (by decide)
    _ = m ((c : Thread nD τ).loc main_arg3) := W1_of m c main_arg3 (by decide)
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of m c main_arg4 (by decide)
    _ = W2 m c (Proc.devRef .tc main_arg4) := W3_of_ne m c main_arg4 (by decide)
    _ = W1 m c (Proc.devRef .tc main_arg4) := W2_of_ne m c main_arg4 (by decide)
    _ = m ((c : Thread nD τ).loc main_arg4) := W1_of m c main_arg4 (by decide)
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of m c main_arg5 (by decide)
    _ = W2 m c (Proc.devRef .tc main_arg5) := W3_of_ne m c main_arg5 (by decide)
    _ = W1 m c (Proc.devRef .tc main_arg5) := W2_of_ne m c main_arg5 (by decide)
    _ = m ((c : Thread nD τ).loc main_arg5) := W1_of m c main_arg5 (by decide)

/-! ## The results, and the second region's entry contents, read through the boundaries -/
theorem W4_v0_0 (c : Dev nD) : W4 m c (Proc.devRef .tc main_v0_0) = (dat1 (V2 m) c).arrAt 5 cfg1.N :=
  (W4_of m c main_v0_0 (by decide)).trans (W3_arr m c 5)
theorem W4_v0_2 (c : Dev nD) : W4 m c (Proc.devRef .tc main_v0_2) = (dat1 (V2 m) c).arrAt 7 cfg1.N :=
  (W4_of m c main_v0_2 (by decide)).trans (W3_arr m c 7)
theorem W4_v0_1 (c : Dev nD) : (W4 m c (Proc.devRef .tc main_v0_1) : S4096x256.Idx → Elt F .f32)
    = extf .f32 ((dat1 (V2 m) c).arrAt 6 cfg1.N : S4096x256.Idx → Elt F .bf16) bitsLt_bf16_f32 := by
  -- the last host operation widens the second region's sixth array into this buffer
  have e : (W4 m c (Proc.devRef .tc main_v0_1) : S4096x256.Idx → Elt F .f32)
      = extf .f32 (W3 m c (Proc.devRef .tc main_call0_v6_1) : S4096x256.Idx → Elt F .bf16) bitsLt_bf16_f32 := by
    show StableHlo.after hostOps2 _ (Proc.devRef .tc main_v0_1) = _
    after_results
    rfl
  exact e.trans (congrArg (fun x : S4096x256.Idx → Elt F .bf16 => extf .f32 x bitsLt_bf16_f32) (W3_arr m c 6))
/-- The second region's five input arrays as it finds them. -/
theorem V2_adj (c : Dev nD) : V2 m c main_arg1 = m ((c : Thread nD τ).loc main_arg1) :=
  (W2_of_ne m c main_arg1 (by decide)).trans (W1_of m c main_arg1 (by decide))
theorem V2_s1 (c : Dev nD) : V2 m c main_call0_v5 = (dat0 (V1 m) c).arrAt 2 cfg0.N :=
  W2_arr m c 2
theorem V2_w2 (c : Dev nD) : (V2 m c main_call0_v1 : S512x256.Idx → Elt F .bf16)
    = truncf .bf16 (m ((c : Thread nD τ).loc main_arg3) : S512x256.Idx → Elt F .f32) bitsLt_bf16_f32 := by
  -- the first region does not write it; the second host operation narrows the second weight matrix into it
  have e : (W1 m c (Proc.devRef .tc main_call0_v1) : S512x256.Idx → Elt F .bf16)
      = truncf .bf16 (m ((c : Thread nD τ).loc main_arg3) : S512x256.Idx → Elt F .f32) bitsLt_bf16_f32 := by
    show StableHlo.after hostOps0 _ (Proc.devRef .tc main_call0_v1) = _
    after_results
    rfl
  exact (W2_of_ne m c main_call0_v1 (by decide)).trans e
theorem V2_wzt (c : Dev nD) : (V2 m c main_call0_v3 : S256x64.Idx → Elt F .bf16)
    = truncf .bf16 (transpose S256x64 [1, 0] (m ((c : Thread nD τ).loc main_arg4) : S64x256.Idx → Elt F .f32) transposes_S64x256_S256x64_1_0) bitsLt_bf16_f32 := by
  -- the first region does not write it; the third host operation transposes the projection's weights, the fourth narrows them
  have e : (W1 m c (Proc.devRef .tc main_call0_v3) : S256x64.Idx → Elt F .bf16)
      = truncf .bf16 (transpose S256x64 [1, 0] (m ((c : Thread nD τ).loc main_arg4) : S64x256.Idx → Elt F .f32) transposes_S64x256_S256x64_1_0) bitsLt_bf16_f32 := by
    show StableHlo.after hostOps0 _ (Proc.devRef .tc main_call0_v3) = _
    after_results
    rfl
  exact (W2_of_ne m c main_call0_v3 (by decide)).trans e
theorem V2_bz (c : Dev nD) : (V2 m c main_call0_v4 : S1x64.Idx → Elt F .f32)
    = shapeCast S1x64 (m ((c : Thread nD τ).loc main_arg5) : S64.Idx → Elt F .f32) shapeCasts_S64_S1x64 := by
  -- the first region does not write it; the fifth host operation reshapes the bias into it
  have e : (W1 m c (Proc.devRef .tc main_call0_v4) : S1x64.Idx → Elt F .f32)
      = shapeCast S1x64 (m ((c : Thread nD τ).loc main_arg5) : S64.Idx → Elt F .f32) shapeCasts_S64_S1x64 := by
    show StableHlo.after hostOps0 _ (Proc.devRef .tc main_call0_v4) = _
    after_results
    rfl
  exact (W2_of_ne m c main_call0_v4 (by decide)).trans e
/-- The first region's two input arrays as it finds them. -/
theorem V1_x (c : Dev nD) : V1 m c main_arg0 = m ((c : Thread nD τ).loc main_arg0) :=
  W1_of m c main_arg0 (by decide)
theorem V1_w1 (c : Dev nD) : (V1 m c main_call0_v0 : S512x512.Idx → Elt F .bf16)
    = truncf .bf16 (m ((c : Thread nD τ).loc main_arg2) : S512x512.Idx → Elt F .f32) bitsLt_bf16_f32 := by
  -- the first host operation narrows the first weight matrix into it
  show StableHlo.after hostOps0 _ (Proc.devRef .tc main_call0_v0) = _
  after_results
  rfl

/-- THE FRAME at any `F`: the run, read at the six argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c)⟩) (run m ρ)

end Cert.KernelIdeal.Hand

end
-- ==== Proof.KI.Blocks.lean ====
import proofs.«145978_g57612691309227_cont_sun_m_451_18_alg».proof.Proof.Gen.KernelIdeal.Launch
import proofs.«145978_g57612691309227_cont_sun_m_451_18_alg».proof.Proof.Gen.KernelIdeal.Skeleton
import proofs.«145978_g57612691309227_cont_sun_m_451_18_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import proofs.«145978_g57612691309227_cont_sun_m_451_18_alg».proof.Proof.KI.R1Defs
import proofs.«145978_g57612691309227_cont_sun_m_451_18_alg».proof.Proof.KI.Region0
import proofs.«145978_g57612691309227_cont_sun_m_451_18_alg».proof.Proof.KI.R1Sched
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The windows' blocks, read at an index of the array behind them

A block of a window sits in its array, on each axis, at the block index times the block's size plus the coordinate
inside the block. The propagation matrix's window has 512-row blocks; every other input window's one block is its
whole array. -/

open Idealize.ShloMosaic.ValueIdx

section
variable (V : (c : Dev nD) → (b : Ref sig .tc) → Buf (Elt F) ((c : Thread nD τ).loc b))

/-- The block indices of the windows whose one block is the whole array: zero on both axes at every point. -/
private theorem index1_1 : ∀ t : Fin cfg1.N, (cfg1.win 1).index t = ![0, 0] :=
  (by decide +kernel : ∀ t : Fin grid1.N, win1_1.index t = ![0, 0])
private theorem index1_2 : ∀ t : Fin cfg1.N, (cfg1.win 2).index t = ![0, 0] :=
  (by decide +kernel : ∀ t : Fin grid1.N, win1_2.index t = ![0, 0])
private theorem index1_3 : ∀ t : Fin cfg1.N, (cfg1.win 3).index t = ![0, 0] :=
  (by decide +kernel : ∀ t : Fin grid1.N, win1_3.index t = ![0, 0])
private theorem index1_4 : ∀ t : Fin cfg1.N, (cfg1.win 4).index t = ![0, 0] :=
  (by decide +kernel : ∀ t : Fin grid1.N, win1_4.index t = ![0, 0])
private theorem index0_0 : ∀ t : Fin cfg0.N, (cfg0.win 0).index t = ![0, 0] :=
  (by decide +kernel : ∀ t : Fin grid0.N, win0_0.index t = ![0, 0])
private theorem index0_1 : ∀ t : Fin cfg0.N, (cfg0.win 1).index t = ![0, 0] :=
  (by decide +kernel : ∀ t : Fin grid0.N, win0_1.index t = ![0, 0])
private theorem index0_2 : ∀ t : Fin cfg0.N, (cfg0.win 2).index t = ![0, 0] :=
  (by decide +kernel : ∀ t : Fin grid0.N, win0_2.index t = ![0, 0])

/-- The row block of the propagation matrix the pipeline holds at point `t`: block `t` in the first phase, block 7 after. -/
def rowBlk (t : Fin cfg1.N) : Nat := if t.val < 8 then t.val else 7
theorem rowBlk_lt (t : Fin cfg1.N) : rowBlk t < 8 := by
  unfold rowBlk; split <;> omega

/-- The propagation matrix's block at point `t`, entry `(r, k)`: the matrix's entry `(512·rowBlk t + r, k)`. -/
theorem iblk1_0_apply (c : Dev nD) (t : Fin cfg1.N) (r : Fin 512) (k : Fin 4096) :
    (iblk1 V c 0 t : S512x4096.Idx → Elt F .f32) (ix2 r k)
      = (V c main_arg1 : S4096x4096.Idx → Elt F .f32) (ix2 (⟨512 * rowBlk t + r.val, by have := rowBlk_lt t; omega⟩ : Fin 4096) k) := by
  show (V c main_arg1 : S4096x4096.Idx → Elt F .f32) (((cfg1.win 0).blk t).view.emb (ix2 r k)) = _
  refine congrArg (V c main_arg1 : S4096x4096.Idx → Elt F .f32) ?_
  funext a; apply Fin.ext
  have hi : (cfg1.win 0).index t = ![rowBlk t, 0] := index1_0 t
  match a with
  | ⟨0, _⟩ =>
    show (cfg1.win 0).index t (0 : Fin 2) * 512 + 1 * r.val = 512 * rowBlk t + r.val
    rw [hi]; show rowBlk t * 512 + 1 * r.val = 512 * rowBlk t + r.val; omega
  | ⟨1, _⟩ =>
    show (cfg1.win 0).index t (1 : Fin 2) * 4096 + 1 * k.val = k.val
    rw [hi]; show 0 * 4096 + 1 * k.val = k.val; omega
/-- The other four input windows of the second region hold their whole arrays at every point. -/
theorem iblk1_1_eq (c : Dev nD) (t : Fin cfg1.N) : (iblk1 V c 1 t : S4096x512.Idx → Elt F .bf16) = V c main_call0_v5 := by
  funext y
  show (V c main_call0_v5 : S4096x512.Idx → Elt F _) (((cfg1.win 1).blk t).view.emb y) = V c main_call0_v5 y
  refine congrArg (V c main_call0_v5 : S4096x512.Idx → Elt F _) ?_
  funext a; apply Fin.ext
  have hi := index1_1 t
  match a with
  | ⟨0, _⟩ =>
    show (cfg1.win 1).index t (0 : Fin 2) * 4096 + 1 * (y 0).val = (y 0).val
    rw [hi]; show 0 * 4096 + 1 * (y 0).val = (y 0).val; omega
  | ⟨1, _⟩ =>
    show (cfg1.win 1).index t (1 : Fin 2) * 512 + 1 * (y 1).val = (y 1).val
    rw [hi]; show 0 * 512 + 1 * (y 1).val = (y 1).val; omega
theorem iblk1_2_eq (c : Dev nD) (t : Fin cfg1.N) : (iblk1 V c 2 t : S512x256.Idx → Elt F .bf16) = V c main_call0_v1 := by
  funext y
  show (V c main_call0_v1 : S512x256.Idx → Elt F _) (((cfg1.win 2).blk t).view.emb y) = V c main_call0_v1 y
  refine congrArg (V c main_call0_v1 : S512x256.Idx → Elt F _) ?_
  funext a; apply Fin.ext
  have hi := index1_2 t
  match a with
  | ⟨0, _⟩ =>
    show (cfg1.win 2).index t (0 : Fin 2) * 512 + 1 * (y 0).val = (y 0).val
    rw [hi]; show 0 * 512 + 1 * (y 0).val = (y 0).val; omega
  | ⟨1, _⟩ =>
    show (cfg1.win 2).index t (1 : Fin 2) * 256 + 1 * (y 1).val = (y 1).val
    rw [hi]; show 0 * 256 + 1 * (y 1).val = (y 1).val; omega
theorem iblk1_3_eq (c : Dev nD) (t : Fin cfg1.N) : (iblk1 V c 3 t : S256x64.Idx → Elt F .bf16) = V c main_call0_v3 := by
  funext y
  show (V c main_call0_v3 : S256x64.Idx → Elt F _) (((cfg1.win 3).blk t).view.emb y) = V c main_call0_v3 y
  refine congrArg (V c main_call0_v3 : S256x64.Idx → Elt F _) ?_
  funext a; apply Fin.ext
  have hi := index1_3 t
  match a with
  | ⟨0, _⟩ =>
    show (cfg1.win 3).index t (0 : Fin 2) * 256 + 1 * (y 0).val = (y 0).val
    rw [hi]; show 0 * 256 + 1 * (y 0).val = (y 0).val; omega
  | ⟨1, _⟩ =>
    show (cfg1.win 3).index t (1 : Fin 2) * 64 + 1 * (y 1).val = (y 1).val
    rw [hi]; show 0 * 64 + 1 * (y 1).val = (y 1).val; omega
theorem iblk1_4_eq (c : Dev nD) (t : Fin cfg1.N) : (iblk1 V c 4 t : S1x64.Idx → Elt F .f32) = V c main_call0_v4 := by
  funext y
  show (V c main_call0_v4 : S1x64.Idx → Elt F _) (((cfg1.win 4).blk t).view.emb y) = V c main_call0_v4 y
  refine congrArg (V c main_call0_v4 : S1x64.Idx → Elt F _) ?_
  funext a; apply Fin.ext
  have hi := index1_4 t
  match a with
  | ⟨0, _⟩ =>
    show (cfg1.win 4).index t (0 : Fin 2) * 1 + 1 * (y 0).val = (y 0).val
    rw [hi]; show 0 * 1 + 1 * (y 0).val = (y 0).val; omega
  | ⟨1, _⟩ =>
    show (cfg1.win 4).index t (1 : Fin 2) * 64 + 1 * (y 1).val = (y 1).val
    rw [hi]; show 0 * 64 + 1 * (y 1).val = (y 1).val; omega
/-- The first region's two input windows hold their whole arrays. -/
theorem iblk0_0_eq (c : Dev nD) (t : Fin cfg0.N) : (iblk0 V c 0 t : S4096x512.Idx → Elt F .f32) = V c main_arg0 := by
  funext y
  show (V c main_arg0 : S4096x512.Idx → Elt F _) (((cfg0.win 0).blk t).view.emb y) = V c main_arg0 y
  refine congrArg (V c main_arg0 : S4096x512.Idx → Elt F _) ?_
  funext a; apply Fin.ext
  have hi := index0_0 t
  match a with
  | ⟨0, _⟩ =>
    show (cfg0.win 0).index t (0 : Fin 2) * 4096 + 1 * (y 0).val = (y 0).val
    rw [hi]; show 0 * 4096 + 1 * (y 0).val = (y 0).val; omega
  | ⟨1, _⟩ =>
    show (cfg0.win 0).index t (1 : Fin 2) * 512 + 1 * (y 1).val = (y 1).val
    rw [hi]; show 0 * 512 + 1 * (y 1).val = (y 1).val; omega
theorem iblk0_1_eq (c : Dev nD) (t : Fin cfg0.N) : (iblk0 V c 1 t : S512x512.Idx → Elt F .bf16) = V c main_call0_v0 := by
  funext y
  show (V c main_call0_v0 : S512x512.Idx → Elt F _) (((cfg0.win 1).blk t).view.emb y) = V c main_call0_v0 y
  refine congrArg (V c main_call0_v0 : S512x512.Idx → Elt F _) ?_
  funext a; apply Fin.ext
  have hi := index0_1 t
  match a with
  | ⟨0, _⟩ =>
    show (cfg0.win 1).index t (0 : Fin 2) * 512 + 1 * (y 0).val = (y 0).val
    rw [hi]; show 0 * 512 + 1 * (y 0).val = (y 0).val; omega
  | ⟨1, _⟩ =>
    show (cfg0.win 1).index t (1 : Fin 2) * 512 + 1 * (y 1).val = (y 1).val
    rw [hi]; show 0 * 512 + 1 * (y 1).val = (y 1).val; omega

/-- Where an output block's entry sits in its array: the first region's one output block is its whole array; the second
    region's three outputs have 512-row blocks at the window's block index. -/
theorem emb0_2 (t : Fin cfg0.N) (y : S4096x512.Idx) : (((cfg0.win 2).blk t).view.emb y : S4096x512.Idx) = y := by
  funext a; apply Fin.ext
  have hi := index0_2 t
  match a with
  | ⟨0, _⟩ =>
    show (cfg0.win 2).index t (0 : Fin 2) * 4096 + 1 * (y 0).val = (y 0).val
    rw [hi]; show 0 * 4096 + 1 * (y 0).val = (y 0).val; omega
  | ⟨1, _⟩ =>
    show (cfg0.win 2).index t (1 : Fin 2) * 512 + 1 * (y 1).val = (y 1).val
    rw [hi]; show 0 * 512 + 1 * (y 1).val = (y 1).val; omega
theorem emb1_5 (t : Fin cfg1.N) (r : Fin 512) (j : Fin 512) :
    (((cfg1.win 5).blk t).view.emb (ix2 r j : S512x512.Idx) : S4096x512.Idx)
      = ix2 (⟨512 * rowBlk t + r.val, by have := rowBlk_lt t; omega⟩ : Fin 4096) j := by
  funext a; apply Fin.ext
  have hi : (cfg1.win 5).index t = ![rowBlk t, 0] := index1_5 t
  match a with
  | ⟨0, _⟩ =>
    show (cfg1.win 5).index t (0 : Fin 2) * 512 + 1 * r.val = 512 * rowBlk t + r.val
    rw [hi]; show rowBlk t * 512 + 1 * r.val = 512 * rowBlk t + r.val; omega
  | ⟨1, _⟩ =>
    show (cfg1.win 5).index t (1 : Fin 2) * 512 + 1 * j.val = j.val
    rw [hi]; show 0 * 512 + 1 * j.val = j.val; omega
/-- The second-phase outputs' row block: 0 in the first phase, `t - 8` after. -/
def rowBlk' (t : Fin cfg1.N) : Nat := if t.val < 8 then 0 else t.val - 8
theorem rowBlk'_lt (t : Fin cfg1.N) : rowBlk' t < 8 := by
  have h : t.val < 16 := lt_of_lt_of_eq t.isLt N_1
  unfold rowBlk'; split <;> omega
theorem emb1_6 (t : Fin cfg1.N) (r : Fin 512) (j : Fin 256) :
    (((cfg1.win 6).blk t).view.emb (ix2 r j : S512x256.Idx) : S4096x256.Idx)
      = ix2 (⟨512 * rowBlk' t + r.val, by have := rowBlk'_lt t; omega⟩ : Fin 4096) j := by
  funext a; apply Fin.ext
  have hi : (cfg1.win 6).index t = ![rowBlk' t, 0] := index1_6 t
  match a with
  | ⟨0, _⟩ =>
    show (cfg1.win 6).index t (0 : Fin 2) * 512 + 1 * r.val = 512 * rowBlk' t + r.val
    rw [hi]; show rowBlk' t * 512 + 1 * r.val = 512 * rowBlk' t + r.val; omega
  | ⟨1, _⟩ =>
    show (cfg1.win 6).index t (1 : Fin 2) * 256 + 1 * j.val = j.val
    rw [hi]; show 0 * 256 + 1 * j.val = j.val; omega
theorem emb1_7 (t : Fin cfg1.N) (r : Fin 512) (j : Fin 64) :
    (((cfg1.win 7).blk t).view.emb (ix2 r j : S512x64.Idx) : S4096x64.Idx)
      = ix2 (⟨512 * rowBlk' t + r.val, by have := rowBlk'_lt t; omega⟩ : Fin 4096) j := by
  funext a; apply Fin.ext
  have hi : (cfg1.win 7).index t = ![rowBlk' t, 0] := index1_7 t
  match a with
  | ⟨0, _⟩ =>
    show (cfg1.win 7).index t (0 : Fin 2) * 512 + 1 * r.val = 512 * rowBlk' t + r.val
    rw [hi]; show rowBlk' t * 512 + 1 * r.val = 512 * rowBlk' t + r.val; omega
  | ⟨1, _⟩ =>
    show (cfg1.win 7).index t (1 : Fin 2) * 64 + 1 * j.val = j.val
    rw [hi]; show 0 * 64 + 1 * j.val = j.val; omega

end

end Cert.KernelIdeal.Hand

end
-- ==== Proof.Spec.lean ====
/-
  The network both programs compute, over the extended reals: three dense layers on a dense propagation matrix.
  With `s = x · W₁`, the first layer is `h₁ = max(adj · s, 0)`, the second `h₂ = max(adj · (h₁ · W₂), 0)` and the
  projection `z = h₂ · Wzᵀ + bz` (the bias added to every row). A product `a · b` of an `n × k` by a `k × p` array is the
  array of the sums `∑ l, a (i, l) * b (l, j)` over the contracted coordinate, taken in the extended reals: no order
  of summation is left in it.
-/
import Idealize.ShloMosaic.PureOps.Ideal
import Idealize.ShloMosaic.Lib.ValueIdx

noncomputable section

open scoped BigOperators

namespace Cert.Spec

open Idealize.ShloMosaic Idealize.ShloMosaic.ValueIdx

/-- The product of an `n × k` array and a `k × p` array. -/
def mm {n k p : Nat} (a : (⟨2, ![n, k]⟩ : Shape).Idx → EReal) (b : (⟨2, ![k, p]⟩ : Shape).Idx → EReal) :
    (⟨2, ![n, p]⟩ : Shape).Idx → EReal :=
  fun j => ∑ l : Fin k, a (ix2 (j 0 : Fin n) l) * b (ix2 l (j 1 : Fin p))

/-- The positive part, entry by entry. -/
def relu {s : Shape} (a : s.Idx → EReal) : s.Idx → EReal := fun j => max (a j) 0

/-- The transpose of a rank-2 array. -/
def tr {n p : Nat} (a : (⟨2, ![n, p]⟩ : Shape).Idx → EReal) : (⟨2, ![p, n]⟩ : Shape).Idx → EReal :=
  fun j => a (ix2 (j 1 : Fin n) (j 0 : Fin p))

/-- A row vector added to every row. -/
def addRow {n p : Nat} (a : (⟨2, ![n, p]⟩ : Shape).Idx → EReal) (b : (⟨1, ![p]⟩ : Shape).Idx → EReal) :
    (⟨2, ![n, p]⟩ : Shape).Idx → EReal :=
  fun j => a j + b (ix1 (j 1 : Fin p))

abbrev A4096x512 := (⟨2, ![4096, 512]⟩ : Shape).Idx → EReal
abbrev A4096x4096 := (⟨2, ![4096, 4096]⟩ : Shape).Idx → EReal
abbrev A512x512 := (⟨2, ![512, 512]⟩ : Shape).Idx → EReal
abbrev A512x256 := (⟨2, ![512, 256]⟩ : Shape).Idx → EReal
abbrev A64x256 := (⟨2, ![64, 256]⟩ : Shape).Idx → EReal
abbrev A64 := (⟨1, ![64]⟩ : Shape).Idx → EReal
abbrev A4096x256 := (⟨2, ![4096, 256]⟩ : Shape).Idx → EReal
abbrev A4096x64 := (⟨2, ![4096, 64]⟩ : Shape).Idx → EReal

/-- The first layer's operand `x · W₁`, the first layer, the second layer's operand `h₁ · W₂`, the second layer, and
    the projection. -/
def S1 (x : A4096x512) (w1 : A512x512) : A4096x512 := mm x w1
def H1 (adj : A4096x4096) (x : A4096x512) (w1 : A512x512) : A4096x512 := relu (mm adj (S1 x w1))
def S2 (adj : A4096x4096) (x : A4096x512) (w1 : A512x512) (w2 : A512x256) : A4096x256 := mm (H1 adj x w1) w2
def H2 (adj : A4096x4096) (x : A4096x512) (w1 : A512x512) (w2 : A512x256) : A4096x256 := relu (mm adj (S2 adj x w1 w2))
def Z (adj : A4096x4096) (x : A4096x512) (w1 : A512x512) (w2 : A512x256) (wz : A64x256) (bz : A64) : A4096x64 :=
  addRow (mm (H2 adj x w1 w2) (tr wz)) bz

end Cert.Spec

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.LibPlainProduct.lean ====
/-
  A plain matrix product read as sums over the contracted coordinate.

  For dimension numbers contracting the left operand's second axis with the right operand's first, with no batch axis
  (an `n × k` array times a `k × p` array), at the ideal values both the matrix unit's product into a zero accumulator
  and the host's `dot_general` are the array of the sums `∑ l, a (i, l) * b (l, j)`.
-/
import proofs.«145978_g57612691309227_cont_sun_m_451_18_alg».proof.Proof.LibContraction
import proofs.«145978_g57612691309227_cont_sun_m_451_18_alg».proof.Proof.Spec
import Idealize.ShloMosaic.PureOps.Ideal.Laws
import Idealize.ShloMosaic.Lib.ValueIdx

noncomputable section

open scoped BigOperators

namespace Cert.Lib.PlainProduct

open Idealize.ShloMosaic Idealize.ShloMosaic.ValueIdx Cert.Spec Cert.Lib.Contraction

variable {n k p : Nat} {φ₁ φ₂ : FTy}
  (d : DotDims (⟨2, ![n, k]⟩ : Shape) (⟨2, ![k, p]⟩ : Shape) (⟨2, ![n, p]⟩ : Shape))
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The sum over the contraction's positions of the operands' products at an entry `(i, j)` of the result is the sum
    over `l` of `a (i, l) * b (l, j)`: at position `l` the left operand's index is `(i, l)` and the right
    operand's `(l, j)`. -/
theorem sum_plain (a : FVec Ideal (⟨2, ![n, k]⟩ : Shape) φ₁) (b : FVec Ideal (⟨2, ![k, p]⟩ : Shape) φ₂)
    (j : (⟨2, ![n, p]⟩ : Shape).Idx) :
    ∑ q : d.contr.Idx, a (d.lhsIdx j q) * b (d.rhsIdx j q) = mm a b j := by
  rw [sum_contr d hlc k rfl]
  unfold mm
  refine Finset.sum_congr rfl fun l _ => ?_
  have hL : d.lhsIdx j ((contrFin d hlc k rfl).symm l) = ix2 (j 0) l := by
    funext x
    match x with
    | ⟨0, _⟩ => exact Fin.ext (lhs_free d hlb hln j _ Nat.zero_lt_two)
    | ⟨1, _⟩ => exact Fin.ext (lhs_contracted d hlc k rfl j l)
  have hR : d.rhsIdx j ((contrFin d hlc k rfl).symm l) = ix2 l (j 1) := by
    funext x
    match x with
    | ⟨0, _⟩ => exact Fin.ext (rhs_contracted d hlc hrc k rfl j l)
    | ⟨1, _⟩ => exact Fin.ext (rhs_free d hlb hrb hln hrn j _ Nat.one_lt_two)
  rw [hL, hR]
  rfl

include hlc hrc hln hrn hlb hrb in
/-- The matrix unit's product into the zero accumulator is the array of sums. -/
theorem matmul_eq_mm (a : FVec Ideal (⟨2, ![n, k]⟩ : Shape) φ₁) (b : FVec Ideal (⟨2, ![k, p]⟩ : Shape) φ₂) :
    matmul d none a b (constant (⟨2, ![n, p]⟩ : Shape) .f32 0x00000000#32) = mm a b := by
  funext j
  refine (Ideal.matmul_constant_zero_apply d none a b j).trans ?_
  exact sum_plain d hlc hrc hln hrn hlb hrb a b j

include hlc hrc hln hrn hlb hrb in
/-- The host's `dot_general` is the same array of sums. -/
theorem dotGeneral_eq_mm (a : FVec Ideal (⟨2, ![n, k]⟩ : Shape) φ₁) (b : FVec Ideal (⟨2, ![k, p]⟩ : Shape) φ₂) :
    Host.dotGeneral d none a b = mm a b := by
  funext j
  simp only [Host.dotGeneral]
  refine (Ideal.dotGeneral_apply d none _ a b j).trans ?_
  exact sum_plain d hlc hrc hln hrn hlb hrb a b j

end Cert.Lib.PlainProduct

end
-- ==== Proof.KI.PayIdeal.lean ====
/-
  The kernels' stored values at the ideal instance: a change of float format is the identity there, the matrix unit's
  product into a zero accumulator is the array of sums, and the maximum with the zero splat is the positive part.
-/
import proofs.«145978_g57612691309227_cont_sun_m_451_18_alg».proof.Proof.Gen.KernelIdeal.Skeleton
import proofs.«145978_g57612691309227_cont_sun_m_451_18_alg».proof.Proof.Spec
import proofs.«145978_g57612691309227_cont_sun_m_451_18_alg».proof.Proof.LibPlainProduct
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen Cert.Spec
open Idealize.ShloMosaic Idealize.ShloMosaic.ValueIdx

/-- The maximum with the splat of the zero word, at an entry, is the positive part there. -/
private theorem relu_at {s : Shape} (x : FVec Ideal s .f32) (y : s.Idx → EReal) (h : x = y) (j : s.Idx) :
    maximumf x (broadcast s (Scalar.ofBits (F := Ideal) .f32 0x00000000#32)) j = relu y j := by
  subst h
  show max (x j) (Ideal.ofBits .f32 0x00000000#32) = max (x j) 0
  rw [Ideal.ofBits_zero_f32]

/-- The first region's store: the product of the feature block and the weights. -/
theorem pay1_ideal (v0 : Vec Ideal S4096x512 .f32) (v2 : Vec Ideal S512x512 .bf16) :
    (k0_pay1 (F := Ideal) v0 v2 : S4096x512.Idx → EReal) = mm v0 v2 := by
  unfold k0_pay1
  simp only [shapeCast_self]
  exact Cert.Lib.PlainProduct.matmul_eq_mm (φ₁ := .bf16) (φ₂ := .bf16) dot_S4096x512_S512x512_S4096x512_1_0_0_1_n_n rfl rfl rfl rfl rfl rfl v0 v2
/-- The parked row block of the propagation matrix is the block itself. -/
theorem pay2_ideal (v6 : Vec Ideal S512x4096 .f32) : (k1_pay2 (F := Ideal) v6 : S512x4096.Idx → EReal) = v6 := by
  unfold k1_pay2 k1_pay1
  simp only [shapeCast_self]
  rfl
/-- The first layer's row block: the positive part of the propagation block times the operand. -/
theorem pay3_ideal (v6 : Vec Ideal S512x4096 .f32) (v13 : Vec Ideal S4096x512 .bf16) :
    (k1_pay3 (F := Ideal) v6 v13 : S512x512.Idx → EReal) = relu (mm v6 v13) := by
  unfold k1_pay3 k1_pay1
  simp only [shapeCast_self]
  funext j
  exact relu_at _ _ (Cert.Lib.PlainProduct.matmul_eq_mm (φ₁ := .bf16) (φ₂ := .bf16) dot_S512x4096_S4096x512_S512x512_1_0_0_1_n_n rfl rfl rfl rfl rfl rfl v6 v13) j
/-- The second layer's operand's row block: the first layer's row block times the second weights. -/
theorem pay4_ideal (v6 : Vec Ideal S512x4096 .f32) (v13 : Vec Ideal S4096x512 .bf16) (v20 : Vec Ideal S512x256 .bf16) :
    (k1_pay4 (F := Ideal) v6 v13 v20 : S512x256.Idx → EReal) = mm (relu (mm v6 v13)) v20 := by
  unfold k1_pay4
  simp only [shapeCast_self]
  refine Eq.trans ?_ (congrArg (fun a => mm a v20) (pay3_ideal v6 v13))
  exact Cert.Lib.PlainProduct.matmul_eq_mm (φ₁ := .bf16) (φ₂ := .bf16) dot_S512x512_S512x256_S512x256_1_0_0_1_n_n rfl rfl rfl rfl rfl rfl (k1_pay3 (F := Ideal) v6 v13) v20
/-- The second layer's row block before the narrowing: the positive part of the parked propagation block times the
    whole second operand. -/
theorem pay5_ideal (v8 : Vec Ideal S512x4096 .bf16) (v9 : Vec Ideal S4096x256 .bf16) :
    (k1_pay5 (F := Ideal) v8 v9 : S512x256.Idx → EReal) = relu (mm v8 v9) := by
  unfold k1_pay5
  funext j
  exact relu_at _ _ (Cert.Lib.PlainProduct.matmul_eq_mm (φ₁ := .bf16) (φ₂ := .bf16) dot_S512x4096_S4096x256_S512x256_1_0_0_1_n_n rfl rfl rfl rfl rfl rfl v8 v9) j
/-- The second layer's row block. -/
theorem pay6_ideal (v8 : Vec Ideal S512x4096 .bf16) (v9 : Vec Ideal S4096x256 .bf16) :
    (k1_pay6 (F := Ideal) v8 v9 : S512x256.Idx → EReal) = relu (mm v8 v9) := by
  unfold k1_pay6
  exact pay5_ideal v8 v9
/-- The projection's row block: the second layer's row block times the transposed projection weights, the bias row
    added to every row. -/
theorem pay7_ideal (v8 : Vec Ideal S512x4096 .bf16) (v9 : Vec Ideal S4096x256 .bf16) (v16 : Vec Ideal S256x64 .bf16) (v19 : Vec Ideal S1x64 .f32) :
    (k1_pay7 (F := Ideal) v8 v9 v16 v19 : S512x64.Idx → EReal)
      = fun j => mm (relu (mm v8 v9)) v16 j + v19 (ix2 (0 : Fin 1) (j 1 : Fin 64)) := by
  unfold k1_pay7
  simp only [shapeCast_self]
  funext j
  -- the product's entry, its left operand the second layer's row block
  have hm := (congrFun (Cert.Lib.PlainProduct.matmul_eq_mm (φ₁ := .bf16) (φ₂ := .bf16) dot_S512x256_S256x64_S512x64_1_0_0_1_n_n rfl rfl rfl rfl rfl rfl (k1_pay5 (F := Ideal) v8 v9) v16) j).trans
    (congrFun (congrArg (fun a => mm a v16) (pay5_ideal v8 v9)) j)
  -- the bias row read at the entry's column
  have hb : broadcastTo S512x64 v19 broadcasts_S1x64_S512x64 j = v19 (ix2 (0 : Fin 1) (j 1 : Fin 64)) :=
    (congrArg (broadcastTo S512x64 v19 broadcasts_S1x64_S512x64) (eq_ix2 j)).trans
      (broadcastTo_1b_ab_apply v19 broadcasts_S1x64_S512x64 (j 0) (j 1))
  exact congrArg₂ (· + ·) hm hb

end Cert.KernelIdeal.Hand

end
-- ==== Proof.KI.Val0.lean ====
import proofs.«145978_g57612691309227_cont_sun_m_451_18_alg».proof.Proof.Gen.KernelIdeal.Launch
import proofs.«145978_g57612691309227_cont_sun_m_451_18_alg».proof.Proof.Gen.KernelIdeal.Skeleton
import proofs.«145978_g57612691309227_cont_sun_m_451_18_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import proofs.«145978_g57612691309227_cont_sun_m_451_18_alg».proof.Proof.KI.R1Defs
import proofs.«145978_g57612691309227_cont_sun_m_451_18_alg».proof.Proof.KI.Region0
import Idealize.ShloMosaic.Lib.Pipeline.Value
import proofs.«145978_g57612691309227_cont_sun_m_451_18_alg».proof.Proof.KI.Blocks
import proofs.«145978_g57612691309227_cont_sun_m_451_18_alg».proof.Proof.KI.R1Sched
import proofs.«145978_g57612691309227_cont_sun_m_451_18_alg».proof.Proof.KI.PayIdeal
import proofs.«145978_g57612691309227_cont_sun_m_451_18_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Idealize.ShloMosaic.ValueIdx Cert.Spec

/-! # The first region's result: the whole product `x · W₁`

The region has one point; its output window's one block is the whole array, written back once. -/

section
variable (V : (c : Dev nD) → (b : Ref sig .tc) → Buf (Elt Ideal) ((c : Thread nD τ).loc b))

/-- The offsets of an access to the whole of a rank-two buffer are zero on both axes. -/
private theorem hz2 : (![0, 0] : Fin 2 → ℕ) = fun _ => 0 := by funext a; fin_cases a <;> rfl

/-- The output window's block index is zero on both axes at the region's one point. -/
private theorem idx0_2 : ∀ t : Fin cfg0.N, win0_2.index t = ![0, 0] :=
  (by decide +kernel : ∀ t : Fin grid0.N, win0_2.index t = ![0, 0])

/-- What the one point writes back is the whole product: its store's payload is the product of the two loaded blocks,
    each the whole of its array, and the output block is the whole array. -/
private theorem flushed0_2_eq (c : Dev nD) (x : A4096x512) (w1 : A512x512)
    (hx : (V c main_arg0 : S4096x512.Idx → EReal) = x) (hw : (V c main_call0_v0 : S512x512.Idx → EReal) = w1)
    (t : Fin cfg0.N) :
    (dat0 V c).flushed 2 t = ((cfg0.win 2).blk t).view.read (Elt Ideal) (mm x w1 : S4096x512.Idx → EReal) := by
  show (cfg0.win 2).cut (grid0.coords t) ((dat0 V c).after 2 t) = _
  rw [after0_2]
  unfold out0_2
  rw [View.canon_unit_zero hz2]
  funext y
  rw [View.read_apply]
  show k0_pay1 (F := Ideal) (View.ld (iblk0 V c 0 t) r0_x) (View.ld (iblk0 V c 1 t) r0_w) y
    = mm x w1 (((cfg0.win 2).blk t).view.emb y)
  rw [emb0_2 t y, View.ld_unit_zero (S := S4096x512) hz2, View.ld_unit_zero (S := S512x512) hz2, pay1_ideal,
    iblk0_0_eq V c t, iblk0_1_eq V c t, hx, hw]

/-- Every index of the product's array is in the one point's block. -/
private theorem cover0_2' (i : S4096x512.Idx) :
    ∃ t : Fin cfg0.N, (cfg0.win 2).flush t = true ∧ i ∈ ((cfg0.win 2).blk t).view.set := by
  have hi0 : (i 0).val < 4096 := (i 0).isLt
  have hi1 : (i 1).val < 512 := (i 1).isLt
  have hN : 0 < cfg0.N := lt_of_lt_of_eq Nat.zero_lt_one N_0.symm
  refine ⟨⟨0, hN⟩, flush0_2 _, ?_⟩
  show i ∈ ((View.whole main_call0_v5).slice (win0_2.rect ⟨0, hN⟩)).set
  rw [View.set_slice_whole, Rect.mem_set_unit]
  have q0 : win0_2.index ⟨0, hN⟩ (0 : Fin 2) = 0 := congrFun (idx0_2 ⟨0, hN⟩) 0
  have q1 : win0_2.index ⟨0, hN⟩ (1 : Fin 2) = 0 := congrFun (idx0_2 ⟨0, hN⟩) 1
  intro a
  match a with
  | ⟨0, _⟩ =>
    show win0_2.index ⟨0, hN⟩ (0 : Fin 2) * 4096 ≤ (i 0).val ∧ (i 0).val < win0_2.index ⟨0, hN⟩ (0 : Fin 2) * 4096 + 4096
    rw [q0]; omega
  | ⟨1, _⟩ =>
    show win0_2.index ⟨0, hN⟩ (1 : Fin 2) * 512 ≤ (i 1).val ∧ (i 1).val < win0_2.index ⟨0, hN⟩ (1 : Fin 2) * 512 + 512
    rw [q1]; omega

/-- After the first region the product's array holds `x · W₁`, whatever arrays `x` and `W₁` the region found. -/
theorem s1_val (c : Dev nD) (x : A4096x512) (w1 : A512x512)
    (hx : (V c main_arg0 : S4096x512.Idx → EReal) = x) (hw : (V c main_call0_v0 : S512x512.Idx → EReal) = w1) :
    ((dat0 V c).arrAt 2 cfg0.N : S4096x512.Idx → EReal) = S1 x w1 := by
  exact (dat0 V c).arrAt_eq_of_cover 2 (mm x w1 : S4096x512.Idx → EReal)
    (fun t _ => flushed0_2_eq V c x w1 hx hw t) cover0_2'

end

end Cert.KernelIdeal.Hand

end
-- ==== Proof.KI.Val1a.lean ====
import proofs.«145978_g57612691309227_cont_sun_m_451_18_alg».proof.Proof.Gen.KernelIdeal.Launch
import proofs.«145978_g57612691309227_cont_sun_m_451_18_alg».proof.Proof.Gen.KernelIdeal.Skeleton
import proofs.«145978_g57612691309227_cont_sun_m_451_18_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import proofs.«145978_g57612691309227_cont_sun_m_451_18_alg».proof.Proof.KI.R1Defs
import proofs.«145978_g57612691309227_cont_sun_m_451_18_alg».proof.Proof.KI.Region0
import Idealize.ShloMosaic.Lib.Pipeline.Value
import proofs.«145978_g57612691309227_cont_sun_m_451_18_alg».proof.Proof.KI.Blocks
import proofs.«145978_g57612691309227_cont_sun_m_451_18_alg».proof.Proof.KI.R1Sched
import proofs.«145978_g57612691309227_cont_sun_m_451_18_alg».proof.Proof.KI.PayIdeal
import proofs.«145978_g57612691309227_cont_sun_m_451_18_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Idealize.ShloMosaic.ValueIdx Cert.Spec

/-! # The second region's first result: the first layer `max(adj · s, 0)`

Its window has 512-row blocks: block `t` is stored at point `t < 8` and written back after points 0…6 and, for block 7,
at the grid's last point; the eight blocks tile the array. -/

section
variable (V : (c : Dev nD) → (b : Ref sig .tc) → Buf (Elt Ideal) ((c : Thread nD τ).loc b))

/-- An entry of a product depends on its left factor through the entry's row only. -/
private theorem mm_row {n n' k p : ℕ} (a : (⟨2, ![n, k]⟩ : Shape).Idx → EReal) (a' : (⟨2, ![n', k]⟩ : Shape).Idx → EReal)
    (b : (⟨2, ![k, p]⟩ : Shape).Idx → EReal) (r : Fin n) (R : Fin n') (j : Fin p)
    (h : ∀ l : Fin k, a (ix2 r l) = a' (ix2 R l)) : mm a b (ix2 r j) = mm a' b (ix2 R j) := by
  show ∑ l : Fin k, a (ix2 r l) * b (ix2 l j) = ∑ l : Fin k, a' (ix2 R l) * b (ix2 l j)
  exact Finset.sum_congr rfl fun l _ => by rw [h l]

/-- The first layer's row block as a point computes it, entry `(r, j)`: the positive part of row `512·rowBlk t + r` of
    `adj · s` at column `j` — the propagation block's row `r` is the matrix's row `512·rowBlk t + r`, the operand's one
    block is all of `s`. -/
private theorem pay3_blk (c : Dev nD) (adj : A4096x4096) (s : A4096x512)
    (hadj : (V c main_arg1 : S4096x4096.Idx → EReal) = adj) (hs : (V c main_call0_v5 : S4096x512.Idx → EReal) = s)
    (t : Fin cfg1.N) (r : Fin 512) (j : Fin 512) (R : Fin 4096) (hR : R.val = 512 * rowBlk t + r.val) :
    (k1_pay3 (F := Ideal) (iblk1 V c 0 t) (iblk1 V c 1 t) : S512x512.Idx → EReal) (ix2 r j) = relu (mm adj s) (ix2 R j) := by
  have hb : 512 * rowBlk t + r.val < 4096 := by clear hR; have := rowBlk_lt t; omega
  obtain rfl : R = ⟨512 * rowBlk t + r.val, hb⟩ := Fin.ext hR
  rw [pay3_ideal]
  refine congrArg (fun z : EReal => max z 0)
    (?_ : mm (n := 512) (k := 4096) (p := 512) (iblk1 V c 0 t) (iblk1 V c 1 t) (ix2 r j) = mm adj s (ix2 (⟨512 * rowBlk t + r.val, hb⟩ : Fin 4096) j))
  rw [iblk1_1_eq V c t, hs]
  exact mm_row (n := 512) (n' := 4096) (k := 4096) (p := 512) (iblk1 V c 0 t) adj s r _ j
    (fun l => by rw [iblk1_0_apply V c t r l, hadj])

/-- What a point that writes the first layer's block back writes is ITS BLOCK of `relu (adj · s)`: in the first phase
    the block just stored, at the grid's last point the block point 7 stored, which is block 7. -/
private theorem flushed5_eq (c : Dev nD) (adj : A4096x4096) (s : A4096x512)
    (hadj : (V c main_arg1 : S4096x4096.Idx → EReal) = adj) (hs : (V c main_call0_v5 : S4096x512.Idx → EReal) = s)
    (t : Fin cfg1.N) (hf : (cfg1.win 5).flush t = true) :
    (dat1 V c).flushed 5 t = ((cfg1.win 5).blk t).view.read (Elt Ideal) (relu (mm adj s) : S4096x512.Idx → EReal) := by
  show (cfg1.win 5).cut (grid1.coords t) ((dat1 V c).after 5 t) = _
  rw [after1_5]
  funext y
  obtain ⟨r, j, rfl⟩ : ∃ (r : Fin 512) (j : Fin 512), y = ix2 r j := ⟨y 0, y 1, eq_ix2 y⟩
  rw [View.read_apply]
  show out5 V c t (ix2 r j) = relu (mm adj s) (((cfg1.win 5).blk t).view.emb (ix2 r j))
  rw [emb1_5 t r j]
  unfold out5
  split
  · next h => exact pay3_blk V c adj s hadj hs t r j _ rfl
  · next h =>
    have e1 : rowBlk t = 7 := by unfold rowBlk; rw [if_neg h]
    have e2 : rowBlk t1_7 = 7 := by unfold rowBlk; rw [if_pos (by decide)]; rfl
    exact pay3_blk V c adj s hadj hs t1_7 r j _ (by show 512 * rowBlk t + r.val = 512 * rowBlk t1_7 + r.val; rw [e1, e2])

/-- An index of the first layer's array is in point `t`'s block iff each coordinate is in the block's range. -/
private theorem mem_blk5 (t : Fin cfg1.N) (i : S4096x512.Idx) :
    i ∈ ((cfg1.win 5).blk t).view.set ↔ ∀ a : Fin 2, win1_5.index t a * S512x512.size a ≤ (i a).val
      ∧ (i a).val < win1_5.index t a * S512x512.size a + S512x512.size a := by
  show i ∈ ((View.whole main_v0_0).slice (win1_5.rect t)).set ↔ _
  rw [View.set_slice_whole, Rect.mem_set_unit]
  exact Iff.rfl

/-- Every row lies in a block some point writes back: row `i` is in block `i / 512`, written back after point `i / 512`
    when that is below 7 and at the grid's last point when it is 7. -/
private theorem cover5 (i : S4096x512.Idx) :
    ∃ t : Fin cfg1.N, (cfg1.win 5).flush t = true ∧ i ∈ ((cfg1.win 5).blk t).view.set := by
  have hi0 : (i 0).val < 4096 := (i 0).isLt
  have hi1 : (i 1).val < 512 := (i 1).isLt
  obtain ⟨n, hn, hn7, hq⟩ : ∃ n, n < 16 ∧ (n < 7 ∨ n = 15) ∧ (if n < 8 then n else 7) = (i 0).val / 512 := by
    by_cases h : (i 0).val / 512 < 7
    · exact ⟨(i 0).val / 512, by omega, Or.inl h, by rw [if_pos (by omega)]⟩
    · exact ⟨15, by omega, Or.inr rfl, by rw [if_neg (by omega)]; omega⟩
  have hN : n < cfg1.N := lt_of_lt_of_eq hn N_1.symm
  refine ⟨⟨n, hN⟩, ?_, ?_⟩
  · rw [flush1_5, decide_eq_true_eq]; exact hn7
  · rw [mem_blk5]
    have q0 : win1_5.index ⟨n, hN⟩ (0 : Fin 2) = if n < 8 then n else 7 := congrFun (index1_5 ⟨n, hN⟩) 0
    have q1 : win1_5.index ⟨n, hN⟩ (1 : Fin 2) = 0 := congrFun (index1_5 ⟨n, hN⟩) 1
    intro a
    match a with
    | ⟨0, _⟩ =>
      show win1_5.index ⟨n, hN⟩ (0 : Fin 2) * 512 ≤ (i 0).val ∧ (i 0).val < win1_5.index ⟨n, hN⟩ (0 : Fin 2) * 512 + 512
      rw [q0, hq]; omega
    | ⟨1, _⟩ =>
      show win1_5.index ⟨n, hN⟩ (1 : Fin 2) * 512 ≤ (i 1).val ∧ (i 1).val < win1_5.index ⟨n, hN⟩ (1 : Fin 2) * 512 + 512
      rw [q1]; omega

/-- After the second region the first layer's array holds the positive part of `adj · s`, whatever propagation matrix
    `adj` and operand `s` the region found. -/
theorem h1_val (c : Dev nD) (adj : A4096x4096) (s : A4096x512)
    (hadj : (V c main_arg1 : S4096x4096.Idx → EReal) = adj) (hs : (V c main_call0_v5 : S4096x512.Idx → EReal) = s) :
    ((dat1 V c).arrAt 5 cfg1.N : S4096x512.Idx → EReal) = relu (mm adj s) := by
  exact (dat1 V c).arrAt_eq_of_cover 5 (relu (mm adj s) : S4096x512.Idx → EReal)
    (fun t hf => flushed5_eq V c adj s hadj hs t hf) cover5

end

end Cert.KernelIdeal.Hand

end
-- ==== Proof.KI.Val1b.lean ====
import proofs.«145978_g57612691309227_cont_sun_m_451_18_alg».proof.Proof.Gen.KernelIdeal.Launch
import proofs.«145978_g57612691309227_cont_sun_m_451_18_alg».proof.Proof.Gen.KernelIdeal.Skeleton
import proofs.«145978_g57612691309227_cont_sun_m_451_18_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import proofs.«145978_g57612691309227_cont_sun_m_451_18_alg».proof.Proof.KI.R1Defs
import proofs.«145978_g57612691309227_cont_sun_m_451_18_alg».proof.Proof.KI.Region0
import Idealize.ShloMosaic.Lib.Pipeline.Value
import proofs.«145978_g57612691309227_cont_sun_m_451_18_alg».proof.Proof.KI.Blocks
import proofs.«145978_g57612691309227_cont_sun_m_451_18_alg».proof.Proof.KI.R1Sched
import proofs.«145978_g57612691309227_cont_sun_m_451_18_alg».proof.Proof.KI.PayIdeal
import proofs.«145978_g57612691309227_cont_sun_m_451_18_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Idealize.ShloMosaic.ValueIdx Cert.Spec

/-! # The second region's other two results: the second layer and the projection

Both windows have 512-row blocks: block `t - 8` is stored at point `t ≥ 8` and written back after it. The row block of the
propagation matrix comes from the first scratch buffer, the operand `h₁ · W₂` whole from the second. -/

/-! ## A row block of a product

Row `r` of a 512-row block of the left factor times the right factor is row `512·q + r` of the whole product: an entry of
a product reads one row of the left factor. -/

private theorem mm_rowBlock {p : Nat} (adj : A4096x4096) (blk : S512x4096.Idx → EReal)
    (X : (⟨2, ![4096, p]⟩ : Shape).Idx → EReal) (q : Nat) (hq : q < 8)
    (hblk : ∀ (r : Fin 512) (l : Fin 4096), blk (ix2 r l) = adj (ix2 (⟨512 * q + r.val, by omega⟩ : Fin 4096) l))
    (r : Fin 512) (j : Fin p) :
    mm blk X (ix2 r j) = mm adj X (ix2 (⟨512 * q + r.val, by omega⟩ : Fin 4096) j) := by
  show ∑ l : Fin 4096, blk (ix2 r l) * X (ix2 l j)
    = ∑ l : Fin 4096, adj (ix2 (⟨512 * q + r.val, _⟩ : Fin 4096) l) * X (ix2 l j)
  exact Finset.sum_congr rfl fun l _ => by rw [hblk]

/-- The same one product further: the positive part of the block's product, times a third factor. -/
private theorem mm_relu_rowBlock {p p' : Nat} (adj : A4096x4096) (blk : S512x4096.Idx → EReal)
    (X : (⟨2, ![4096, p]⟩ : Shape).Idx → EReal) (Y : (⟨2, ![p, p']⟩ : Shape).Idx → EReal) (q : Nat) (hq : q < 8)
    (hblk : ∀ (r : Fin 512) (l : Fin 4096), blk (ix2 r l) = adj (ix2 (⟨512 * q + r.val, by omega⟩ : Fin 4096) l))
    (r : Fin 512) (j : Fin p') :
    mm (relu (mm blk X)) Y (ix2 r j) = mm (relu (mm adj X)) Y (ix2 (⟨512 * q + r.val, by omega⟩ : Fin 4096) j) := by
  show ∑ k : Fin p, max (mm blk X (ix2 r k)) 0 * Y (ix2 k j)
    = ∑ k : Fin p, max (mm adj X (ix2 (⟨512 * q + r.val, _⟩ : Fin 4096) k)) 0 * Y (ix2 k j)
  exact Finset.sum_congr rfl fun k _ => by rw [mm_rowBlock adj blk X q hq hblk r k]

/-- The first-phase point of row block `q` holds row block `q` of the propagation matrix; in the second phase the row
    block parked for point `t` is the one the second-phase outputs store there, `t - 8`. -/
private theorem rowBlk_pt (q : Fin 8) : rowBlk (pt q) = q.val := by
  unfold rowBlk
  rw [if_pos (show (pt q).val < 8 from q.isLt)]
  rfl
private theorem rowBlk_m8 (t : Fin cfg1.N) (ht : 8 ≤ t.val) : rowBlk (pt (m8 t)) = rowBlk' t := by
  have h16 : t.val < 16 := lt_of_lt_of_eq t.isLt N_1
  rw [rowBlk_pt, m8_val]
  unfold rowBlk'
  rw [if_neg (by omega)]
  omega

section
variable (V : (c : Dev nD) → (b : Ref sig .tc) → Buf (Elt Ideal) ((c : Thread nD τ).loc b))

/-- Row block `q` of the propagation matrix as the pipeline holds it at the first-phase point `q`, read off the matrix. -/
private theorem blk_pt (c : Dev nD) (adj : A4096x4096) (hadj : (V c main_arg1 : S4096x4096.Idx → EReal) = adj)
    (t : Fin cfg1.N) (r : Fin 512) (l : Fin 4096) :
    (iblk1 V c 0 t : S512x4096.Idx → EReal) (ix2 r l)
      = adj (ix2 (⟨512 * rowBlk t + r.val, by have := rowBlk_lt t; omega⟩ : Fin 4096) l) := by
  rw [iblk1_0_apply V c t r l, hadj]

/-- What the first-phase point `q` parks in the second scratch buffer: the first layer's row block times the second
    weights. -/
private theorem S1blk_val (c : Dev nD) (s : A4096x512) (w2 : A512x256)
    (hs : (V c main_call0_v5 : S4096x512.Idx → EReal) = s) (hw2 : (V c main_call0_v1 : S512x256.Idx → EReal) = w2) (q : Fin 8) :
    (S1blk V c q : S512x256.Idx → EReal) = mm (relu (mm (iblk1 V c 0 (pt q) : S512x4096.Idx → EReal) s)) w2 := by
  unfold S1blk
  refine (pay4_ideal (iblk1 V c 0 (pt q)) (iblk1 V c 1 (pt q)) (iblk1 V c 2 (pt q))).trans ?_
  rw [iblk1_1_eq V c (pt q), iblk1_2_eq V c (pt q), hs, hw2]

/-- The second scratch buffer, once all eight row blocks are parked, is the whole operand `max(adj · s, 0) · W₂`. -/
theorem s1full_val (c : Dev nD) (adj : A4096x4096) (s : A4096x512) (w2 : A512x256)
    (hadj : (V c main_arg1 : S4096x4096.Idx → EReal) = adj) (hs : (V c main_call0_v5 : S4096x512.Idx → EReal) = s)
    (hw2 : (V c main_call0_v1 : S512x256.Idx → EReal) = w2) :
    (S1full V c : S4096x256.Idx → EReal) = mm (relu (mm adj s)) w2 := by
  funext j
  have hj0 : (j 0).val < 4096 := idx2_lt0 j
  -- row j 0 of the buffer is row (j 0) % 512 of the block parked by point (j 0) / 512
  show (S1blk V c ⟨(j 0).val / 512, by omega⟩ : S512x256.Idx → EReal)
      (ix2 (⟨(j 0).val % 512, Nat.mod_lt _ (by decide)⟩ : Fin 512) (j 1 : Fin 256)) = _
  rw [S1blk_val V c s w2 hs hw2 ⟨(j 0).val / 512, by omega⟩,
    mm_relu_rowBlock adj (iblk1 V c 0 (pt ⟨(j 0).val / 512, by omega⟩)) s w2 (rowBlk (pt ⟨(j 0).val / 512, by omega⟩)) (rowBlk_lt _)
      (blk_pt V c adj hadj (pt ⟨(j 0).val / 512, by omega⟩)) ⟨(j 0).val % 512, Nat.mod_lt _ (by decide)⟩ (j 1)]
  -- and 512 · ((j 0) / 512) + (j 0) % 512 is j 0
  refine congrArg (mm (relu (mm adj s)) w2) ((congrArg (fun i : Fin 4096 => (ix2 i (j 1 : Fin 256) : S4096x256.Idx)) (Fin.ext ?_)).trans (eq_ix2 j).symm)
  show 512 * rowBlk (pt ⟨(j 0).val / 512, by omega⟩) + (j 0).val % 512 = (j 0).val
  rw [rowBlk_pt]
  show 512 * ((j 0).val / 512) + (j 0).val % 512 = (j 0).val
  omega

/-! ## The second layer's array -/

/-- The second layer's row block as a second-phase point stores it: the positive part of the parked row block of the
    propagation matrix times the whole operand. -/
private theorem out6_val (c : Dev nD) (adj : A4096x4096) (s : A4096x512) (w2 : A512x256)
    (hadj : (V c main_arg1 : S4096x4096.Idx → EReal) = adj) (hs : (V c main_call0_v5 : S4096x512.Idx → EReal) = s)
    (hw2 : (V c main_call0_v1 : S512x256.Idx → EReal) = w2) (t : Fin cfg1.N) :
    (out6 V c t : S512x256.Idx → EReal)
      = relu (mm (iblk1 V c 0 (pt (m8 t)) : S512x4096.Idx → EReal) (mm (relu (mm adj s)) w2)) := by
  unfold out6 S0blk
  refine (pay6_ideal (k1_pay2 (iblk1 V c 0 (pt (m8 t)))) (S1full V c)).trans ?_
  rw [pay2_ideal (iblk1 V c 0 (pt (m8 t))), s1full_val V c adj s w2 hadj hs hw2]

/-- What a second-phase point writes back is its block of the whole second layer. -/
private theorem flushed6_eq (c : Dev nD) (adj : A4096x4096) (s : A4096x512) (w2 : A512x256)
    (hadj : (V c main_arg1 : S4096x4096.Idx → EReal) = adj) (hs : (V c main_call0_v5 : S4096x512.Idx → EReal) = s)
    (hw2 : (V c main_call0_v1 : S512x256.Idx → EReal) = w2) (t : Fin cfg1.N) (ht : 8 ≤ t.val) :
    (dat1 V c).flushed 6 t
      = ((cfg1.win 6).blk t).view.read (Elt Ideal) (relu (mm adj (mm (relu (mm adj s)) w2)) : S4096x256.Idx → EReal) := by
  show (cfg1.win 6).cut (grid1.coords t) ((dat1 V c).after 6 t) = _
  rw [after1_6]
  funext y
  obtain ⟨r, j, rfl⟩ : ∃ (r : Fin 512) (j : Fin 256), y = ix2 r j := ⟨y 0, y 1, eq_ix2 y⟩
  show (out6 V c t : S512x256.Idx → EReal) (ix2 r j)
    = (relu (mm adj (mm (relu (mm adj s)) w2)) : S4096x256.Idx → EReal) (((cfg1.win 6).blk t).view.emb (ix2 r j))
  rw [emb1_6 t r j]
  refine (congrFun (out6_val V c adj s w2 hadj hs hw2 t) (ix2 r j)).trans ?_
  show max (mm (iblk1 V c 0 (pt (m8 t)) : S512x4096.Idx → EReal) (mm (relu (mm adj s)) w2) (ix2 r j)) 0
    = max (mm adj (mm (relu (mm adj s)) w2) (ix2 (⟨512 * rowBlk' t + r.val, _⟩ : Fin 4096) j)) 0
  rw [mm_rowBlock adj (iblk1 V c 0 (pt (m8 t))) (mm (relu (mm adj s)) w2) (rowBlk (pt (m8 t))) (rowBlk_lt _)
    (blk_pt V c adj hadj (pt (m8 t))) r j]
  -- the parked row block is the one this point stores
  refine congrArg (fun i : Fin 4096 => max (mm adj (mm (relu (mm adj s)) w2) (ix2 i j)) 0) (Fin.ext ?_)
  show 512 * rowBlk (pt (m8 t)) + r.val = 512 * rowBlk' t + r.val
  rw [rowBlk_m8 t ht]

/-- An index of the array is in point `t`'s block iff each coordinate is in the block's range on its axis. -/
private theorem mem_blk6 (t : Fin cfg1.N) (i : S4096x256.Idx) :
    i ∈ ((cfg1.win 6).blk t).view.set ↔ ∀ a : Fin 2, win1_6.index t a * S512x256.size a ≤ (i a).val
      ∧ (i a).val < win1_6.index t a * S512x256.size a + S512x256.size a := by
  show i ∈ ((View.whole main_call0_v6_1).slice (win1_6.rect t)).set ↔ _
  rw [View.set_slice_whole, Rect.mem_set_unit]
  exact Iff.rfl

/-- Row `i` lies in row block `i / 512`, written back after point `8 + i / 512`. -/
private theorem cover6 (i : S4096x256.Idx) :
    ∃ t : Fin cfg1.N, (cfg1.win 6).flush t = true ∧ i ∈ ((cfg1.win 6).blk t).view.set := by
  have hi0 : (i 0).val < 4096 := idx2_lt0 i
  have hi1 : (i 1).val < 256 := idx2_lt1 i
  have hN : 8 + (i 0).val / 512 < cfg1.N := lt_of_lt_of_eq (by omega : 8 + (i 0).val / 512 < 16) N_1.symm
  have q0 : win1_6.index ⟨8 + (i 0).val / 512, hN⟩ (0 : Fin 2) = (i 0).val / 512 :=
    (congrFun (index1_6 ⟨8 + (i 0).val / 512, hN⟩) 0).trans (by
      show (if 8 + (i 0).val / 512 < 8 then 0 else 8 + (i 0).val / 512 - 8) = (i 0).val / 512
      rw [if_neg (by omega)]; omega)
  have q1 : win1_6.index ⟨8 + (i 0).val / 512, hN⟩ (1 : Fin 2) = 0 := congrFun (index1_6 ⟨8 + (i 0).val / 512, hN⟩) 1
  refine ⟨⟨8 + (i 0).val / 512, hN⟩, ?_, ?_⟩
  · rw [flush1_6]; exact decide_eq_true (Nat.le_add_right 8 _)
  · rw [mem_blk6]
    intro a
    match a with
    | ⟨0, _⟩ =>
      show win1_6.index ⟨8 + (i 0).val / 512, hN⟩ (0 : Fin 2) * 512 ≤ (i 0).val
        ∧ (i 0).val < win1_6.index ⟨8 + (i 0).val / 512, hN⟩ (0 : Fin 2) * 512 + 512
      rw [q0]; omega
    | ⟨1, _⟩ =>
      show win1_6.index ⟨8 + (i 0).val / 512, hN⟩ (1 : Fin 2) * 256 ≤ (i 1).val
        ∧ (i 1).val < win1_6.index ⟨8 + (i 0).val / 512, hN⟩ (1 : Fin 2) * 256 + 256
      rw [q1]; omega

/-- After the second region the second layer's (narrow) array holds `max(adj · (max(adj · s, 0) · W₂), 0)`. -/
theorem h2_val (c : Dev nD) (adj : A4096x4096) (s : A4096x512) (w2 : A512x256)
    (hadj : (V c main_arg1 : S4096x4096.Idx → EReal) = adj) (hs : (V c main_call0_v5 : S4096x512.Idx → EReal) = s)
    (hw2 : (V c main_call0_v1 : S512x256.Idx → EReal) = w2) :
    ((dat1 V c).arrAt 6 cfg1.N : S4096x256.Idx → EReal) = relu (mm adj (mm (relu (mm adj s)) w2)) :=
  (dat1 V c).arrAt_eq_of_cover 6 (relu (mm adj (mm (relu (mm adj s)) w2)) : S4096x256.Idx → EReal)
    (fun t hf => flushed6_eq V c adj s w2 hadj hs hw2 t (of_decide_eq_true ((flush1_6 t).symm.trans hf)))
    cover6

/-! ## The projection's array -/

/-- The projection's row block as a second-phase point stores it: the second layer's row block times the projection
    weights, the bias row added to every row. -/
private theorem out7_val (c : Dev nD) (adj : A4096x4096) (s : A4096x512) (w2 : A512x256)
    (wzt : (⟨2, ![256, 64]⟩ : Shape).Idx → EReal) (b : (⟨2, ![1, 64]⟩ : Shape).Idx → EReal)
    (hadj : (V c main_arg1 : S4096x4096.Idx → EReal) = adj) (hs : (V c main_call0_v5 : S4096x512.Idx → EReal) = s)
    (hw2 : (V c main_call0_v1 : S512x256.Idx → EReal) = w2) (hwz : (V c main_call0_v3 : S256x64.Idx → EReal) = wzt)
    (hb : (V c main_call0_v4 : S1x64.Idx → EReal) = b) (t : Fin cfg1.N) :
    (out7 V c t : S512x64.Idx → EReal)
      = fun j => mm (relu (mm (iblk1 V c 0 (pt (m8 t)) : S512x4096.Idx → EReal) (mm (relu (mm adj s)) w2))) wzt j
          + b (ix2 (0 : Fin 1) (j 1 : Fin 64)) := by
  unfold out7 S0blk
  refine (pay7_ideal (k1_pay2 (iblk1 V c 0 (pt (m8 t)))) (S1full V c) (iblk1 V c 3 t) (iblk1 V c 4 t)).trans ?_
  rw [pay2_ideal (iblk1 V c 0 (pt (m8 t))), s1full_val V c adj s w2 hadj hs hw2, iblk1_3_eq V c t, iblk1_4_eq V c t, hwz, hb]

/-- What a second-phase point writes back is its block of the whole projection. -/
private theorem flushed7_eq (c : Dev nD) (adj : A4096x4096) (s : A4096x512) (w2 : A512x256)
    (wzt : (⟨2, ![256, 64]⟩ : Shape).Idx → EReal) (b : (⟨2, ![1, 64]⟩ : Shape).Idx → EReal)
    (hadj : (V c main_arg1 : S4096x4096.Idx → EReal) = adj) (hs : (V c main_call0_v5 : S4096x512.Idx → EReal) = s)
    (hw2 : (V c main_call0_v1 : S512x256.Idx → EReal) = w2) (hwz : (V c main_call0_v3 : S256x64.Idx → EReal) = wzt)
    (hb : (V c main_call0_v4 : S1x64.Idx → EReal) = b) (t : Fin cfg1.N) (ht : 8 ≤ t.val) :
    (dat1 V c).flushed 7 t = ((cfg1.win 7).blk t).view.read (Elt Ideal) (fun i => mm (relu (mm adj (mm (relu (mm adj s)) w2))) wzt i + b (ix2 (0 : Fin 1) (i 1 : Fin 64)) : S4096x64.Idx → EReal) := by
  show (cfg1.win 7).cut (grid1.coords t) ((dat1 V c).after 7 t) = _
  rw [after1_7]
  funext y
  obtain ⟨r, j, rfl⟩ : ∃ (r : Fin 512) (j : Fin 64), y = ix2 r j := ⟨y 0, y 1, eq_ix2 y⟩
  show (out7 V c t : S512x64.Idx → EReal) (ix2 r j)
    = (fun i => mm (relu (mm adj (mm (relu (mm adj s)) w2))) wzt i + b (ix2 (0 : Fin 1) (i 1 : Fin 64)) : S4096x64.Idx → EReal) (((cfg1.win 7).blk t).view.emb (ix2 r j))
  rw [emb1_7 t r j]
  refine (congrFun (out7_val V c adj s w2 wzt b hadj hs hw2 hwz hb t) (ix2 r j)).trans ?_
  show mm (relu (mm (iblk1 V c 0 (pt (m8 t)) : S512x4096.Idx → EReal) (mm (relu (mm adj s)) w2))) wzt (ix2 r j) + b (ix2 (0 : Fin 1) j)
    = mm (relu (mm adj (mm (relu (mm adj s)) w2))) wzt (ix2 (⟨512 * rowBlk' t + r.val, _⟩ : Fin 4096) j) + b (ix2 (0 : Fin 1) j)
  rw [mm_relu_rowBlock adj (iblk1 V c 0 (pt (m8 t))) (mm (relu (mm adj s)) w2) wzt (rowBlk (pt (m8 t))) (rowBlk_lt _)
    (blk_pt V c adj hadj (pt (m8 t))) r j]
  -- the parked row block is the one this point stores
  refine congrArg (fun i : Fin 4096 => mm (relu (mm adj (mm (relu (mm adj s)) w2))) wzt (ix2 i j) + b (ix2 (0 : Fin 1) j)) (Fin.ext ?_)
  show 512 * rowBlk (pt (m8 t)) + r.val = 512 * rowBlk' t + r.val
  rw [rowBlk_m8 t ht]

/-- An index of the array is in point `t`'s block iff each coordinate is in the block's range on its axis. -/
private theorem mem_blk7 (t : Fin cfg1.N) (i : S4096x64.Idx) :
    i ∈ ((cfg1.win 7).blk t).view.set ↔ ∀ a : Fin 2, win1_7.index t a * S512x64.size a ≤ (i a).val
      ∧ (i a).val < win1_7.index t a * S512x64.size a + S512x64.size a := by
  show i ∈ ((View.whole main_v0_2).slice (win1_7.rect t)).set ↔ _
  rw [View.set_slice_whole, Rect.mem_set_unit]
  exact Iff.rfl

/-- Row `i` lies in row block `i / 512`, written back after point `8 + i / 512`. -/
private theorem cover7 (i : S4096x64.Idx) :
    ∃ t : Fin cfg1.N, (cfg1.win 7).flush t = true ∧ i ∈ ((cfg1.win 7).blk t).view.set := by
  have hi0 : (i 0).val < 4096 := idx2_lt0 i
  have hi1 : (i 1).val < 64 := idx2_lt1 i
  have hN : 8 + (i 0).val / 512 < cfg1.N := lt_of_lt_of_eq (by omega : 8 + (i 0).val / 512 < 16) N_1.symm
  have q0 : win1_7.index ⟨8 + (i 0).val / 512, hN⟩ (0 : Fin 2) = (i 0).val / 512 :=
    (congrFun (index1_7 ⟨8 + (i 0).val / 512, hN⟩) 0).trans (by
      show (if 8 + (i 0).val / 512 < 8 then 0 else 8 + (i 0).val / 512 - 8) = (i 0).val / 512
      rw [if_neg (by omega)]; omega)
  have q1 : win1_7.index ⟨8 + (i 0).val / 512, hN⟩ (1 : Fin 2) = 0 := congrFun (index1_7 ⟨8 + (i 0).val / 512, hN⟩) 1
  refine ⟨⟨8 + (i 0).val / 512, hN⟩, ?_, ?_⟩
  · rw [flush1_7]; exact decide_eq_true (Nat.le_add_right 8 _)
  · rw [mem_blk7]
    intro a
    match a with
    | ⟨0, _⟩ =>
      show win1_7.index ⟨8 + (i 0).val / 512, hN⟩ (0 : Fin 2) * 512 ≤ (i 0).val
        ∧ (i 0).val < win1_7.index ⟨8 + (i 0).val / 512, hN⟩ (0 : Fin 2) * 512 + 512
      rw [q0]; omega
    | ⟨1, _⟩ =>
      show win1_7.index ⟨8 + (i 0).val / 512, hN⟩ (1 : Fin 2) * 64 ≤ (i 1).val
        ∧ (i 1).val < win1_7.index ⟨8 + (i 0).val / 512, hN⟩ (1 : Fin 2) * 64 + 64
      rw [q1]; omega

/-- and the projection's array holds that times the (transposed) projection weights `wzt`, the bias row `b` added to
    every row. -/
theorem z_val (c : Dev nD) (adj : A4096x4096) (s : A4096x512) (w2 : A512x256)
    (wzt : (⟨2, ![256, 64]⟩ : Shape).Idx → EReal) (b : (⟨2, ![1, 64]⟩ : Shape).Idx → EReal)
    (hadj : (V c main_arg1 : S4096x4096.Idx → EReal) = adj) (hs : (V c main_call0_v5 : S4096x512.Idx → EReal) = s)
    (hw2 : (V c main_call0_v1 : S512x256.Idx → EReal) = w2) (hwz : (V c main_call0_v3 : S256x64.Idx → EReal) = wzt)
    (hb : (V c main_call0_v4 : S1x64.Idx → EReal) = b) :
    ((dat1 V c).arrAt 7 cfg1.N : S4096x64.Idx → EReal)
      = fun j => mm (relu (mm adj (mm (relu (mm adj s)) w2))) wzt j + b (ix2 (0 : Fin 1) (j 1 : Fin 64)) :=
  (dat1 V c).arrAt_eq_of_cover 7
    (fun i => mm (relu (mm adj (mm (relu (mm adj s)) w2))) wzt i + b (ix2 (0 : Fin 1) (i 1 : Fin 64)) : S4096x64.Idx → EReal)
    (fun t hf => flushed7_eq V c adj s w2 wzt b hadj hs hw2 hwz hb t (of_decide_eq_true ((flush1_7 t).symm.trans hf)))
    cover7

end

end Cert.KernelIdeal.Hand

end
-- ==== Proof.KI.Glue.lean ====
/-
  Two layout facts read at an entry, stated for any proof of the operation's side condition: a 64 × 256 array
  transposed is its transpose, and a row vector cast to a one-row array reads the vector along its one row.
-/
import proofs.«145978_g57612691309227_cont_sun_m_451_18_alg».proof.Proof.Spec
import Idealize.ShloMosaic.Lib.Pipeline.Value
import Idealize.ShloMosaic.Lib.ValueIdx
import Idealize.ShloMosaic.Lib.ValueLayout
import Idealize.ShloMosaic.PureOps.Ideal

noncomputable section

namespace Cert.KernelIdeal.Hand

open Idealize.ShloMosaic Idealize.ShloMosaic.ValueIdx

/-- A 64 × 256 array transposed reads, at `(j, i)`, the array at `(i, j)`: it is the transpose. -/
theorem tr_any (wz : Cert.Spec.A64x256) (h : (⟨2, ![64, 256]⟩ : Shape).Transposes [1, 0] (⟨2, ![256, 64]⟩ : Shape)) :
    transpose (⟨2, ![256, 64]⟩ : Shape) [1, 0] wz h = Cert.Spec.tr wz := by
  funext j
  exact (congrArg (transpose (⟨2, ![256, 64]⟩ : Shape) [1, 0] wz h) (eq_ix2 j)).trans
    (transpose_ix2_apply wz h (j 0) (j 1))

/-- A 64-vector cast to a 1 × 64 array reads, at row 0 and column `j`, the vector at `j`: the two entries have the same
    row-major position, `j`. -/
theorem bias_row (bz : Cert.Spec.A64) (h : (⟨1, ![64]⟩ : Shape).ShapeCasts (⟨2, ![1, 64]⟩ : Shape)) (j : Fin 64) :
    shapeCast (⟨2, ![1, 64]⟩ : Shape) bz h (ix2 (0 : Fin 1) j) = bz (ix1 j) := by
  refine shapeCast_apply bz h (ix2 (0 : Fin 1) j) (ix1 j) ?_
  rw [Shape.rowMajor_val_one, Shape.rowMajor_val_two]
  show j.val = 0 * 64 + j.val
  omega

end Cert.KernelIdeal.Hand

end
-- ==== Proof.KI.Results.lean ====
import proofs.«145978_g57612691309227_cont_sun_m_451_18_alg».proof.Proof.Gen.KernelIdeal.Launch
import proofs.«145978_g57612691309227_cont_sun_m_451_18_alg».proof.Proof.Gen.KernelIdeal.Skeleton
import proofs.«145978_g57612691309227_cont_sun_m_451_18_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import proofs.«145978_g57612691309227_cont_sun_m_451_18_alg».proof.Proof.KI.R1Defs
import proofs.«145978_g57612691309227_cont_sun_m_451_18_alg».proof.Proof.KI.Region0
import Idealize.ShloMosaic.Lib.Pipeline.Value
import proofs.«145978_g57612691309227_cont_sun_m_451_18_alg».proof.Proof.KI.Blocks
import proofs.«145978_g57612691309227_cont_sun_m_451_18_alg».proof.Proof.KI.R1Sched
import proofs.«145978_g57612691309227_cont_sun_m_451_18_alg».proof.Proof.KI.PayIdeal
import proofs.«145978_g57612691309227_cont_sun_m_451_18_alg».proof.Proof.Spec
import proofs.«145978_g57612691309227_cont_sun_m_451_18_alg».proof.Proof.KI.Run
import proofs.«145978_g57612691309227_cont_sun_m_451_18_alg».proof.Proof.KI.Val0
import proofs.«145978_g57612691309227_cont_sun_m_451_18_alg».proof.Proof.KI.Val1a
import proofs.«145978_g57612691309227_cont_sun_m_451_18_alg».proof.Proof.KI.Val1b
import proofs.«145978_g57612691309227_cont_sun_m_451_18_alg».proof.Proof.KI.Glue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Idealize.ShloMosaic.ValueIdx Cert.Spec

/-! # The idealized kernel's three results are the network's layers of its six arguments

The run ends with every buffer at the last boundary's contents; read at the three result buffers, through the two
regions' write-backs and the host operations around them (every change of float format the identity here), these are
the first layer, the second layer and the projection. -/

variable (m : (ℓ : Loc nD τ sig) → Buf (Elt Ideal) ℓ)

/-- The six arguments on core `c`, as arrays of extended reals. -/
abbrev aX (c : Dev nD) : A4096x512 := m ((c : Thread nD τ).loc main_arg0)
abbrev aAdj (c : Dev nD) : A4096x4096 := m ((c : Thread nD τ).loc main_arg1)
abbrev aW1 (c : Dev nD) : A512x512 := m ((c : Thread nD τ).loc main_arg2)
abbrev aW2 (c : Dev nD) : A512x256 := m ((c : Thread nD τ).loc main_arg3)
abbrev aWz (c : Dev nD) : A64x256 := m ((c : Thread nD τ).loc main_arg4)
abbrev aBz (c : Dev nD) : A64 := m ((c : Thread nD τ).loc main_arg5)

theorem res_h1 (c : Dev nD) :
    (W4 m c (Proc.devRef .tc main_v0_0) : S4096x512.Idx → EReal) = H1 (aAdj m c) (aX m c) (aW1 m c) := by
  -- the first region's result, as the second region finds it, is the first layer's operand `x · W₁`: the narrowed
  -- first weight matrix is that matrix
  have hw1 : (V1 m c main_call0_v0 : S512x512.Idx → EReal) = aW1 m c := (V1_w1 m c).trans rfl
  have hs : (V2 m c main_call0_v5 : S4096x512.Idx → EReal) = S1 (aX m c) (aW1 m c) :=
    (V2_s1 m c).trans (s1_val (V1 m) c (aX m c) (aW1 m c) (V1_x m c) hw1)
  exact (W4_v0_0 m c).trans (h1_val (V2 m) c (aAdj m c) (S1 (aX m c) (aW1 m c)) (V2_adj m c) hs)
theorem res_h2 (c : Dev nD) :
    (W4 m c (Proc.devRef .tc main_v0_1) : S4096x256.Idx → EReal) = H2 (aAdj m c) (aX m c) (aW1 m c) (aW2 m c) := by
  -- the first region's result, as the second region finds it, is the first layer's operand `x · W₁`: the narrowed
  -- first weight matrix is that matrix
  have hw1 : (V1 m c main_call0_v0 : S512x512.Idx → EReal) = aW1 m c := (V1_w1 m c).trans rfl
  have hs : (V2 m c main_call0_v5 : S4096x512.Idx → EReal) = S1 (aX m c) (aW1 m c) :=
    (V2_s1 m c).trans (s1_val (V1 m) c (aX m c) (aW1 m c) (V1_x m c) hw1)
  -- the narrowed second weight matrix is that matrix, and widening the second layer's array changes nothing
  have hw2 : (V2 m c main_call0_v1 : S512x256.Idx → EReal) = aW2 m c := (V2_w2 m c).trans rfl
  exact (W4_v0_1 m c).trans
    (h2_val (V2 m) c (aAdj m c) (S1 (aX m c) (aW1 m c)) (aW2 m c) (V2_adj m c) hs hw2)
theorem res_z (c : Dev nD) :
    (W4 m c (Proc.devRef .tc main_v0_2) : S4096x64.Idx → EReal)
      = Z (aAdj m c) (aX m c) (aW1 m c) (aW2 m c) (aWz m c) (aBz m c) := by
  -- the first region's result, as the second region finds it, is the first layer's operand `x · W₁`: the narrowed
  -- first weight matrix is that matrix
  have hw1 : (V1 m c main_call0_v0 : S512x512.Idx → EReal) = aW1 m c := (V1_w1 m c).trans rfl
  have hs : (V2 m c main_call0_v5 : S4096x512.Idx → EReal) = S1 (aX m c) (aW1 m c) :=
    (V2_s1 m c).trans (s1_val (V1 m) c (aX m c) (aW1 m c) (V1_x m c) hw1)
  have hw2 : (V2 m c main_call0_v1 : S512x256.Idx → EReal) = aW2 m c := (V2_w2 m c).trans rfl
  -- the projection's weights, transposed then narrowed, are the transpose; the bias is the 64-vector cast to one row
  have hwz : (V2 m c main_call0_v3 : S256x64.Idx → EReal) = tr (aWz m c) :=
    (V2_wzt m c).trans (tr_any (aWz m c) transposes_S64x256_S256x64_1_0)
  have hb : (V2 m c main_call0_v4 : S1x64.Idx → EReal) = shapeCast S1x64 (aBz m c) shapeCasts_S64_S1x64 := V2_bz m c
  refine (W4_v0_2 m c).trans ((z_val (V2 m) c (aAdj m c) (S1 (aX m c) (aW1 m c)) (aW2 m c) (tr (aWz m c))
    (shapeCast S1x64 (aBz m c) shapeCasts_S64_S1x64) (V2_adj m c) hs hw2 hwz hb).trans ?_)
  -- entry by entry: the one-row bias read at row 0, column `j₁` is the vector at `j₁`
  funext j
  beta_reduce
  rw [bias_row (aBz m c) shapeCasts_S64_S1x64 (j 1)]
  rfl

end Cert.KernelIdeal.Hand

end
-- ==== Proof.RefVal.lean ====
/-
  The reference's three results, as its run states them, are the network's layers over the extended reals.
-/
import proofs.«145978_g57612691309227_cont_sun_m_451_18_alg».proof.Proof.Gen.ReferenceIdeal
import proofs.«145978_g57612691309227_cont_sun_m_451_18_alg».proof.Proof.Gen.ReferenceIdeal.Run
import proofs.«145978_g57612691309227_cont_sun_m_451_18_alg».proof.Proof.Spec
import proofs.«145978_g57612691309227_cont_sun_m_451_18_alg».proof.Proof.LibPlainProduct
import Idealize.ShloMosaic.Lib.Pipeline.Value
import Idealize.ShloMosaic.Lib.ValueIdx
import Idealize.ShloMosaic.Lib.ValueLayout

noncomputable section

namespace Cert.ReferenceIdeal.RefValue

open Cert.ReferenceIdeal Cert.ReferenceIdeal.Gen Cert.Spec
open Idealize.ShloMosaic Idealize.ShloMosaic.ValueIdx

/-- The maximum with the zero scalar broadcast over the array is the positive part. -/
theorem relu_4096x512 (a : A4096x512) :
    maximumf (F := Ideal) (φ := .f32) a (broadcastInDim S4096x512 ![] bcast_S_S4096x512 (constant (F := Ideal) S_ .f32 0x00000000#32)) = relu a := by
  funext j
  show max (a j) (broadcastInDim S4096x512 ![] bcast_S_S4096x512 (constant (F := Ideal) S_ .f32 0x00000000#32) j) = max (a j) 0
  rw [broadcastInDim_apply _ bcast_S_S4096x512 _ j ix0 (fun x => x.elim0), constant_apply, Ideal.ofBits_zero_f32]
theorem relu_4096x256 (a : A4096x256) :
    maximumf (F := Ideal) (φ := .f32) a (broadcastInDim S4096x256 ![] bcast_S_S4096x256 (constant (F := Ideal) S_ .f32 0x00000000#32)) = relu a := by
  funext j
  show max (a j) (broadcastInDim S4096x256 ![] bcast_S_S4096x256 (constant (F := Ideal) S_ .f32 0x00000000#32) j) = max (a j) 0
  rw [broadcastInDim_apply _ bcast_S_S4096x256 _ j ix0 (fun x => x.elim0), constant_apply, Ideal.ofBits_zero_f32]
/-- The host's transpose of the projection weights. -/
theorem tr_wz (wz : A64x256) : transpose S256x64 [1, 0] wz transposes_S64x256_S256x64_1_0 = tr wz := by
  funext j
  exact (congrArg (transpose S256x64 [1, 0] wz transposes_S64x256_S256x64_1_0) (eq_ix2 j)).trans
    (transpose_ix2_apply wz transposes_S64x256_S256x64_1_0 (j 0) (j 1))
/-- The bias, broadcast to one row and then to every row, added. -/
theorem add_bias (a : A4096x64) (bz : A64) :
    addf (F := Ideal) (φ := .f32) a (broadcastInDim S4096x64 ![0, 1] bcast_S1x64_S4096x64_0_1 (broadcastInDim S1x64 ![1] bcast_S64_S1x64_1 bz)) = addRow a bz := by
  funext j
  show a j + broadcastInDim S4096x64 ![0, 1] bcast_S1x64_S4096x64_0_1 (broadcastInDim S1x64 ![1] bcast_S64_S1x64_1 bz) j
    = a j + bz (ix1 (j 1 : Fin 64))
  -- the row array at row 0 and the entry's column, then the bias at that column
  rw [broadcastInDim_apply _ bcast_S1x64_S4096x64_0_1 _ j (ix2 (0 : Fin 1) (j 1 : Fin 64)) (fun x =>
      match x with
      | ⟨0, _⟩ => rfl
      | ⟨1, _⟩ => rfl),
    broadcastInDim_apply _ bcast_S64_S1x64_1 bz (ix2 (0 : Fin 1) (j 1 : Fin 64)) (ix1 (j 1 : Fin 64)) (fun x =>
      match x with
      | ⟨0, _⟩ => rfl)]

/-- The reference's first result, as its run states it, is the first layer. -/
theorem ref_h1 (x : A4096x512) (adj : A4096x4096) (w1 : A512x512) :
    maximumf (F := Ideal) (φ := .f32) (Host.dotGeneral (F := Ideal) (φ₁ := .f32) (φ₂ := .f32) dot_S4096x4096_S4096x512_S4096x512_1_0_0_1_n_n none adj (Host.dotGeneral (F := Ideal) (φ₁ := .f32) (φ₂ := .f32) dot_S4096x512_S512x512_S4096x512_1_0_0_1_n_n none x w1)) (broadcastInDim S4096x512 ![] bcast_S_S4096x512 (constant S_ .f32 0x00000000#32)) = H1 adj x w1 := by
  rw [Cert.Lib.PlainProduct.dotGeneral_eq_mm dot_S4096x512_S512x512_S4096x512_1_0_0_1_n_n rfl rfl rfl rfl rfl rfl, Cert.Lib.PlainProduct.dotGeneral_eq_mm dot_S4096x4096_S4096x512_S4096x512_1_0_0_1_n_n rfl rfl rfl rfl rfl rfl,
    relu_4096x512]
  rfl
/-- Its second result is the second layer. -/
theorem ref_h2 (x : A4096x512) (adj : A4096x4096) (w1 : A512x512) (w2 : A512x256) :
    maximumf (F := Ideal) (φ := .f32) (Host.dotGeneral (F := Ideal) (φ₁ := .f32) (φ₂ := .f32) dot_S4096x4096_S4096x256_S4096x256_1_0_0_1_n_n none adj (Host.dotGeneral (F := Ideal) (φ₁ := .f32) (φ₂ := .f32) dot_S4096x512_S512x256_S4096x256_1_0_0_1_n_n none (maximumf (Host.dotGeneral (F := Ideal) (φ₁ := .f32) (φ₂ := .f32) dot_S4096x4096_S4096x512_S4096x512_1_0_0_1_n_n none adj (Host.dotGeneral (F := Ideal) (φ₁ := .f32) (φ₂ := .f32) dot_S4096x512_S512x512_S4096x512_1_0_0_1_n_n none x w1)) (broadcastInDim S4096x512 ![] bcast_S_S4096x512 (constant S_ .f32 0x00000000#32))) w2)) (broadcastInDim S4096x256 ![] bcast_S_S4096x256 (constant S_ .f32 0x00000000#32)) = H2 adj x w1 w2 := by
  rw [ref_h1, Cert.Lib.PlainProduct.dotGeneral_eq_mm dot_S4096x512_S512x256_S4096x256_1_0_0_1_n_n rfl rfl rfl rfl rfl rfl, Cert.Lib.PlainProduct.dotGeneral_eq_mm dot_S4096x4096_S4096x256_S4096x256_1_0_0_1_n_n rfl rfl rfl rfl rfl rfl,
    relu_4096x256]
  rfl
/-- Its third result is the projection. -/
theorem ref_z (x : A4096x512) (adj : A4096x4096) (w1 : A512x512) (w2 : A512x256) (wz : A64x256) (bz : A64) :
    addf (F := Ideal) (φ := .f32) (Host.dotGeneral (F := Ideal) (φ₁ := .f32) (φ₂ := .f32) dot_S4096x256_S256x64_S4096x64_1_0_0_1_n_n none (maximumf (Host.dotGeneral (F := Ideal) (φ₁ := .f32) (φ₂ := .f32) dot_S4096x4096_S4096x256_S4096x256_1_0_0_1_n_n none adj (Host.dotGeneral (F := Ideal) (φ₁ := .f32) (φ₂ := .f32) dot_S4096x512_S512x256_S4096x256_1_0_0_1_n_n none (maximumf (Host.dotGeneral (F := Ideal) (φ₁ := .f32) (φ₂ := .f32) dot_S4096x4096_S4096x512_S4096x512_1_0_0_1_n_n none adj (Host.dotGeneral (F := Ideal) (φ₁ := .f32) (φ₂ := .f32) dot_S4096x512_S512x512_S4096x512_1_0_0_1_n_n none x w1)) (broadcastInDim S4096x512 ![] bcast_S_S4096x512 (constant S_ .f32 0x00000000#32))) w2)) (broadcastInDim S4096x256 ![] bcast_S_S4096x256 (constant S_ .f32 0x00000000#32))) (transpose S256x64 [1, 0] wz transposes_S64x256_S256x64_1_0)) (broadcastInDim S4096x64 ![0, 1] bcast_S1x64_S4096x64_0_1 (broadcastInDim S1x64 ![1] bcast_S64_S1x64_1 bz)) = Z adj x w1 w2 wz bz := by
  rw [ref_h2, tr_wz, Cert.Lib.PlainProduct.dotGeneral_eq_mm dot_S4096x256_S256x64_S4096x64_1_0_0_1_n_n rfl rfl rfl rfl rfl rfl, add_bias]
  rfl

end Cert.ReferenceIdeal.RefValue

end
-- ==== Proof.lean ====
/-
  A three-layer graph-convolution encoder on a dense propagation matrix, against its plain reference.

  With `s = x · W₁`, both programs compute `h₁ = max(adj · s, 0)`, `h₂ = max(adj · (h₁ · W₂), 0)` and
  `z = h₂ · Wzᵀ + bz`. The kernel does it in two pipelined regions: the first forms `s` in one step; the second walks a
  grid of two phases of eight 512-row blocks — in the first phase it parks each row block of `adj` and of `h₁ · W₂` in
  two scratch buffers while storing `h₁`'s row block, in the second it reads the parked row block of `adj` and the
  whole parked operand and stores the row blocks of `h₂` and `z`. Every product contracts its whole inner axis at once,
  so over the extended reals (where a change of float format is the identity) each entry of each result is the same
  sum on both sides: no law beyond reading both programs entry by entry is needed, and the precondition is not used.

  The frames (both kernel programs run to the end, fault nowhere and leave the six arguments as launched) come from one
  run of @main's four segments, stated at any float instance: the scratch buffers' contents are carried in the second
  region's invariant as "the row blocks parked so far hold what their points stored", and an output window that is
  parked on one block across the phase it is not stored in keeps, or gets back, exactly what the proof data state.
  The reference has no kernel: its frame is its run with the results dropped.
-/
import proofs.«145978_g57612691309227_cont_sun_m_451_18_alg».proof.Defs
import proofs.«145978_g57612691309227_cont_sun_m_451_18_alg».proof.Proof.Gen.Kernel
import proofs.«145978_g57612691309227_cont_sun_m_451_18_alg».proof.Proof.Gen.KernelIdeal
import proofs.«145978_g57612691309227_cont_sun_m_451_18_alg».proof.Proof.Gen.ReferenceIdeal
import proofs.«145978_g57612691309227_cont_sun_m_451_18_alg».proof.Proof.Gen.Pre_finite_inputs
import proofs.«145978_g57612691309227_cont_sun_m_451_18_alg».proof.Proof.Gen.ReferenceIdeal.Run
import proofs.«145978_g57612691309227_cont_sun_m_451_18_alg».proof.Proof.K.Run
import proofs.«145978_g57612691309227_cont_sun_m_451_18_alg».proof.Proof.KI.Run
import proofs.«145978_g57612691309227_cont_sun_m_451_18_alg».proof.Proof.KI.Results
import proofs.«145978_g57612691309227_cont_sun_m_451_18_alg».proof.Proof.RefVal
import Idealize.ShloMosaic.Adequacy
import Idealize.ShloMosaic.Init

noncomputable section

namespace Cert.Proof

open Idealize.ShloMosaic Idealize.SL.Sem Cert.Spec

/-- The word-level kernel's frame: the run of its four segments, read at the six arguments. -/
theorem frame_k : Cert.frame_Kernel := fun m ρ _ => Cert.Kernel.Hand.frame m ρ

/-- The idealized kernel's frame: the same run at the ideal instance. -/
theorem frame_ki : Cert.frame_KernelIdeal := fun m ρ _ => Cert.KernelIdeal.Hand.frame m ρ

/-- The reference's frame: its run, the three results dropped. -/
theorem frame_r : Cert.frame_ReferenceIdeal := fun m ρ _ =>
  (θ_run Cert.ReferenceIdeal.defs _ _).mono (fun _ h c => (h c).2.2.2) (Cert.ReferenceIdeal.Value.run (F := Ideal) m ρ)

/-- The ideal pass rewrote nothing: there is nothing to preserve. -/
theorem preserves : Cert.preserves_Kernel_KernelIdeal := trivial

open Cert.KernelIdeal.Hand in
/-- From memories agreeing on the six arguments both idealized programs end with the first layer, the second layer and
    the projection of those arguments in their three results. -/
theorem algebraic : Cert.algebraic_KernelIdeal_ReferenceIdeal := by
  intro m ρ m' ρ' _ hagree
  refine ⟨fun c => H1 (aAdj m c) (aX m c) (aW1 m c), fun c => H2 (aAdj m c) (aX m c) (aW1 m c) (aW2 m c),
    fun c => Z (aAdj m c) (aX m c) (aW1 m c) (aW2 m c) (aWz m c) (aBz m c), ?_, ?_⟩
  · refine (θ_run Cert.KernelIdeal.defs _ _).mono (fun r h c => ?_) (Cert.KernelIdeal.Hand.run m ρ)
    exact ⟨(h c _ (mem_uc Cert.KernelIdeal.main_v0_0 (by decide))).trans (res_h1 m c),
      (h c _ (mem_uc Cert.KernelIdeal.main_v0_1 (by decide))).trans (res_h2 m c),
      (h c _ (mem_uc Cert.KernelIdeal.main_v0_2 (by decide))).trans (res_z m c),
      (h c _ (mem_uc Cert.KernelIdeal.main_arg0 (by decide))).trans (W4_main_arg0 m c),
      (h c _ (mem_uc Cert.KernelIdeal.main_arg1 (by decide))).trans (W4_main_arg1 m c),
      (h c _ (mem_uc Cert.KernelIdeal.main_arg2 (by decide))).trans (W4_main_arg2 m c),
      (h c _ (mem_uc Cert.KernelIdeal.main_arg3 (by decide))).trans (W4_main_arg3 m c),
      (h c _ (mem_uc Cert.KernelIdeal.main_arg4 (by decide))).trans (W4_main_arg4 m c),
      (h c _ (mem_uc Cert.KernelIdeal.main_arg5 (by decide))).trans (W4_main_arg5 m c)⟩
  · refine (θ_run Cert.ReferenceIdeal.defs _ _).mono (fun r h c => ?_) (Cert.ReferenceIdeal.Value.run (F := Ideal) m' ρ')
    obtain ⟨h2, h5, h10, hargs⟩ := h c
    obtain ⟨e0, e1, e2, e3, e4, e5⟩ := hagree c
    refine ⟨?_, ?_, ?_, hargs⟩
    · rw [h2, e0, e1, e2]
      exact Cert.ReferenceIdeal.RefValue.ref_h1 _ _ _
    · rw [h5, e0, e1, e2, e3]
      exact Cert.ReferenceIdeal.RefValue.ref_h2 _ _ _ _
    · rw [h10, e0, e1, e2, e3, e4, e5]
      exact Cert.ReferenceIdeal.RefValue.ref_z _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
